-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v132_1)) (v1 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_1) = v0 c
          ∧ r.2.mem ((c.tc : Thread Cert.KernelIdeal.nD Cert.KernelIdeal.τ).loc Cert.KernelIdeal.main_v143) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S20000 : Shape := ⟨1, ![20000]⟩
abbrev S32x128 : Shape := ⟨2, ![32, 128]⟩
abbrev S4x128x128 : Shape := ⟨3, ![4, 128, 128]⟩
abbrev S4x128 : Shape := ⟨2, ![4, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S3x128 : S_.BroadcastsInDim S3x128 (![] : Fin 0 → Fin S3x128.rank)
  reducesTo_S3x128_S_d0_1 : S3x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg0 main_v44
  let main_c_17 : IVec S_ 32 := constantI S_ 32 32#32
  let main_v46 : IVec S100000 32 := broadcastInDim S100000 ![] bcast_S_S100000 main_c_17
  let main_v47 : IVec S100000 1 := cmpi .slt main_arg0 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg0 : IVec S100000 32) (main_arg7 : FVec F S3x128 .f32) (main_arg8 : FVec F S2x128x128 .f32) (main_arg9 : FVec F S2x128 .f32) (main_arg10 : FVec F S128x1 .f32) (main_arg11 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg0 main_arg10 main_arg11 main_v33

def fn {F : FTy → Type} [FloatOps F] (main_arg0 : IVec S100000 32) (main_arg1 : IVec S2x600000 32) (main_arg2 : IVec S20000 32) (main_arg3 : FVec F S32x128 .f32) (main_arg4 : FVec F S4x128x128 .f32) (main_arg5 : FVec F S4x128 .f32) (main_arg6 : FVec F S3x128 .f32) (main_arg7 : FVec F S3x128 .f32) (main_arg8 : FVec F S2x128x128 .f32) (main_arg9 : FVec F S2x128 .f32) (main_arg10 : FVec F S128x1 .f32) (main_arg11 : FVec F S1 .f32) : IVec S_ 1 :=
  let main_v0 : FVec F S32x128 .f32 := Host.absf main_arg3
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg7 main_arg8 main_arg9 main_arg10 main_arg11 main_v13 main_v16
-- ==== Kernel.lean ====
abbrev S100000 : Shape := ⟨1, ![100000]⟩
abbrev S2x600000 : Shape := ⟨2, ![2, 600000]⟩
abbrev S20000 : Shape := ⟨1, ![20000]⟩
abbrev S32x128 : Shape := ⟨2, ![32, 128]⟩
abbrev S4x128x128 : Shape := ⟨3, ![4, 128, 128]⟩
abbrev S4x128 : Shape := ⟨2, ![4, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x128 : Shape := ⟨2, ![100000, 128]⟩
abbrev S4000x1 : Shape := ⟨2, ![4000, 1]⟩
abbrev S4000x128 : Shape := ⟨2, ![4000, 128]⟩
abbrev S4000x32 : Shape := ⟨2, ![4000, 32]⟩
abbrev S1x128x128 : Shape := ⟨3, ![1, 128, 128]⟩
abbrev S128x128 : Shape := ⟨2, ![128, 128]⟩
abbrev S700000x128 : Shape := ⟨2, ![700000, 128]⟩
abbrev S1x128 : Shape := ⟨2, ![1, 128]⟩
abbrev S128 : Shape := ⟨1, ![128]⟩
abbrev S4000 : Shape := ⟨1, ![4000]⟩
abbrev S20000x1 : Shape := ⟨2, ![20000, 1]⟩
abbrev S20000x128 : Shape := ⟨2, ![20000, 128]⟩
abbrev S2x1x128 : Shape := ⟨3, ![2, 1, 128]⟩
abbrev S1x1 : Shape := ⟨2, ![1, 1]⟩
abbrev S2000x128 : Shape := ⟨2, ![2000, 128]⟩
abbrev S2000x1 : Shape := ⟨2, ![2000, 1]⟩
abbrev S1x1x128 : Shape := ⟨3, ![1, 1, 128]⟩

abbrev nBuf : Space → Nat
  | .hbm => 185
  | .vmem => 75
  | .smem => 0
  | _ => 0

abbrev hbmTy0_0 (i : Nat) : BufTy := match i % 128 with
  | 0 => ⟨S100000, .i32⟩
  | 1 => ⟨S2x600000, .i32⟩
  | 2 => ⟨S20000, .i32⟩
  | 3 => ⟨S32x128, .f32⟩
  | 4 => ⟨S4x128x128, .f32⟩
  | 5 => ⟨S4x128, .f32⟩
  | 6 => ⟨S3x128, .f32⟩
  | 7 => ⟨S3x128, .f32⟩
  | 8 => ⟨S2x128x128, .f32⟩
  | 9 => ⟨S2x128, .f32⟩
  | 10 => ⟨S128x1, .f32⟩
  | 11 => ⟨S1, .f32⟩
  | 12 => ⟨S1x600000, .i32⟩
  | 13 => ⟨S600000, .i32⟩
  | 14 => ⟨S100000, .i32⟩
  | 15 => ⟨S700000, .i32⟩
  | 16 => ⟨S1x600000, .i32⟩
  | 17 => ⟨S600000, .i32⟩
  | 18 => ⟨S100000, .i32⟩
  | 19 => ⟨S700000, .i32⟩
  | 20 => ⟨S_, .f32⟩
  | 21 => ⟨S700000, .f32⟩
  | 22 => ⟨S_, .f32⟩
  | 23 => ⟨S100000, .f32⟩
  | 24 => ⟨S700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S700000, .i32⟩
  | 39 => ⟨S700000, .i1⟩
  | 40 => ⟨S_, .i32⟩
  | 41 => ⟨S700000, .i32⟩
  | 42 => ⟨S700000, .i32⟩
  | 43 => ⟨S700000, .i32⟩
  | 44 => ⟨S700000x1, .i32⟩
  | 45 => ⟨S700000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000, .f32⟩
  | 55 => ⟨S700000, .f32⟩
  | 56 => ⟨S100000x1, .i32⟩
  | 57 => ⟨S100000x128, .f32⟩
  | 58 => ⟨S1x128x128, .f32⟩
  | 59 => ⟨S128x128, .f32⟩
  | 60 => ⟨S100000x128, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000x128, .f32⟩
  | 70 => ⟨S700000x1, .f32⟩
  | 71 => ⟨S700000x128, .f32⟩
  | 72 => ⟨S700000x128, .f32⟩
  | 73 => ⟨S_, .f32⟩
  | 74 => ⟨S100000x128, .f32⟩
  | 75 => ⟨S700000x1, .i32⟩
  | 76 => ⟨S100000x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S_, .i32⟩
  | 92 => ⟨S700000, .i32⟩
  | 93 => ⟨S700000, .i1⟩
  | 94 => ⟨S_, .i32⟩
  | 95 => ⟨S700000, .i32⟩
  | 96 => ⟨S700000, .i32⟩
  | 97 => ⟨S700000, .i32⟩
  | 98 => ⟨S700000x1, .i32⟩
  | 99 => ⟨S700000x128, .f32⟩
  | 100 => ⟨S700000x1, .f32⟩
  | 101 => ⟨S700000x128, .f32⟩
  | 102 => ⟨S700000x128, .f32⟩
  | 103 => ⟨S_, .f32⟩
  | 104 => ⟨S100000x128, .f32⟩
  | 105 => ⟨S700000x1, .i32⟩
  | 106 => ⟨S100000x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S_, .i32⟩
  | 122 => ⟨S700000, .i32⟩
  | 123 => ⟨S700000, .i1⟩
  | 124 => ⟨S_, .i32⟩
  | 125 => ⟨S700000, .i32⟩
  | 126 => ⟨S700000, .i32⟩
  | 127 => ⟨S700000, .i32⟩
  | _ => ⟨S100000, .i32⟩

abbrev hbmTy0_1 (i : Nat) : BufTy := match i % 128 with
  | 0 => ⟨S700000x1, .i32⟩
  | 1 => ⟨S700000x128, .f32⟩
  | 2 => ⟨S700000x1, .f32⟩
  | 3 => ⟨S700000x128, .f32⟩
  | 4 => ⟨S700000x128, .f32⟩
  | 5 => ⟨S_, .f32⟩
  | 6 => ⟨S100000x128, .f32⟩
  | 7 => ⟨S700000x1, .i32⟩
  | 8 => ⟨S100000x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S1x128x128, .f32⟩
  | 21 => ⟨S128x128, .f32⟩
  | 22 => ⟨S100000x128, .f32⟩
  | 23 => ⟨S_, .i32⟩
  | 24 => ⟨S700000, .i32⟩
  | 25 => ⟨S700000, .i1⟩
  | 26 => ⟨S_, .i32⟩
  | 27 => ⟨S700000, .i32⟩
  | 28 => ⟨S700000, .i32⟩
  | 29 => ⟨S700000, .i32⟩
  | 30 => ⟨S700000x1, .i32⟩
  | 31 => ⟨S700000x128, .f32⟩
  | 32 => ⟨S700000x1, .f32⟩
  | 33 => ⟨S700000x128, .f32⟩
  | 34 => ⟨S700000x128, .f32⟩
  | 35 => ⟨S_, .f32⟩
  | 36 => ⟨S100000x128, .f32⟩
  | 37 => ⟨S700000x1, .i32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .i32⟩
  | 45 => ⟨S20000, .i32⟩
  | 46 => ⟨S20000, .i1⟩
  | 47 => ⟨S_, .i32⟩
  | 48 => ⟨S20000, .i32⟩
  | 49 => ⟨S20000, .i32⟩
  | 50 => ⟨S20000, .i32⟩
  | 51 => ⟨S20000x1, .i32⟩
  | 52 => ⟨S20000x128, .f32⟩
  | 53 => ⟨S2x1x128, .f32⟩
  | 54 => ⟨S1x1, .f32⟩
  | 55 => ⟨S20000x1, .f32⟩
  | 56 => ⟨S20000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S4000x1, .i32⟩
  | .local _ .vmem, ⟨1, _⟩ => ⟨S4000x1, .i32⟩
  | .local _ .vmem, ⟨2, _⟩ => ⟨S32x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S128x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S128x128, .f32⟩
  | .local _ .vmem, ⟨56, _⟩ => ⟨S4000x128, .f32⟩
  | .local _ .vmem, ⟨57, _⟩ => ⟨S4000x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S1x128, .f32⟩
  | .local _ .vmem, ⟨63, _⟩ => ⟨S4000x128, .f32⟩
  | .local _ .vmem, ⟨64, _⟩ => ⟨S4000x128, .f32⟩
  | .local _ .vmem, ⟨65, _⟩ => ⟨S4000x128, .f32⟩
  | .local _ .vmem, ⟨66, _⟩ => ⟨S4000x128, .f32⟩
  | .local _ .vmem, ⟨67, _⟩ => ⟨S2000x128, .f32⟩
  | .local _ .vmem, ⟨68, _⟩ => ⟨S2000x128, .f32⟩
  | .local _ .vmem, ⟨69, _⟩ => ⟨S2x128x128, .f32⟩
  | .local _ .vmem, ⟨70, _⟩ => ⟨S2x1x128, .f32⟩
  | .local _ .vmem, ⟨71, _⟩ => ⟨S128x1, .f32⟩
  | .local _ .vmem, ⟨72, _⟩ => ⟨S1x1, .f32⟩
  | .local _ .vmem, ⟨73, _⟩ => ⟨S2000x1, .f32⟩
  | .local _ .vmem, ⟨74, _⟩ => ⟨S2000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60_0 : Ref sig .tc := ⟨.hbm, 86, rfl⟩
abbrev main_v60_1 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86_0 : Ref sig .tc := ⟨.hbm, 116, rfl⟩
abbrev main_v86_1 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_13 : Ref sig .tc := ⟨.hbm, 121, rfl⟩
abbrev main_v90 : Ref sig .tc := ⟨.hbm, 122, rfl⟩
abbrev main_v91 : Ref sig .tc := ⟨.hbm, 123, rfl⟩
abbrev main_c_14 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112_0 : Ref sig .tc := ⟨.hbm, 146, rfl⟩
abbrev main_v112_1 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_16 : Ref sig .tc := ⟨.hbm, 151, rfl⟩
abbrev main_v116 : Ref sig .tc := ⟨.hbm, 152, rfl⟩
abbrev main_v117 : Ref sig .tc := ⟨.hbm, 153, rfl⟩
abbrev main_c_17 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_18 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132_0 : Ref sig .tc := ⟨.hbm, 170, rfl⟩
abbrev main_v132_1 : Ref sig .tc := ⟨.hbm, 171, rfl⟩
abbrev main_c_19 : Ref sig .tc := ⟨.hbm, 172, rfl⟩
abbrev main_v133 : Ref sig .tc := ⟨.hbm, 173, rfl⟩
abbrev main_v134 : Ref sig .tc := ⟨.hbm, 174, rfl⟩
abbrev main_c_20 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg5_1 : Ref sig .tc := ⟨.vmem, 34, rfl⟩
abbrev cc4_stg6_0 : Ref sig .tc := ⟨.vmem, 35, rfl⟩
abbrev cc4_stg6_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc6_stg6_0 : Ref sig .tc := ⟨.vmem, 51, rfl⟩
abbrev cc6_stg6_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg2_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg3_1 : Ref sig .tc := ⟨.vmem, 64, rfl⟩
abbrev cc8_stg4_0 : Ref sig .tc := ⟨.vmem, 65, rfl⟩
abbrev cc8_stg4_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg4_0 : Ref sig .tc := ⟨.vmem, 72, rfl⟩
abbrev cc9_stg5_0 : Ref sig .tc := ⟨.vmem, 73, rfl⟩
abbrev cc9_stg5_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34
abbrev cc4_sem6_0 : DmaSem sig := 35
abbrev cc4_sem6_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc6_sem6_0 : DmaSem sig := 51
abbrev cc6_sem6_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem2_1 : DmaSem sig := 57
abbrev cc8_sem0_0 : DmaSem sig := 58
abbrev cc8_sem0_1 : DmaSem sig := 59
abbrev cc8_sem1_0 : DmaSem sig := 60
abbrev cc8_sem1_1 : DmaSem sig := 61
abbrev cc8_sem2_0 : DmaSem sig := 62
abbrev cc8_sem3_0 : DmaSem sig := 63
abbrev cc8_sem3_1 : DmaSem sig := 64
abbrev cc8_sem4_0 : DmaSem sig := 65
abbrev cc8_sem4_1 : DmaSem sig := 66
abbrev cc9_sem0_0 : DmaSem sig := 67
abbrev cc9_sem0_1 : DmaSem sig := 68
abbrev cc9_sem1_0 : DmaSem sig := 69
abbrev cc9_sem2_0 : DmaSem sig := 70
abbrev cc9_sem3_0 : DmaSem sig := 71
abbrev cc9_sem4_0 : DmaSem sig := 72
abbrev cc9_sem5_0 : DmaSem sig := 73
abbrev cc9_sem5_1 : DmaSem sig := 74

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2x128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S2x1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x32_d1_w32 : S4000x32.Iotas .tc 32 [1]
  broadcasts_S4000x1_S4000x32 : S4000x1.Broadcasts S4000x32
  natLt_1_32 : 1 < 32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S4000x128_S4000x128_0_0 : ∀ a, (![0, 0] : Fin 2 → Nat) a + S4000x128.size a ≤ S4000x128.size a
  h_S4000x128 : 0 < S4000x128.numel
  slices_S4x128x128_S1x128x128_0_0_0 : S4x128x128.Slices ![0, 0, 0] S1x128x128
  shapeCasts_S1x128x128_S128x128 : S1x128x128.ShapeCasts S128x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  slices_S3x128_S1x128_0_0 : S3x128.Slices ![0, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  bcast_S_S20000 : S_.BroadcastsInDim S20000 (![] : Fin 0 → Fin S20000.rank)
  bcast_S20000_S20000x1_0 : S20000.BroadcastsInDim S20000x1 (![0] : Fin 1 → Fin S20000x1.rank)
  shapeCasts_S2x128_S2x1x128 : S2x128.ShapeCasts S2x1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2x128x128_S1x128x128_0_0_0 : ∀ a, (![0, 0, 0] : Fin 3 → Nat) a + S1x128x128.size a ≤ S2x128x128.size a
  h_S1x128x128 : 0 < S1x128x128.numel
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  broadcasts_S1x128_S2000x128 : S1x128.Broadcasts S2000x128
  inb_S2x128x128_S1x128x128_1_0_0 : ∀ a, (![1, 0, 0] : Fin 3 → Nat) a + S1x128x128.size a ≤ S2x128x128.size a
  inb_S2x1x128_S1x1x128_1_0_0 : ∀ a, (![1, 0, 0] : Fin 3 → Nat) a + S1x1x128.size a ≤ S2x1x128.size a
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S20000x1_S20000 : S20000x1.ShapeCasts S20000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S20000x1_S20000x128_1_0_n_n_0_1_1128_wf : GatherDims.WF S100000x128 S20000x1 S20000x128 [1] [0] [] [0] [] 1 ![1, 128]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .i32 = 32 ∨ (Rect.block (s := S100000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .f32 = 32 ∨ (Rect.block (s := S100000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S100000x128.size a
  hwx6_1 : ∀ i : grid6.Coords, EltTy.bits .f32 = 32 ∨ (Rect.block (s := S100000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S100000x128.size a
  hwx6_5 : ∀ i : grid6.Coords, EltTy.bits .f32 = 32 ∨ (Rect.block (s := S100000x128) S4000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S100000x128.size a
  hwx6_6 : ∀ i : grid6.Coords, EltTy.bits .f32 = 32 ∨ (Rect.block (s := S100000x128) S4000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S100000x128.size a
  hwx7_2 : ∀ i : grid7.Coords, EltTy.bits .f32 = 32 ∨ (Rect.block (s := S100000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S100000x128.size a
  hwx8_1 : ∀ i : grid8.Coords, EltTy.bits .f32 = 32 ∨ (Rect.block (s := S100000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x128.size a ≤ S100000x128.size a
  hwx8_3 : ∀ i : grid8.Coords, EltTy.bits .f32 = 32 ∨ (Rect.block (s := S100000x128) S4000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4000x128.size a ≤ S100000x128.size a
  hwx8_4 : ∀ i : grid8.Coords, EltTy.bits .f32 = 32 ∨ (Rect.block (s := S100000x128) S4000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2x128x128.size a ≤ S2x128x128.size a
  hwx9_1 : ∀ i : grid9.Coords, EltTy.bits .f32 = 32 ∨ (Rect.block (s := S2x128x128) S2x128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S2x1x128.size a ≤ S2x1x128.size a
  hwx9_2 : ∀ i : grid9.Coords, EltTy.bits .f32 = 32 ∨ (Rect.block (s := S2x1x128) S2x1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x1.size a ≤ S128x1.size a
  hwx9_3 : ∀ i : grid9.Coords, EltTy.bits .f32 = 32 ∨ (Rect.block (s := S128x1) S128x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x1.size a ≤ S20000x1.size a
  hwx9_5 : ∀ i : grid9.Coords, EltTy.bits .f32 = 32 ∨ (Rect.block (s := S20000x1) S2000x1.size (cc9_transform_5 i) (hinb9_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v33) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86_0) S4000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v86_1) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v86_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112_0) S4000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v112_1) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v112_0) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v112_0) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v128) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v131) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v132_0) S4000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v132_1) S4000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v139) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S2x128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v140) S2x1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg10) S128x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v141) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v142) S2000x1.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000 : Shape := ⟨1, ![100000]⟩
abbrev S2x600000 : Shape := ⟨2, ![2, 600000]⟩
abbrev S20000 : Shape := ⟨1, ![20000]⟩
abbrev S32x128 : Shape := ⟨2, ![32, 128]⟩
abbrev S4x128x128 : Shape := ⟨3, ![4, 128, 128]⟩
abbrev S4x128 : Shape := ⟨2, ![4, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x128 : Shape := ⟨2, ![100000, 128]⟩
abbrev S1x128x128 : Shape := ⟨3, ![1, 128, 128]⟩
abbrev S128x128 : Shape := ⟨2, ![128, 128]⟩
abbrev S700000x128 : Shape := ⟨2, ![700000, 128]⟩
abbrev S1x128 : Shape := ⟨2, ![1, 128]⟩
abbrev S128 : Shape := ⟨1, ![128]⟩
abbrev S20000x1 : Shape := ⟨2, ![20000, 1]⟩
abbrev S20000x128 : Shape := ⟨2, ![20000, 128]⟩
abbrev S1x1 : Shape := ⟨2, ![1, 1]⟩

abbrev nBuf : Space → Nat
  | .hbm => 312
  | .vmem => 0
  | .smem => 0
  | _ => 0

abbrev hbmTy0_0 (i : Nat) : BufTy := match i % 128 with
  | 0 => ⟨S100000, .i32⟩
  | 1 => ⟨S2x600000, .i32⟩
  | 2 => ⟨S20000, .i32⟩
  | 3 => ⟨S32x128, .f32⟩
  | 4 => ⟨S4x128x128, .f32⟩
  | 5 => ⟨S4x128, .f32⟩
  | 6 => ⟨S3x128, .f32⟩
  | 7 => ⟨S3x128, .f32⟩
  | 8 => ⟨S2x128x128, .f32⟩
  | 9 => ⟨S2x128, .f32⟩
  | 10 => ⟨S128x1, .f32⟩
  | 11 => ⟨S1, .f32⟩
  | 12 => ⟨S1x600000, .i32⟩
  | 13 => ⟨S600000, .i32⟩
  | 14 => ⟨S100000, .i32⟩
  | 15 => ⟨S700000, .i32⟩
  | 16 => ⟨S1x600000, .i32⟩
  | 17 => ⟨S600000, .i32⟩
  | 18 => ⟨S100000, .i32⟩
  | 19 => ⟨S700000, .i32⟩
  | 20 => ⟨S_, .f32⟩
  | 21 => ⟨S700000, .f32⟩
  | 22 => ⟨S_, .f32⟩
  | 23 => ⟨S100000, .f32⟩
  | 24 => ⟨S700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S700000, .i32⟩
  | 39 => ⟨S700000, .i1⟩
  | 40 => ⟨S_, .i32⟩
  | 41 => ⟨S700000, .i32⟩
  | 42 => ⟨S700000, .i32⟩
  | 43 => ⟨S700000, .i32⟩
  | 44 => ⟨S700000x1, .i32⟩
  | 45 => ⟨S700000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000, .f32⟩
  | 55 => ⟨S700000, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x128, .f32⟩
  | 65 => ⟨S1x128x128, .f32⟩
  | 66 => ⟨S128x128, .f32⟩
  | 67 => ⟨S100000x128, .f32⟩
  | 68 => ⟨S_, .i32⟩
  | 69 => ⟨S700000, .i32⟩
  | 70 => ⟨S700000, .i1⟩
  | 71 => ⟨S_, .i32⟩
  | 72 => ⟨S700000, .i32⟩
  | 73 => ⟨S700000, .i32⟩
  | 74 => ⟨S700000, .i32⟩
  | 75 => ⟨S700000x1, .i32⟩
  | 76 => ⟨S700000x128, .f32⟩
  | 77 => ⟨S700000x1, .f32⟩
  | 78 => ⟨S700000x128, .f32⟩
  | 79 => ⟨S700000x128, .f32⟩
  | 80 => ⟨S_, .f32⟩
  | 81 => ⟨S100000x128, .f32⟩
  | 82 => ⟨S700000x1, .i32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S100000x128, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S100000x1, .f32⟩
  | 116 => ⟨S100000x1, .f32⟩
  | 117 => ⟨S100000x1, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000, .i32⟩

abbrev hbmTy0_1 (i : Nat) : BufTy := match i % 128 with
  | 0 => ⟨S100000x128, .f32⟩
  | 1 => ⟨S_, .i32⟩
  | 2 => ⟨S700000, .i32⟩
  | 3 => ⟨S700000, .i1⟩
  | 4 => ⟨S_, .i32⟩
  | 5 => ⟨S700000, .i32⟩
  | 6 => ⟨S700000, .i32⟩
  | 7 => ⟨S700000, .i32⟩
  | 8 => ⟨S700000x1, .i32⟩
  | 9 => ⟨S700000x128, .f32⟩
  | 10 => ⟨S700000x1, .f32⟩
  | 11 => ⟨S700000x128, .f32⟩
  | 12 => ⟨S700000x128, .f32⟩
  | 13 => ⟨S_, .f32⟩
  | 14 => ⟨S100000x128, .f32⟩
  | 15 => ⟨S700000x1, .i32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S128, .f32⟩
  | 30 => ⟨S_, .f32⟩
  | 31 => ⟨S100000, .f32⟩
  | 32 => ⟨S100000x1, .f32⟩
  | 33 => ⟨S_, .f32⟩
  | 34 => ⟨S100000x1, .f32⟩
  | 35 => ⟨S100000x1, .f32⟩
  | 36 => ⟨S100000x128, .f32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S_, .f32⟩
  | 48 => ⟨S100000x1, .f32⟩
  | 49 => ⟨S100000x1, .f32⟩
  | 50 => ⟨S100000x1, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128x128, .f32⟩
  | 60 => ⟨S128x128, .f32⟩
  | 61 => ⟨S100000x128, .f32⟩
  | 62 => ⟨S_, .i32⟩
  | 63 => ⟨S700000, .i32⟩
  | 64 => ⟨S700000, .i1⟩
  | 65 => ⟨S_, .i32⟩
  | 66 => ⟨S700000, .i32⟩
  | 67 => ⟨S700000, .i32⟩
  | 68 => ⟨S700000, .i32⟩
  | 69 => ⟨S700000x1, .i32⟩
  | 70 => ⟨S700000x128, .f32⟩
  | 71 => ⟨S700000x1, .f32⟩
  | 72 => ⟨S700000x128, .f32⟩
  | 73 => ⟨S700000x128, .f32⟩
  | 74 => ⟨S_, .f32⟩
  | 75 => ⟨S100000x128, .f32⟩
  | 76 => ⟨S700000x1, .i32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S_, .f32⟩
  | 109 => ⟨S100000x1, .f32⟩
  | 110 => ⟨S100000x1, .f32⟩
  | 111 => ⟨S100000x1, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128x128, .f32⟩
  | 121 => ⟨S128x128, .f32⟩
  | 122 => ⟨S100000x128, .f32⟩
  | 123 => ⟨S_, .i32⟩
  | 124 => ⟨S700000, .i32⟩
  | 125 => ⟨S700000, .i1⟩
  | 126 => ⟨S_, .i32⟩
  | 127 => ⟨S700000, .i32⟩
  | _ => ⟨S100000, .i32⟩

abbrev hbmTy0_2 (i : Nat) : BufTy := match i % 128 with
  | 0 => ⟨S700000, .i32⟩
  | 1 => ⟨S700000, .i32⟩
  | 2 => ⟨S700000x1, .i32⟩
  | 3 => ⟨S700000x128, .f32⟩
  | 4 => ⟨S700000x1, .f32⟩
  | 5 => ⟨S700000x128, .f32⟩
  | 6 => ⟨S700000x128, .f32⟩
  | 7 => ⟨S_, .f32⟩
  | 8 => ⟨S100000x128, .f32⟩
  | 9 => ⟨S700000x1, .i32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S20000x128, .f32⟩
  | 29 => ⟨S1x128x128, .f32⟩
  | 30 => ⟨S128x128, .f32⟩
  | 31 => ⟨S20000x128, .f32⟩
  | 32 => ⟨S1x128, .f32⟩
  | 33 => ⟨S128, .f32⟩
  | 34 => ⟨S1x128, .f32⟩
  | 35 => ⟨S20000x128, .f32⟩
  | 36 => ⟨S20000x128, .f32⟩
  | 37 => ⟨S_, .f32⟩
  | 38 => ⟨S20000x128, .f32⟩
  | 39 => ⟨S20000x128, .f32⟩
  | 40 => ⟨S1x128x128, .f32⟩
  | 41 => ⟨S128x128, .f32⟩
  | 42 => ⟨S20000x128, .f32⟩
  | 43 => ⟨S1x128, .f32⟩
  | 44 => ⟨S128, .f32⟩
  | 45 => ⟨S1x128, .f32⟩
  | 46 => ⟨S20000x128, .f32⟩
  | 47 => ⟨S20000x128, .f32⟩
  | 48 => ⟨S_, .f32⟩
  | 49 => ⟨S20000x128, .f32⟩
  | 50 => ⟨S20000x128, .f32⟩
  | 51 => ⟨S20000x1, .f32⟩
  | 52 => ⟨S1x1, .f32⟩
  | 53 => ⟨S20000x1, .f32⟩
  | 54 => ⟨S20000x1, .f32⟩
  | 55 => ⟨S20000, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_cst : Ref sig .tc := ⟨.hbm, 90, rfl⟩
abbrev main_call1_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_c_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_19 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call2_cst : Ref sig .tc := ⟨.hbm, 151, rfl⟩
abbrev main_call2_v0 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_20 : Ref sig .tc := ⟨.hbm, 158, rfl⟩
abbrev main_v118 : Ref sig .tc := ⟨.hbm, 159, rfl⟩
abbrev main_v119 : Ref sig .tc := ⟨.hbm, 160, rfl⟩
abbrev main_cst_21 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_22 : Ref sig .tc := ⟨.hbm, 167, rfl⟩
abbrev main_v125 : Ref sig .tc := ⟨.hbm, 168, rfl⟩
abbrev main_v126 : Ref sig .tc := ⟨.hbm, 169, rfl⟩
abbrev main_cst_23 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_24 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_25 : Ref sig .tc := ⟨.hbm, 190, rfl⟩
abbrev main_v145 : Ref sig .tc := ⟨.hbm, 191, rfl⟩
abbrev main_v146 : Ref sig .tc := ⟨.hbm, 192, rfl⟩
abbrev main_c_26 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_27 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_call3_cst : Ref sig .tc := ⟨.hbm, 212, rfl⟩
abbrev main_call3_v0 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_28 : Ref sig .tc := ⟨.hbm, 219, rfl⟩
abbrev main_v169 : Ref sig .tc := ⟨.hbm, 220, rfl⟩
abbrev main_v170 : Ref sig .tc := ⟨.hbm, 221, rfl⟩
abbrev main_cst_29 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_30 : Ref sig .tc := ⟨.hbm, 228, rfl⟩
abbrev main_v176 : Ref sig .tc := ⟨.hbm, 229, rfl⟩
abbrev main_v177 : Ref sig .tc := ⟨.hbm, 230, rfl⟩
abbrev main_cst_31 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_32 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_c_33 : Ref sig .tc := ⟨.hbm, 251, rfl⟩
abbrev main_v196 : Ref sig .tc := ⟨.hbm, 252, rfl⟩
abbrev main_v197 : Ref sig .tc := ⟨.hbm, 253, rfl⟩
abbrev main_c_34 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_35 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_call4_cst : Ref sig .tc := ⟨.hbm, 273, rfl⟩
abbrev main_call4_v0 : Ref sig .tc := ⟨.hbm, 274, rfl⟩
abbrev main_v215 : Ref sig .tc := ⟨.hbm, 275, rfl⟩
abbrev main_c_36 : Ref sig .tc := ⟨.hbm, 276, rfl⟩
abbrev main_v216 : Ref sig .tc := ⟨.hbm, 277, rfl⟩
abbrev main_v217 : Ref sig .tc := ⟨.hbm, 278, rfl⟩
abbrev main_c_37 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_call5_cst : Ref sig .tc := ⟨.hbm, 293, rfl⟩
abbrev main_call5_v0 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_call6_cst : Ref sig .tc := ⟨.hbm, 304, rfl⟩
abbrev main_call6_v0 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_0_0 : S3x128.Slices ![0, 0] S1x128
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  bcast_S_S20000 : S_.BroadcastsInDim S20000 (![] : Fin 0 → Fin S20000.rank)
  bcast_S20000_S20000x1_0 : S20000.BroadcastsInDim S20000x1 (![0] : Fin 1 → Fin S20000x1.rank)
  slices_S2x128x128_S1x128x128_0_0_0 : S2x128x128.Slices ![0, 0, 0] S1x128x128
  slices_S2x128_S1x128_0_0 : S2x128.Slices ![0, 0] S1x128
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  slices_S2x128x128_S1x128x128_1_0_0 : S2x128x128.Slices ![1, 0, 0] S1x128x128
  slices_S2x128_S1x128_1_0 : S2x128.Slices ![1, 0] S1x128
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S32x128_S100000x1_S100000x128_1_0_n_n_0_1_1128_wf : GatherDims.WF S32x128 S100000x1 S100000x128 [1] [0] [] [0] [] 1 ![1, 128]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S20000x1_S20000x128_1_0_n_n_0_1_1128_wf : GatherDims.WF S100000x128 S20000x1 S20000x128 [1] [0] [] [0] [] 1 ![1, 128]
  dot_S20000x128_S128x128_S20000x128_1_0_0_1_n_n_wf : DotDims.WF S20000x128 S128x128 S20000x128 [1] [0] [0] [1] [] []
  dot_S20000x128_S128x1_S20000x1_1_0_0_1_n_n_wf : DotDims.WF S20000x128 S128x1 S20000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S32x128_S100000x1_S100000x128_1_0_n_n_0_1_1128 : GatherDims S32x128 S100000x1 S100000x128 where
  offsetDims := [1]
  collapsedSliceDims := [0]
  operandBatchingDims := []
  startIndicesBatchingDims := []
  startIndexMap := [0]
  indexVectorDim := 1
  sliceSizes := ![1, 128]
  wf := gather_S32x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.RefFrame.lean ====
import proofs.«411396_j9594956939372_1_alg».proof.Proof.RefRun

/-!
  The reference's frame: none of its three hundred host operations writes an argument buffer, so every argument
  ends as launched.
-/

noncomputable section

namespace Cert.Bridge.RefFrame

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxRecDepth 8192 in
set_option maxHeartbeats 4000000 in
theorem arg0 : StableHlo.after (ops (F := F)) (launchContents m c) (Proc.devRef .tc main_arg0) = m ((c.tc : Thread nD τ).loc main_arg0) := by
  dsimp only [ops]
  after_results_simp <;> rfl

set_option maxRecDepth 8192 in
set_option maxHeartbeats 4000000 in
theorem arg1 : StableHlo.after (ops (F := F)) (launchContents m c) (Proc.devRef .tc main_arg1) = m ((c.tc : Thread nD τ).loc main_arg1) := by
  dsimp only [ops]
  after_results_simp <;> rfl

set_option maxRecDepth 8192 in
set_option maxHeartbeats 4000000 in
theorem arg2 : StableHlo.after (ops (F := F)) (launchContents m c) (Proc.devRef .tc main_arg2) = m ((c.tc : Thread nD τ).loc main_arg2) := by
  dsimp only [ops]
  after_results_simp <;> rfl

set_option maxRecDepth 8192 in
set_option maxHeartbeats 4000000 in
theorem arg3 : StableHlo.after (ops (F := F)) (launchContents m c) (Proc.devRef .tc main_arg3) = m ((c.tc : Thread nD τ).loc main_arg3) := by
  dsimp only [ops]
  after_results_simp <;> rfl

set_option maxRecDepth 8192 in
set_option maxHeartbeats 4000000 in
theorem arg4 : StableHlo.after (ops (F := F)) (launchContents m c) (Proc.devRef .tc main_arg4) = m ((c.tc : Thread nD τ).loc main_arg4) := by
  dsimp only [ops]
  after_results_simp <;> rfl

set_option maxRecDepth 8192 in
set_option maxHeartbeats 4000000 in
theorem arg5 : StableHlo.after (ops (F := F)) (launchContents m c) (Proc.devRef .tc main_arg5) = m ((c.tc : Thread nD τ).loc main_arg5) := by
  dsimp only [ops]
  after_results_simp <;> rfl

set_option maxRecDepth 8192 in
set_option maxHeartbeats 4000000 in
theorem arg6 : StableHlo.after (ops (F := F)) (launchContents m c) (Proc.devRef .tc main_arg6) = m ((c.tc : Thread nD τ).loc main_arg6) := by
  dsimp only [ops]
  after_results_simp <;> rfl

set_option maxRecDepth 8192 in
set_option maxHeartbeats 4000000 in
theorem arg7 : StableHlo.after (ops (F := F)) (launchContents m c) (Proc.devRef .tc main_arg7) = m ((c.tc : Thread nD τ).loc main_arg7) := by
  dsimp only [ops]
  after_results_simp <;> rfl

set_option maxRecDepth 8192 in
set_option maxHeartbeats 4000000 in
theorem arg8 : StableHlo.after (ops (F := F)) (launchContents m c) (Proc.devRef .tc main_arg8) = m ((c.tc : Thread nD τ).loc main_arg8) := by
  dsimp only [ops]
  after_results_simp <;> rfl

set_option maxRecDepth 8192 in
set_option maxHeartbeats 4000000 in
theorem arg9 : StableHlo.after (ops (F := F)) (launchContents m c) (Proc.devRef .tc main_arg9) = m ((c.tc : Thread nD τ).loc main_arg9) := by
  dsimp only [ops]
  after_results_simp <;> rfl

set_option maxRecDepth 8192 in
set_option maxHeartbeats 4000000 in
theorem arg10 : StableHlo.after (ops (F := F)) (launchContents m c) (Proc.devRef .tc main_arg10) = m ((c.tc : Thread nD τ).loc main_arg10) := by
  dsimp only [ops]
  after_results_simp <;> rfl

set_option maxRecDepth 8192 in
set_option maxHeartbeats 4000000 in
theorem arg11 : StableHlo.after (ops (F := F)) (launchContents m c) (Proc.devRef .tc main_arg11) = m ((c.tc : Thread nD τ).loc main_arg11) := by
  dsimp only [ops]
  after_results_simp <;> rfl

end Cert.Bridge.RefFrame

end
-- ==== Proof.PreRange.lean ====
import proofs.«411396_j9594956939372_1_alg».proof.Pre_finite_inputs
import Idealize.ShloMosaic.Lib.ReduceAll
import Idealize.ShloMosaic.Lib.ValueIdx

noncomputable section

namespace Cert.Bridge.PreRange

open Idealize.ShloMosaic Cert.Pre_finite_inputs

variable [hF : Cert.Pre_finite_inputs.Facts]
open Cert.Pre_finite_inputs.Facts

instance : Subsingleton S_.Idx := ⟨fun a b => funext fun d => d.elim0⟩

/-- The precondition's last conjunct, read back: where the precondition holds every node type lies in [0, 32). -/
theorem range {F : FTy → Type} [FloatOps F] (a0 : IVec S100000 32) (a1 : IVec S2x600000 32) (a2 : IVec S20000 32)
    (a3 : FVec F S32x128 .f32) (a4 : FVec F S4x128x128 .f32) (a5 : FVec F S4x128 .f32) (a6 : FVec F S3x128 .f32)
    (a7 : FVec F S3x128 .f32) (a8 : FVec F S2x128x128 .f32) (a9 : FVec F S2x128 .f32) (a10 : FVec F S128x1 .f32)
    (a11 : FVec F S1 .f32)
    (h : fn (F := F) a0 a1 a2 a3 a4 a5 a6 a7 a8 a9 a10 a11 = fun _ => 1#1) (i : S100000.Idx) :
    (0 : Int) ≤ (a0 i).toInt ∧ (a0 i).toInt < 32 := by
  have h0 := congrFun h ValueIdx.ix0
  dsimp only [fn, fn_part1, fn_part2] at h0
  have h1 := (IntOp.andi_eq_one.1 h0).2
  have h2 := Host.reduce_andi_all _ _ _ _ _ h1 i
  obtain ⟨hge, hlt⟩ := IntOp.andi_eq_one.1 h2
  refine ⟨?_, ?_⟩
  · have e : ∀ p, (broadcastInDim S100000 ![] p (constantI S_ 32 0#32) : IVec S100000 32) i = 0#32 := fun _ => rfl
    have := IntOp.cmpi_sge.1 hge
    rw [e] at this
    simpa using this
  · have e : ∀ p, (broadcastInDim S100000 ![] p (constantI S_ 32 32#32) : IVec S100000 32) i = 32#32 := fun _ => rfl
    have := IntOp.cmpi_slt.1 hlt
    rw [e] at this
    simpa using this

end Cert.Bridge.PreRange

end
-- ==== Proof.Pre.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Pre

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

/-- After one host operation its result buffer holds the operation's function of its operand buffers, and every
    other buffer holds what it held before; applied operation by operation until none is left. -/
local macro "results_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

set_option maxHeartbeats 2000000 in
/-- The row indices: row 0 of the edge list followed by the node numbers 0 … 99999 (the self loops). Both programs
    slice, flatten and concatenate the same way, so equal edge lists give equal row indices. -/
theorem rows_eq (Vk : KVal) (Vr : RVal)
    (h1 : Vk (Proc.devRef .tc main_arg1) = Vr (Proc.devRef .tc Cert.ReferenceIdeal.main_arg1)) :
    StableHlo.after hostOps0_2 (StableHlo.after hostOps0_1 (StableHlo.after hostOps0 Vk)) (Proc.devRef .tc main_v3)
        = StableHlo.after Cert.ReferenceIdeal.RunP.rc0 Vr (Proc.devRef .tc Cert.ReferenceIdeal.main_v3) := by
  after_results_simp
  results_rw
  rw [h1]
  rfl

set_option maxHeartbeats 2000000 in
/-- The column indices: row 1 of the edge list followed by the node numbers, likewise. -/
theorem cols_eq (Vk : KVal) (Vr : RVal)
    (h1 : Vk (Proc.devRef .tc main_arg1) = Vr (Proc.devRef .tc Cert.ReferenceIdeal.main_arg1)) :
    StableHlo.after hostOps0_2 (StableHlo.after hostOps0_1 (StableHlo.after hostOps0 Vk)) (Proc.devRef .tc main_v7)
        = StableHlo.after Cert.ReferenceIdeal.RunP.rc0 Vr (Proc.devRef .tc Cert.ReferenceIdeal.main_v7) := by
  after_results_simp
  results_rw
  rw [h1]
  rfl

set_option maxHeartbeats 4000000 in
/-- The edge weights: the degree of a node is the number of edges whose column index is that node (a scatter-add
    of ones), its inverse square root where the degree is positive and 0 elsewhere, and an edge's weight is the
    product of that quantity at its row index and at its column index. Both programs compute it by the same
    operations on the edge list. -/
theorem weights_eq (Vk : KVal) (Vr : RVal)
    (h1 : Vk (Proc.devRef .tc main_arg1) = Vr (Proc.devRef .tc Cert.ReferenceIdeal.main_arg1)) :
    StableHlo.after hostOps0_2 (StableHlo.after hostOps0_1 (StableHlo.after hostOps0 Vk)) (Proc.devRef .tc main_v32)
        = StableHlo.after Cert.ReferenceIdeal.RunP.rc0 Vr (Proc.devRef .tc Cert.ReferenceIdeal.main_v32) := by
  after_results_simp
  results_rw
  rw [h1]
  rfl

/-- The node types as a column: the kernel's stretch reshapes the launch's node types from length 100000 to
    100000 × 1, nothing else writes that buffer. -/
theorem types_col (Vk : KVal) (Vr : RVal)
    (h0 : Vk (Proc.devRef .tc main_arg0) = Vr (Proc.devRef .tc Cert.ReferenceIdeal.main_arg0)) :
    StableHlo.after hostOps0_2 (StableHlo.after hostOps0_1 (StableHlo.after hostOps0 Vk)) (Proc.devRef .tc main_v33)
        = shapeCast S100000x1 (Vr (Proc.devRef .tc Cert.ReferenceIdeal.main_arg0)) shapeCasts_S100000_S100000x1 := by
  after_results
  rw [h0]
  rfl

/-- The graph normalisation: both programs run the same host operations on the edge list, so from launch contents
    that agree on the node types and the edge list the row indices, the column indices and the edge weights agree;
    the kernel's stretch also lays the node types out as a column. -/
theorem pre (Vk : KVal) (Vr : RVal)
    (h0 : Vk (Proc.devRef .tc main_arg0) = Vr (Proc.devRef .tc Cert.ReferenceIdeal.main_arg0))
    (h1 : Vk (Proc.devRef .tc main_arg1) = Vr (Proc.devRef .tc Cert.ReferenceIdeal.main_arg1)) :
    StableHlo.after hostOps0_2 (StableHlo.after hostOps0_1 (StableHlo.after hostOps0 Vk)) (Proc.devRef .tc main_v3)
        = StableHlo.after Cert.ReferenceIdeal.RunP.rc0 Vr (Proc.devRef .tc Cert.ReferenceIdeal.main_v3)
    ∧ StableHlo.after hostOps0_2 (StableHlo.after hostOps0_1 (StableHlo.after hostOps0 Vk)) (Proc.devRef .tc main_v7)
        = StableHlo.after Cert.ReferenceIdeal.RunP.rc0 Vr (Proc.devRef .tc Cert.ReferenceIdeal.main_v7)
    ∧ StableHlo.after hostOps0_2 (StableHlo.after hostOps0_1 (StableHlo.after hostOps0 Vk)) (Proc.devRef .tc main_v32)
        = StableHlo.after Cert.ReferenceIdeal.RunP.rc0 Vr (Proc.devRef .tc Cert.ReferenceIdeal.main_v32)
    ∧ StableHlo.after hostOps0_2 (StableHlo.after hostOps0_1 (StableHlo.after hostOps0 Vk)) (Proc.devRef .tc main_v33)
        = shapeCast S100000x1 (Vr (Proc.devRef .tc Cert.ReferenceIdeal.main_arg0)) shapeCasts_S100000_S100000x1 :=
  ⟨rows_eq Vk Vr h1, cols_eq Vk Vr h1, weights_eq Vk Vr h1, types_col Vk Vr h0⟩

end Cert.Bridge.Pre

end
-- ==== Proof.Emb.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Emb

open Idealize.ShloMosaic Idealize.ShloMosaic.TcCoe Idealize.SL.Sem Idealize.ShloMosaic.StableHlo
open Cert.KernelIdeal Cert.KernelIdeal.Gen
open Idealize.ShloMosaic.ValueIdx
open scoped BigOperators

/-! ## The one-hot product at an index -/

/-- The weight node type `b` gives table row `v`: the equality bit of `b` against `v`, widened to a word and
    converted — one where they agree, zero where they do not. -/
def oh (b : BitVec 32) (v : Fin 32) : EReal :=
  (((((IntOp.cmpi .eq b (BitVec.ofNat 32 v.val)).setWidth 32).toInt : ℤ) : ℝ) : EReal)

theorem lhs_emb_0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
theorem lhs_emb_1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
theorem rhs_emb_0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
theorem rhs_emb_1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- The one-hot operand at an index: row `p`'s node type compared with the lane number `k`. -/
theorem onehot_apply (x0 : Vec Ideal S4000x1 .i32) (p : Fin 4000) (k : Fin 32) :
    (truncf .bf16 (sitofp .f32 (extui 32 (cmpi .eq (broadcastTo S4000x32 (shapeCast S4000x1 x0 shapeCasts_S4000x1_S4000x1) broadcasts_S4000x1_S4000x32) (iota .tc S4000x32 32 [1] iota_S4000x32_d1_w32)) natLt_1_32) : FVec Ideal S4000x32 .f32) bitsLt_bf16_f32 : FVec Ideal S4000x32 .bf16) (ix2 p k)
      = oh (x0 (ix2 p (0 : Fin 1))) k := by
  show (((((IntOp.cmpi .eq (broadcastTo S4000x32 (shapeCast S4000x1 x0 shapeCasts_S4000x1_S4000x1) broadcasts_S4000x1_S4000x32 (ix2 p k)) (iota .tc S4000x32 32 [1] iota_S4000x32_d1_w32 (ix2 p k))).setWidth 32).toInt : ℤ) : ℝ) : EReal) = _
  rw [shapeCast_self, iota_single_apply,
    broadcastTo_apply x0 broadcasts_S4000x1_S4000x32 (ix2 p k) (ix2 p (0 : Fin 1)) (fun a => match a with
      | ⟨0, _⟩ => by show p.val = if (4000 : Nat) = 1 then 0 else p.val; rw [if_neg (by decide)]
      | ⟨1, _⟩ => by show (0 : Nat) = if (1 : Nat) = 1 then 0 else k.val; rw [if_pos rfl])]
  rfl

/-- THE PAYLOAD AT AN INDEX: the product of the one-hot rows into the table is, at row `p` and lane `q`, the sum over the
    table's rows of the row's weight times its entry. -/
theorem pay_apply (x0 : Vec Ideal S4000x1 .i32) (x1 : Vec Ideal S32x128 .f32) (p : Fin 4000) (q : Fin 128) :
    k0_pay1 (F := Ideal) x0 x1 (ix2 p q) = ∑ v : Fin 32, oh (x0 (ix2 p (0 : Fin 1))) v * x1 (ix2 v q) := by
  unfold k0_pay1
  refine (Ideal.matmul_constant_zero_apply dot_S4000x32_S32x128_S4000x128_1_0_0_1_n_n none _ _ (ix2 p q)).trans ?_
  rw [← Equiv.sum_comp (contrEquiv1 dot_S4000x32_S32x128_S4000x128_1_0_0_1_n_n 32 rfl rfl).symm]
  refine Finset.sum_congr rfl fun k _ => ?_
  have hk := contrEquiv1_symm_val dot_S4000x32_S32x128_S4000x128_1_0_0_1_n_n 32 rfl rfl k
  have el : dot_S4000x32_S32x128_S4000x128_1_0_0_1_n_n.lhsIdx (ix2 p q) ((contrEquiv1 dot_S4000x32_S32x128_S4000x128_1_0_0_1_n_n 32 rfl rfl).symm k) = ix2 p k := funext fun a => Fin.ext (by
    match a with
    | ⟨0, _⟩ => exact lhs_emb_0 _ _
    | ⟨1, _⟩ => exact (lhs_emb_1 _ _).trans hk)
  have er : dot_S4000x32_S32x128_S4000x128_1_0_0_1_n_n.rhsIdx (ix2 p q) ((contrEquiv1 dot_S4000x32_S32x128_S4000x128_1_0_0_1_n_n 32 rfl rfl).symm k) = ix2 k q := funext fun a => Fin.ext (by
    match a with
    | ⟨0, _⟩ => exact (rhs_emb_0 _ _).trans hk
    | ⟨1, _⟩ => exact rhs_emb_1 _ _)
  rw [el, er]
  exact congrArg (· * x1 (ix2 k q)) (onehot_apply x0 p k)

/-! ## The region's output array as one function of its input arrays -/

/-- What the first region leaves in its output array, from the node-type column and the table as the region finds
    them: at node `i 0` and lane `i 1`, the sum over the table's rows of the row's weight for that node's type times
    the row's entry in that lane. -/
def G (nt : Vec Ideal S100000x1 .i32) (tab : Vec Ideal S32x128 .f32) : Vec Ideal S100000x128 .f32 :=
  fun i => ∑ v : Fin 32, oh (nt (ix2 (⟨(i 0).val, idx2_lt0 i⟩ : Fin 100000) (0 : Fin 1))) v
    * tab (ix2 v (⟨(i 1).val, idx2_lt1 i⟩ : Fin 128))

/-- One point of one block: the payload of two blocks at `j` is `G` of two arrays at `i` as soon as the node-type block's
    row `j 0` is the column's row `i 0` and the table block's lane `j 1` is the table's lane `i 1`. -/
theorem point (x0 : Vec Ideal S4000x1 .i32) (x1 : Vec Ideal S32x128 .f32) (nt : Vec Ideal S100000x1 .i32)
    (tab : Vec Ideal S32x128 .f32) (j : S4000x128.Idx) (i : S100000x128.Idx)
    (h0 : x0 (ix2 (⟨(j 0).val, idx2_lt0 j⟩ : Fin 4000) (0 : Fin 1)) = nt (ix2 (⟨(i 0).val, idx2_lt0 i⟩ : Fin 100000) (0 : Fin 1)))
    (h1 : ∀ v : Fin 32, x1 (ix2 v (⟨(j 1).val, idx2_lt1 j⟩ : Fin 128)) = tab (ix2 v (⟨(i 1).val, idx2_lt1 i⟩ : Fin 128))) :
    k0_pay1 (F := Ideal) x0 x1 j = G nt tab i := by
  obtain ⟨p, q, rfl⟩ : ∃ (p : Fin 4000) (q : Fin 128), j = ix2 p q := ⟨j 0, j 1, eq_ix2 j⟩
  have h0' : x0 (ix2 p (0 : Fin 1)) = nt (ix2 (⟨(i 0).val, idx2_lt0 i⟩ : Fin 100000) (0 : Fin 1)) := h0
  have h1' : ∀ v : Fin 32, x1 (ix2 v q) = tab (ix2 v (⟨(i 1).val, idx2_lt1 i⟩ : Fin 128)) := h1
  rw [pay_apply]
  unfold G
  refine Finset.sum_congr rfl fun v _ => ?_
  rw [h0', h1' v]

theorem hz : (![0, 0] : Fin 2 → Nat) = fun _ => 0 := funext fun a => match a with | ⟨0, _⟩ => rfl | ⟨1, _⟩ => rfl

/-- The printed index maps, decided over the grid: the node-type and output windows sit at block row `t`, the table
    window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region
variable (V : (c : Dev nD) → (b : Ref sig .tc) → Buf (Elt Ideal) ((c : Thread nD τ).loc b)) (c : Dev nD)

/-- WHAT POINT `t` WRITES BACK is block `t` of `G` of the two arrays as the region finds them. -/
theorem blk_eq (t : Fin cfg0.N) :
    (dat0 (F := Ideal) V c).flushed 2 t = ((cfg0.win 2).blk t).view.read (Elt Ideal) (G (V c main_v33) (V c main_arg3)) := by
  show (cfg0.win 2).cut (grid0.coords t) ((dat0 (F := Ideal) V c).after 2 t) = _
  rw [after0_2]
  unfold out0_2
  rw [View.canon_unit_zero hz]
  simp only [View.ld_unit_zero (S := S4000x1) hz, View.ld_unit_zero (S := S32x128) hz]
  obtain ⟨e00, e01, e10, e11, e20, e21⟩ := idx_facts t
  funext j
  show k0_pay1 (F := Ideal) (iblk0 V c 0 t) (iblk0 V c 1 t) j = G (V c main_v33) (V c main_arg3) (((cfg0.win 2).blk t).view.emb j)
  have hj0 : (j 0).val < 4000 := (j 0).isLt
  have hj1 : (j 1).val < 128 := (j 1).isLt
  refine point (iblk0 V c 0 t) (iblk0 V c 1 t) (V c main_v33) (V c main_arg3) j (((cfg0.win 2).blk t).view.emb j) ?_ ?_
  · show V c main_v33 (((cfg0.win 0).blk t).view.emb (ix2 (⟨(j 0).val, hj0⟩ : Fin 4000) (0 : Fin 1))) = V c main_v33 _
    refine congrArg (V c main_v33) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 1 + 1 * 0 = 0; omega
  · intro v
    show V c main_arg3 (((cfg0.win 1).blk t).view.emb (ix2 v (⟨(j 1).val, hj1⟩ : Fin 128))) = V c main_arg3 _
    refine congrArg (V c main_arg3) (funext fun a => Fin.ext ?_)
    match a with
    | ⟨0, _⟩ => show win0_1.index t (0 : Fin 2) * 32 + 1 * v.val = v.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v34).slice (win0_2.rect t)).set ↔ _
  rw [View.set_slice_whole, Rect.mem_set_unit]
  exact Iff.rfl

/-- Every node's row lies in the block of the point its number divided by the block height names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 4000 < cfg0.N := by show (i 0).val / 4000 < 25; omega
  obtain ⟨-, -, -, -, e20, e21⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    have e : win0_2.index ⟨(i 0).val / 4000, ht⟩ (0 : Fin 2) = (i 0).val / 4000 := e20
    omega
  | ⟨1, _⟩ =>
    show win0_2.index ⟨(i 0).val / 4000, ht⟩ (1 : Fin 2) * 128 ≤ (i 1).val ∧ (i 1).val < win0_2.index ⟨(i 0).val / 4000, ht⟩ (1 : Fin 2) * 128 + 128
    omega

/-- THE REGION'S VALUE, for any entry contents: the output array ends holding `G` of the node-type column and the table. -/
theorem region_value : (dat0 (F := Ideal) V c).arrAt 2 cfg0.N = G (V c main_v33) (V c main_arg3) :=
  (dat0 (F := Ideal) V c).arrAt_eq_of_cover 2 (G (V c main_v33) (V c main_arg3)) (fun t _ => blk_eq V c t) cover

end Region

/-! ## One-hot sums -/

theorem oh_eq (b : BitVec 32) (v : Fin 32) : oh b v = if b = BitVec.ofNat 32 v.val then 1 else 0 := by
  unfold oh
  by_cases h : b = BitVec.ofNat 32 v.val
  · rw [if_pos h, IntOp.cmpi_eq.mpr h]
    have e : ((1#1 : BitVec 1).setWidth 32).toInt = 1 := by decide
    rw [e]; simp
  · rw [if_neg h, eq_zero_of_ne_one (fun e => h (IntOp.cmpi_eq.mp e))]
    have e : ((0#1 : BitVec 1).setWidth 32).toInt = 0 := by decide
    rw [e]; simp

/-- A node type in the table's range picks its own row out of the sum. -/
theorem sum_oh (b : BitVec 32) (h0 : 0 ≤ b.toInt) (h1 : b.toInt < 32) (f : Fin 32 → EReal) :
    ∑ v : Fin 32, oh b v * f v = f ⟨b.toInt.toNat, by omega⟩ := by
  have hb : b.toInt = (b.toNat : ℤ) := by
    have h := BitVec.toInt_eq_toNat_cond b
    have hl := b.isLt
    split at h <;> omega
  rw [Finset.sum_eq_single (⟨b.toInt.toNat, by omega⟩ : Fin 32)]
  · rw [oh_eq, if_pos, one_mul]
    apply BitVec.eq_of_toNat_eq
    show b.toNat = (BitVec.ofNat 32 b.toInt.toNat).toNat
    rw [BitVec.toNat_ofNat]
    omega
  · intro v _ hv
    rw [oh_eq, if_neg, zero_mul]
    intro e
    apply hv
    apply Fin.ext
    show v.val = b.toInt.toNat
    have hv32 : v.val < 32 := v.isLt
    have : b.toNat = v.val := by rw [e, BitVec.toNat_ofNat]; omega
    omega
  · intro h; exact absurd (Finset.mem_univ _) h

/-! ## The reference's gather at an index -/

/-- The table gathered at a column of start indices, read at node `r` and lane `q`: the table's entry in lane `q` of the
    row the start index names, read signed and clamped into the table's rows. -/
theorem gather_row_apply (x : Vec Ideal Cert.ReferenceIdeal.S32x128 .f32) (idx : IVec Cert.ReferenceIdeal.S100000x1 32) (r : Fin 100000) (q : Fin 128) :
    Host.gather Cert.ReferenceIdeal.gather_S32x128_S100000x1_S100000x128_1_0_n_n_0_1_1128 x idx (ix2 r q)
      = x (ix2 (⟨min (idx (ix2 r (0 : Fin 1))).toInt.toNat 31, by omega⟩ : Fin 32) q) := by
  unfold Host.gather
  refine congrArg x (funext fun a => Fin.ext ?_)
  match a with
  | ⟨0, _⟩ =>
    show Cert.ReferenceIdeal.gather_S32x128_S100000x1_S100000x128_1_0_n_n_0_1_1128.start (ix2 r q) idx 0
      + Cert.ReferenceIdeal.gather_S32x128_S100000x1_S100000x128_1_0_n_n_0_1_1128.batchCoord (ix2 r q) 0
      + Cert.ReferenceIdeal.gather_S32x128_S100000x1_S100000x128_1_0_n_n_0_1_1128.offCoord (ix2 r q) 0 = min _ 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S32x128_S100000x1_S100000x128_1_0_n_n_0_1_1128.startIndexMap from List.mem_singleton.mpr rfl)]
    have hsi : Cert.ReferenceIdeal.gather_S32x128_S100000x1_S100000x128_1_0_n_n_0_1_1128.siIdx (ix2 r q)
        ⟨List.idxOf (0 : Fin 2) Cert.ReferenceIdeal.gather_S32x128_S100000x1_S100000x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show Cert.ReferenceIdeal.gather_S32x128_S100000x1_S100000x128_1_0_n_n_0_1_1128.start (ix2 r q) idx 1
      + Cert.ReferenceIdeal.gather_S32x128_S100000x1_S100000x128_1_0_n_n_0_1_1128.batchCoord (ix2 r q) 1
      + Cert.ReferenceIdeal.gather_S32x128_S100000x1_S100000x128_1_0_n_n_0_1_1128.offCoord (ix2 r q) 1 = q.val
    rw [GatherDims.batchCoord_eq_zero _ _ _ List.not_mem_nil]
    unfold GatherDims.start
    rw [dif_neg (show ¬ (1 : Fin 2) ∈ Cert.ReferenceIdeal.gather_S32x128_S100000x1_S100000x128_1_0_n_n_0_1_1128.startIndexMap by decide)]
    unfold GatherDims.offCoord
    rw [dif_pos (show (1 : Fin 2) ∈ Cert.ReferenceIdeal.gather_S32x128_S100000x1_S100000x128_1_0_n_n_0_1_1128.sKept by decide)]
    simp only [Nat.zero_add, Nat.add_zero]
    rfl

/-! ## The two sides on one column of node types -/

/-- With every node type in the table's range, the sum of one-hot weights into the table is the reference's gather:
    its negative-index wrap is not taken and its clamp is the identity. -/
theorem sum_eq_gather (a0 : IVec S100000 32) (tab : Vec Ideal S32x128 .f32)
    (hr : ∀ i : S100000.Idx, (0 : Int) ≤ (a0 i).toInt ∧ (a0 i).toInt < 32) :
    G (shapeCast S100000x1 a0 shapeCasts_S100000_S100000x1) tab
      = Host.gather Cert.ReferenceIdeal.gather_S32x128_S100000x1_S100000x128_1_0_n_n_0_1_1128 tab
          (broadcastInDim Cert.ReferenceIdeal.S100000x1 ![0] Cert.ReferenceIdeal.Gen.bcast_S100000_S100000x1_0
            (select
              (cmpi .slt a0 (broadcastInDim Cert.ReferenceIdeal.S100000 ![] Cert.ReferenceIdeal.Gen.bcast_S_S100000 (constantI Cert.ReferenceIdeal.S_ 32 0#32)))
              (addi a0 (broadcastInDim Cert.ReferenceIdeal.S100000 ![] Cert.ReferenceIdeal.Gen.bcast_S_S100000 (constantI Cert.ReferenceIdeal.S_ 32 32#32)))
              a0)) := by
  funext i
  obtain ⟨r, q, rfl⟩ : ∃ (r : Fin 100000) (q : Fin 128), i = ix2 r q := ⟨i 0, i 1, eq_ix2 i⟩
  obtain ⟨hlo, hhi⟩ := hr (ix1 r)
  rw [gather_row_apply]
  have hnt : shapeCast S100000x1 a0 shapeCasts_S100000_S100000x1 (ix2 r (0 : Fin 1)) = a0 (ix1 r) :=
    shapeCast_apply a0 shapeCasts_S100000_S100000x1 (ix2 r (0 : Fin 1)) (ix1 r)
      (by rw [Shape.rowMajor_val_one, Shape.rowMajor_val_two]; show r.val = r.val * 1 + 0; omega)
  have hsel : Scalar.select (IntOp.cmpi .slt (a0 (ix1 r)) 0#32) (IntOp.addi (a0 (ix1 r)) 32#32) (a0 (ix1 r)) = a0 (ix1 r) := by
    have hc : IntOp.cmpi .slt (a0 (ix1 r)) 0#32 = 0#1 :=
      eq_zero_of_ne_one (fun e => by
        have h := IntOp.cmpi_slt.mp e
        have hz0 : (0#32 : BitVec 32).toInt = 0 := by decide
        omega)
    rw [hc, select_zero]
  have hidx : broadcastInDim Cert.ReferenceIdeal.S100000x1 ![0] Cert.ReferenceIdeal.Gen.bcast_S100000_S100000x1_0
      (select
        (cmpi .slt a0 (broadcastInDim Cert.ReferenceIdeal.S100000 ![] Cert.ReferenceIdeal.Gen.bcast_S_S100000 (constantI Cert.ReferenceIdeal.S_ 32 0#32)))
        (addi a0 (broadcastInDim Cert.ReferenceIdeal.S100000 ![] Cert.ReferenceIdeal.Gen.bcast_S_S100000 (constantI Cert.ReferenceIdeal.S_ 32 32#32)))
        a0) (ix2 r (0 : Fin 1)) = a0 (ix1 r) := by
    rw [broadcastInDim_apply _ Cert.ReferenceIdeal.Gen.bcast_S100000_S100000x1_0 _ (ix2 r (0 : Fin 1)) (ix1 r) (fun a => match a with
      | ⟨0, _⟩ => by show r.val = if (100000 : Nat) = 1 then 0 else r.val; rw [if_neg (by decide)])]
    exact hsel
  show ∑ v : Fin 32, oh (shapeCast S100000x1 a0 shapeCasts_S100000_S100000x1 (ix2 r (0 : Fin 1))) v * tab (ix2 v q) = _
  rw [hnt, sum_oh (a0 (ix1 r)) hlo hhi (fun v => tab (ix2 v q))]
  refine congrArg tab (congrArg (fun v : Fin 32 => ix2 v q) (Fin.ext ?_))
  show (a0 (ix1 r)).toInt.toNat = min (BitVec.toInt _).toNat 31
  rw [hidx]
  omega

/-! ## The step -/

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The embedding lookup: the kernel's first region multiplies the one-hot rows of the node types into the table;
    where every node type lies in [0, 32) that is the table's row, which is what the reference's gather reads. -/
theorem step (Vr : RVal)
    (h33 : W3 m ρ c (Proc.devRef .tc main_v33) = shapeCast S100000x1 (Vr (Proc.devRef .tc Cert.ReferenceIdeal.main_arg0)) shapeCasts_S100000_S100000x1)
    (h3 : W3 m ρ c (Proc.devRef .tc main_arg3) = Vr (Proc.devRef .tc Cert.ReferenceIdeal.main_arg3))
    (hr : ∀ i : S100000.Idx, (0 : Int) ≤ (Vr (Proc.devRef .tc Cert.ReferenceIdeal.main_arg0) i).toInt ∧ (Vr (Proc.devRef .tc Cert.ReferenceIdeal.main_arg0) i).toInt < 32) :
    W4 m ρ c (Proc.devRef .tc main_v34)
      = StableHlo.after Cert.ReferenceIdeal.RunP.rc1 Vr (Proc.devRef .tc Cert.ReferenceIdeal.main_v39) := by
  have e33 : V3 m ρ c main_v33 = shapeCast S100000x1 (Vr (Proc.devRef .tc Cert.ReferenceIdeal.main_arg0)) shapeCasts_S100000_S100000x1 := h33
  have e3 : V3 m ρ c main_arg3 = Vr (Proc.devRef .tc Cert.ReferenceIdeal.main_arg3) := h3
  refine (W4_arr m ρ c 2).trans ?_
  rw [region_value (V3 m ρ) c, e33, e3]
  after_results
  exact sum_eq_gather _ _ hr

end Cert.Bridge.Emb

end
-- ==== Proof.Mm0.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Mm0

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

/-- The product of a node array with a weight matrix, entry by entry: row `i 0` of `x` against column `i 1` of `w`. -/
def G (x : S100000x128.Idx → EReal) (w : S128x128.Idx → EReal) : S100000x128.Idx → EReal :=
  fun i => ∑ k : Fin 128, x (ix2 (i 0) k) * w (ix2 k (i 1))

/-! ## The block product at an index -/

theorem lhsB_0 (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsB_1 (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
theorem rhsB_0 (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
theorem rhsB_1 (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's payload at an entry of the block: the narrowing of the operands is the identity on the extended reals,
    the casts are between equal shapes, and the matrix product into the zero splat is the sum over the contraction axis. -/
theorem pay_apply (x : Vec Ideal S4000x128 .f32) (w : Vec Ideal S128x128 .f32) (p : Fin 4000) (q : Fin 128) :
    k1_pay1 (F := Ideal) x w (ix2 p q) = ∑ k : Fin 128, x (ix2 p k) * w (ix2 k q) := by
  unfold k1_pay1
  simp only [shapeCast_self]
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]
  rfl

/-! ## The reference's product at an index -/

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's contraction of the node array's axis 1 with the weight matrix's axis 0, at an entry: the same sum. -/
theorem ref_dot (x : FVec Ideal Cert.ReferenceIdeal.S100000x128 .f32) (w : FVec Ideal Cert.ReferenceIdeal.S128x128 .f32) (a : Fin 100000) (b : Fin 128) :
    Host.dotGeneral (F := Ideal) Cert.ReferenceIdeal.dot_S100000x128_S128x128_S100000x128_1_0_0_1_n_n none x w (ix2 a b)
      = ∑ k : Fin 128, x (ix2 a k) * w (ix2 k b) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 a b) ((contrEquiv1 Cert.ReferenceIdeal.dot_S100000x128_S128x128_S100000x128_1_0_0_1_n_n 128 rfl rfl).symm k) = ix2 a k := funext fun d => Fin.ext (by
    match d with
    | ⟨0, _⟩ => exact lhsR_0 _ _
    | ⟨1, _⟩ => exact (lhsR_1 _ _).trans hk)
  have er : Cert.ReferenceIdeal.dot_S100000x128_S128x128_S100000x128_1_0_0_1_n_n.rhsIdx (ix2 a b) ((contrEquiv1 Cert.ReferenceIdeal.dot_S100000x128_S128x128_S100000x128_1_0_0_1_n_n 128 rfl rfl).symm k) = ix2 k b := funext fun d => Fin.ext (by
    match d with
    | ⟨0, _⟩ => exact (rhsR_0 _ _).trans hk
    | ⟨1, _⟩ => exact rhsR_1 _ _)
  rw [el, er]

/-! ## One block of the product -/

/-- A block whose rows are rows `n·4000 …` of the node array, against the whole weight matrix: the payload at an entry of
    the block is the product's entry at the corresponding row of the array. -/
theorem blk_point (X : Vec Ideal S100000x128 .f32) (Wt : Vec Ideal S128x128 .f32)
    (x : Vec Ideal S4000x128 .f32) (w : Vec Ideal S128x128 .f32) (n : Nat)
    (hx : ∀ (y : S4000x128.Idx) (k : S100000x128.Idx), (k 0).val = n * 4000 + (y 0).val → (k 1).val = (y 1).val → x y = X k)
    (hw : ∀ y : S128x128.Idx, w y = Wt y)
    (j : S4000x128.Idx) (i : S100000x128.Idx) (hi0 : (i 0).val = n * 4000 + (j 0).val) (hi1 : (i 1).val = (j 1).val) :
    k1_pay1 (F := Ideal) x w j = G X Wt i := by
  obtain ⟨p, q, rfl⟩ : ∃ (p : Fin 4000) (q : Fin 128), j = ix2 p q := ⟨j 0, j 1, eq_ix2 j⟩
  obtain ⟨a, b, rfl⟩ : ∃ (a : Fin 100000) (b : Fin 128), i = ix2 a b := ⟨i 0, i 1, eq_ix2 i⟩
  have hb : b = q := Fin.ext hi1
  subst hb
  rw [pay_apply]
  unfold G
  refine Finset.sum_congr rfl fun k _ => ?_
  rw [hx (ix2 p k) (ix2 a k) hi0 rfl, hw]

/-! ## From the blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the output window are at block row `t`, the weight
    window stays at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays as the region finds them. -/
theorem flushed_eq (c : Dev nD) (t : Fin cfg1.N) :
    (dat1 (F := Ideal) V c).flushed 2 t = ((cfg1.win 2).blk t).view.read (Elt Ideal) (G (V c main_v34) (V c main_v36)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x128) hz]
  obtain ⟨e0, e1, e2, e3, e4, e5⟩ := idx_facts t
  funext j
  show k1_pay1 (F := Ideal) (iblk1 V c 0 t) (iblk1 V c 1 t) ((cfg1.win 2).xinj (grid1.coords t) j)
    = G (V c main_v34) (V c main_v36) (((cfg1.win 2).blk t).view.emb j)
  refine blk_point (V c main_v34) (V c main_v36) (iblk1 V c 0 t) (iblk1 V c 1 t) t.val ?_ ?_
    ((cfg1.win 2).xinj (grid1.coords t) j) (((cfg1.win 2).blk t).view.emb j) ?_ ?_
  · intro y k hk0 hk1
    unfold iblk1
    rw [View.read_apply]
    show V c main_v34 (((cfg1.win 0).blk t).view.emb y) = V c main_v34 k
    congr 1
    funext a; apply Fin.ext
    match a with
    | ⟨0, _⟩ => show win1_0.index t (0 : Fin 2) * 4000 + 1 * (y 0).val = (k 0).val; rw [e0, hk0]; omega
    | ⟨1, _⟩ => show win1_0.index t (1 : Fin 2) * 128 + 1 * (y 1).val = (k 1).val; rw [e1, hk1]; omega
  · intro y
    unfold iblk1
    rw [View.read_apply]
    show V c main_v36 (((cfg1.win 1).blk t).view.emb y) = V c main_v36 y
    congr 1
    funext a; apply Fin.ext
    match a with
    | ⟨0, _⟩ => show win1_1.index t (0 : Fin 2) * 128 + 1 * (y 0).val = (y 0).val; rw [e2]; omega
    | ⟨1, _⟩ => show win1_1.index t (1 : Fin 2) * 128 + 1 * (y 1).val = (y 1).val; rw [e3]; omega
  · show win1_2.index t (0 : Fin 2) * 4000 + 1 * (j 0).val = t.val * 4000 + (j 0).val
    rw [e4]; omega
  · show win1_2.index t (1 : Fin 2) * 128 + 1 * (j 1).val = (j 1).val
    rw [e5]; omega

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v37).slice (win1_2.rect t)).set ↔ _
  rw [View.set_slice_whole, Rect.mem_set_unit]
  exact Iff.rfl

/-- Every row of the array is in some point's block: row `r` in that of point `r / 4000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < grid1.N; rw [N_1]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; rw [e4, ht]; omega
  | ⟨1, _⟩ => show win1_2.index t (1 : Fin 2) * 128 ≤ (i 1).val ∧ (i 1).val < win1_2.index t (1 : Fin 2) * 128 + 128; rw [e5]; omega

/-- The region's output array, whatever the region finds on entry: the product of its two input arrays. -/
theorem region_value (c : Dev nD) : (dat1 (F := Ideal) V c).arrAt 2 cfg1.N = G (V c main_v34) (V c main_v36) :=
  (dat1 (F := Ideal) V c).arrAt_eq_of_cover 2 (G (V c main_v34) (V c main_v36)) (fun t _ => flushed_eq V c t) cover

end Region

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- Layer 0's projection: the kernel's second region leaves in its output array the product the reference's
    `dot_general` computes, when the node features and the weight stack agree on entry. -/
theorem step (Vr : RVal)
    (hx : W4 m ρ c (Proc.devRef .tc main_v34) = Vr (Proc.devRef .tc Cert.ReferenceIdeal.main_v39))
    (h4 : W4 m ρ c (Proc.devRef .tc main_arg4) = Vr (Proc.devRef .tc Cert.ReferenceIdeal.main_arg4)) :
    W6 m ρ c (Proc.devRef .tc main_v37)
      = StableHlo.after Cert.ReferenceIdeal.RunP.rc2 Vr (Proc.devRef .tc Cert.ReferenceIdeal.main_v42) := by
  rw [show W6 m ρ c (Proc.devRef .tc main_v37) = (dat1 (V5 m ρ) c).arrAt 2 cfg1.N from W6_arr m ρ c 2, region_value]
  show G (StableHlo.after hostOps1 (W4 m ρ c) (Proc.devRef .tc main_v34)) (StableHlo.after hostOps1 (W4 m ρ c) (Proc.devRef .tc main_v36)) = _
  after_results
  rw [hx, h4]
  funext i
  obtain ⟨a, b, rfl⟩ : ∃ (a : Fin 100000) (b : Fin 128), i = ix2 a b := ⟨i 0, i 1, eq_ix2 i⟩
  refine Eq.trans ?_ (ref_dot _ _ a b).symm
  rfl

end Cert.Bridge.Mm0

end
-- ==== Proof.Msg0.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Msg0

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

set_option maxHeartbeats 2000000 in
/-- Layer 0's message pass: both programs gather the projected features at the column indices, weight them and
    scatter-add them at the row indices with the same host operations; from projected features, indices and
    weights that agree the aggregated messages agree. -/
theorem msg (Vk : KVal) (Vr : RVal)
    (hH : Vk (Proc.devRef .tc main_v37) = Vr (Proc.devRef .tc Cert.ReferenceIdeal.main_v42))
    (hrow : Vk (Proc.devRef .tc main_v3) = Vr (Proc.devRef .tc Cert.ReferenceIdeal.main_v3))
    (hcol : Vk (Proc.devRef .tc main_v7) = Vr (Proc.devRef .tc Cert.ReferenceIdeal.main_v7))
    (hnorm : Vk (Proc.devRef .tc main_v32) = Vr (Proc.devRef .tc Cert.ReferenceIdeal.main_v32)) :
    StableHlo.after hostOps2 Vk (Proc.devRef .tc main_v50)
      = StableHlo.after Cert.ReferenceIdeal.RunP.rc3 Vr (Proc.devRef .tc Cert.ReferenceIdeal.main_v55) := by
  -- each side, operation by operation, is the scatter-add at the row indices of the products of the gathered
  -- features with the broadcast weights, over the four given buffers
  after_results_simp
  rw [hH, hrow, hcol, hnorm]
  -- the two programs' names for the shapes and the gather / scatter dimension records are the same literals
  rfl

end Cert.Bridge.Msg0

end
-- ==== Proof.Mm1.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Mm1

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

/-- The product of a node array with a weight matrix, entry by entry: row `i 0` of `x` against column `i 1` of `w`. -/
def G (x : S100000x128.Idx → EReal) (w : S128x128.Idx → EReal) : S100000x128.Idx → EReal :=
  fun i => ∑ k : Fin 128, x (ix2 (i 0) k) * w (ix2 k (i 1))

/-! ## The block product at an index -/

theorem lhsB_0 (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsB_1 (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
theorem rhsB_0 (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
theorem rhsB_1 (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's payload at an entry of the block: the narrowing of the operands is the identity on the extended reals,
    the casts are between equal shapes, and the matrix product into the zero splat is the sum over the contraction axis. -/
theorem pay_apply (x : Vec Ideal S4000x128 .f32) (w : Vec Ideal S128x128 .f32) (p : Fin 4000) (q : Fin 128) :
    k3_pay1 (F := Ideal) x w (ix2 p q) = ∑ k : Fin 128, x (ix2 p k) * w (ix2 k q) := by
  unfold k3_pay1
  simp only [shapeCast_self]
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]
  rfl

/-! ## The reference's product at an index -/

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's contraction of the node array's axis 1 with the weight matrix's axis 0, at an entry: the same sum. -/
theorem ref_dot (x : FVec Ideal Cert.ReferenceIdeal.S100000x128 .f32) (w : FVec Ideal Cert.ReferenceIdeal.S128x128 .f32) (a : Fin 100000) (b : Fin 128) :
    Host.dotGeneral (F := Ideal) Cert.ReferenceIdeal.dot_S100000x128_S128x128_S100000x128_1_0_0_1_n_n none x w (ix2 a b)
      = ∑ k : Fin 128, x (ix2 a k) * w (ix2 k b) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 a b) ((contrEquiv1 Cert.ReferenceIdeal.dot_S100000x128_S128x128_S100000x128_1_0_0_1_n_n 128 rfl rfl).symm k) = ix2 a k := funext fun d => Fin.ext (by
    match d with
    | ⟨0, _⟩ => exact lhsR_0 _ _
    | ⟨1, _⟩ => exact (lhsR_1 _ _).trans hk)
  have er : Cert.ReferenceIdeal.dot_S100000x128_S128x128_S100000x128_1_0_0_1_n_n.rhsIdx (ix2 a b) ((contrEquiv1 Cert.ReferenceIdeal.dot_S100000x128_S128x128_S100000x128_1_0_0_1_n_n 128 rfl rfl).symm k) = ix2 k b := funext fun d => Fin.ext (by
    match d with
    | ⟨0, _⟩ => exact (rhsR_0 _ _).trans hk
    | ⟨1, _⟩ => exact rhsR_1 _ _)
  rw [el, er]

/-! ## One block of the product -/

/-- A block whose rows are rows `n·4000 …` of the node array, against the whole weight matrix: the payload at an entry of
    the block is the product's entry at the corresponding row of the array. -/
theorem blk_point (X : Vec Ideal S100000x128 .f32) (Wt : Vec Ideal S128x128 .f32)
    (x : Vec Ideal S4000x128 .f32) (w : Vec Ideal S128x128 .f32) (n : Nat)
    (hx : ∀ (y : S4000x128.Idx) (k : S100000x128.Idx), (k 0).val = n * 4000 + (y 0).val → (k 1).val = (y 1).val → x y = X k)
    (hw : ∀ y : S128x128.Idx, w y = Wt y)
    (j : S4000x128.Idx) (i : S100000x128.Idx) (hi0 : (i 0).val = n * 4000 + (j 0).val) (hi1 : (i 1).val = (j 1).val) :
    k3_pay1 (F := Ideal) x w j = G X Wt i := by
  obtain ⟨p, q, rfl⟩ : ∃ (p : Fin 4000) (q : Fin 128), j = ix2 p q := ⟨j 0, j 1, eq_ix2 j⟩
  obtain ⟨a, b, rfl⟩ : ∃ (a : Fin 100000) (b : Fin 128), i = ix2 a b := ⟨i 0, i 1, eq_ix2 i⟩
  have hb : b = q := Fin.ext hi1
  subst hb
  rw [pay_apply]
  unfold G
  refine Finset.sum_congr rfl fun k _ => ?_
  rw [hx (ix2 p k) (ix2 a k) hi0 rfl, hw]

/-! ## From the blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the output window are at block row `t`, the weight
    window stays at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays as the region finds them. -/
theorem flushed_eq (c : Dev nD) (t : Fin cfg3.N) :
    (dat3 (F := Ideal) V c).flushed 2 t = ((cfg3.win 2).blk t).view.read (Elt Ideal) (G (V c main_v60_0) (V c main_v62)) := by
  show (cfg3.win 2).cut (grid3.coords t) ((dat3 V c).after 2 t) = _
  rw [after3_2]
  unfold out3_2
  rw [View.canon_unit_zero hz]
  simp only [View.ld_unit_zero (S := S4000x128) hz, View.ld_unit_zero (S := S128x128) hz]
  obtain ⟨e0, e1, e2, e3, e4, e5⟩ := idx_facts t
  funext j
  show k3_pay1 (F := Ideal) (iblk3 V c 0 t) (iblk3 V c 1 t) ((cfg3.win 2).xinj (grid3.coords t) j)
    = G (V c main_v60_0) (V c main_v62) (((cfg3.win 2).blk t).view.emb j)
  refine blk_point (V c main_v60_0) (V c main_v62) (iblk3 V c 0 t) (iblk3 V c 1 t) t.val ?_ ?_
    ((cfg3.win 2).xinj (grid3.coords t) j) (((cfg3.win 2).blk t).view.emb j) ?_ ?_
  · intro y k hk0 hk1
    unfold iblk3
    rw [View.read_apply]
    show V c main_v60_0 (((cfg3.win 0).blk t).view.emb y) = V c main_v60_0 k
    congr 1
    funext a; apply Fin.ext
    match a with
    | ⟨0, _⟩ => show win3_0.index t (0 : Fin 2) * 4000 + 1 * (y 0).val = (k 0).val; rw [e0, hk0]; omega
    | ⟨1, _⟩ => show win3_0.index t (1 : Fin 2) * 128 + 1 * (y 1).val = (k 1).val; rw [e1, hk1]; omega
  · intro y
    unfold iblk3
    rw [View.read_apply]
    show V c main_v62 (((cfg3.win 1).blk t).view.emb y) = V c main_v62 y
    congr 1
    funext a; apply Fin.ext
    match a with
    | ⟨0, _⟩ => show win3_1.index t (0 : Fin 2) * 128 + 1 * (y 0).val = (y 0).val; rw [e2]; omega
    | ⟨1, _⟩ => show win3_1.index t (1 : Fin 2) * 128 + 1 * (y 1).val = (y 1).val; rw [e3]; omega
  · show win3_2.index t (0 : Fin 2) * 4000 + 1 * (j 0).val = t.val * 4000 + (j 0).val
    rw [e4]; omega
  · show win3_2.index t (1 : Fin 2) * 128 + 1 * (j 1).val = (j 1).val
    rw [e5]; omega

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v63).slice (win3_2.rect t)).set ↔ _
  rw [View.set_slice_whole, Rect.mem_set_unit]
  exact Iff.rfl

/-- Every row of the array is in some point's block: row `r` in that of point `r / 4000`. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by show (i 0).val / 4000 < grid3.N; rw [N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; rw [e4, ht]; omega
  | ⟨1, _⟩ => show win3_2.index t (1 : Fin 2) * 128 ≤ (i 1).val ∧ (i 1).val < win3_2.index t (1 : Fin 2) * 128 + 128; rw [e5]; omega

/-- The region's output array, whatever the region finds on entry: the product of its two input arrays. -/
theorem region_value (c : Dev nD) : (dat3 (F := Ideal) V c).arrAt 2 cfg3.N = G (V c main_v60_0) (V c main_v62) :=
  (dat3 (F := Ideal) V c).arrAt_eq_of_cover 2 (G (V c main_v60_0) (V c main_v62)) (fun t _ => flushed_eq V c t) cover

end Region

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- Layer 1's projection: the kernel's fourth region leaves in its output array the product the reference's
    `dot_general` computes, when the node features and the weight stack agree on entry. -/
theorem step (Vr : RVal)
    (hx : W8 m ρ c (Proc.devRef .tc main_v60_0) = Vr (Proc.devRef .tc Cert.ReferenceIdeal.main_v90))
    (h4 : W8 m ρ c (Proc.devRef .tc main_arg4) = Vr (Proc.devRef .tc Cert.ReferenceIdeal.main_arg4)) :
    W10 m ρ c (Proc.devRef .tc main_v63)
      = StableHlo.after Cert.ReferenceIdeal.RunP.rc5 Vr (Proc.devRef .tc Cert.ReferenceIdeal.main_v93) := by
  rw [show W10 m ρ c (Proc.devRef .tc main_v63) = (dat3 (V9 m ρ) c).arrAt 2 cfg3.N from W10_arr m ρ c 2, region_value]
  show G (StableHlo.after hostOps3 (W8 m ρ c) (Proc.devRef .tc main_v60_0)) (StableHlo.after hostOps3 (W8 m ρ c) (Proc.devRef .tc main_v62)) = _
  after_results
  rw [hx, h4]
  funext i
  obtain ⟨a, b, rfl⟩ : ∃ (a : Fin 100000) (b : Fin 128), i = ix2 a b := ⟨i 0, i 1, eq_ix2 i⟩
  refine Eq.trans ?_ (ref_dot _ _ a b).symm
  rfl

end Cert.Bridge.Mm1

end
-- ==== Proof.Msg1.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Msg1

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

set_option maxHeartbeats 2000000 in
/-- Layer 1's message pass: both programs gather the projected features at the column indices, weight them and
    scatter-add them at the row indices with the same host operations; from projected features, indices and
    weights that agree the aggregated messages agree. -/
theorem msg (Vk : KVal) (Vr : RVal)
    (hH : Vk (Proc.devRef .tc main_v63) = Vr (Proc.devRef .tc Cert.ReferenceIdeal.main_v93))
    (hrow : Vk (Proc.devRef .tc main_v3) = Vr (Proc.devRef .tc Cert.ReferenceIdeal.main_v3))
    (hcol : Vk (Proc.devRef .tc main_v7) = Vr (Proc.devRef .tc Cert.ReferenceIdeal.main_v7))
    (hnorm : Vk (Proc.devRef .tc main_v32) = Vr (Proc.devRef .tc Cert.ReferenceIdeal.main_v32)) :
    StableHlo.after hostOps4 Vk (Proc.devRef .tc main_v76)
      = StableHlo.after Cert.ReferenceIdeal.RunP.rc6 Vr (Proc.devRef .tc Cert.ReferenceIdeal.main_v106) := by
  -- each side, operation by operation, is the scatter-add at the row indices of the products of the gathered
  -- features with the broadcast weights, over the four given buffers
  after_results_simp
  rw [hH, hrow, hcol, hnorm]
  -- the two programs' names for the shapes and the gather / scatter dimension records are the same literals
  rfl

end Cert.Bridge.Msg1

end
-- ==== Proof.Mm2.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Mm2

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

/-- The product of a node array with a weight matrix, entry by entry: row `i 0` of `x` against column `i 1` of `w`. -/
def G (x : S100000x128.Idx → EReal) (w : S128x128.Idx → EReal) : S100000x128.Idx → EReal :=
  fun i => ∑ k : Fin 128, x (ix2 (i 0) k) * w (ix2 k (i 1))

/-! ## The block product at an index -/

theorem lhsB_0 (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsB_1 (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
theorem rhsB_0 (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
theorem rhsB_1 (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's payload at an entry of the block: the narrowing of the operands is the identity on the extended reals,
    the casts are between equal shapes, and the matrix product into the zero splat is the sum over the contraction axis. -/
theorem pay_apply (x : Vec Ideal S4000x128 .f32) (w : Vec Ideal S128x128 .f32) (p : Fin 4000) (q : Fin 128) :
    k5_pay1 (F := Ideal) x w (ix2 p q) = ∑ k : Fin 128, x (ix2 p k) * w (ix2 k q) := by
  unfold k5_pay1
  simp only [shapeCast_self]
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]
  rfl

/-! ## The reference's product at an index -/

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's contraction of the node array's axis 1 with the weight matrix's axis 0, at an entry: the same sum. -/
theorem ref_dot (x : FVec Ideal Cert.ReferenceIdeal.S100000x128 .f32) (w : FVec Ideal Cert.ReferenceIdeal.S128x128 .f32) (a : Fin 100000) (b : Fin 128) :
    Host.dotGeneral (F := Ideal) Cert.ReferenceIdeal.dot_S100000x128_S128x128_S100000x128_1_0_0_1_n_n none x w (ix2 a b)
      = ∑ k : Fin 128, x (ix2 a k) * w (ix2 k b) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 a b) ((contrEquiv1 Cert.ReferenceIdeal.dot_S100000x128_S128x128_S100000x128_1_0_0_1_n_n 128 rfl rfl).symm k) = ix2 a k := funext fun d => Fin.ext (by
    match d with
    | ⟨0, _⟩ => exact lhsR_0 _ _
    | ⟨1, _⟩ => exact (lhsR_1 _ _).trans hk)
  have er : Cert.ReferenceIdeal.dot_S100000x128_S128x128_S100000x128_1_0_0_1_n_n.rhsIdx (ix2 a b) ((contrEquiv1 Cert.ReferenceIdeal.dot_S100000x128_S128x128_S100000x128_1_0_0_1_n_n 128 rfl rfl).symm k) = ix2 k b := funext fun d => Fin.ext (by
    match d with
    | ⟨0, _⟩ => exact (rhsR_0 _ _).trans hk
    | ⟨1, _⟩ => exact rhsR_1 _ _)
  rw [el, er]

/-! ## One block of the product -/

/-- A block whose rows are rows `n·4000 …` of the node array, against the whole weight matrix: the payload at an entry of
    the block is the product's entry at the corresponding row of the array. -/
theorem blk_point (X : Vec Ideal S100000x128 .f32) (Wt : Vec Ideal S128x128 .f32)
    (x : Vec Ideal S4000x128 .f32) (w : Vec Ideal S128x128 .f32) (n : Nat)
    (hx : ∀ (y : S4000x128.Idx) (k : S100000x128.Idx), (k 0).val = n * 4000 + (y 0).val → (k 1).val = (y 1).val → x y = X k)
    (hw : ∀ y : S128x128.Idx, w y = Wt y)
    (j : S4000x128.Idx) (i : S100000x128.Idx) (hi0 : (i 0).val = n * 4000 + (j 0).val) (hi1 : (i 1).val = (j 1).val) :
    k5_pay1 (F := Ideal) x w j = G X Wt i := by
  obtain ⟨p, q, rfl⟩ : ∃ (p : Fin 4000) (q : Fin 128), j = ix2 p q := ⟨j 0, j 1, eq_ix2 j⟩
  obtain ⟨a, b, rfl⟩ : ∃ (a : Fin 100000) (b : Fin 128), i = ix2 a b := ⟨i 0, i 1, eq_ix2 i⟩
  have hb : b = q := Fin.ext hi1
  subst hb
  rw [pay_apply]
  unfold G
  refine Finset.sum_congr rfl fun k _ => ?_
  rw [hx (ix2 p k) (ix2 a k) hi0 rfl, hw]

/-! ## From the blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the output window are at block row `t`, the weight
    window stays at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the product of the arrays as the region finds them. -/
theorem flushed_eq (c : Dev nD) (t : Fin cfg5.N) :
    (dat5 (F := Ideal) V c).flushed 2 t = ((cfg5.win 2).blk t).view.read (Elt Ideal) (G (V c main_v86_0) (V c main_v88)) := by
  show (cfg5.win 2).cut (grid5.coords t) ((dat5 V c).after 2 t) = _
  rw [after5_2]
  unfold out5_2
  rw [View.canon_unit_zero hz]
  simp only [View.ld_unit_zero (S := S4000x128) hz, View.ld_unit_zero (S := S128x128) hz]
  obtain ⟨e0, e1, e2, e3, e4, e5⟩ := idx_facts t
  funext j
  show k5_pay1 (F := Ideal) (iblk5 V c 0 t) (iblk5 V c 1 t) ((cfg5.win 2).xinj (grid5.coords t) j)
    = G (V c main_v86_0) (V c main_v88) (((cfg5.win 2).blk t).view.emb j)
  refine blk_point (V c main_v86_0) (V c main_v88) (iblk5 V c 0 t) (iblk5 V c 1 t) t.val ?_ ?_
    ((cfg5.win 2).xinj (grid5.coords t) j) (((cfg5.win 2).blk t).view.emb j) ?_ ?_
  · intro y k hk0 hk1
    unfold iblk5
    rw [View.read_apply]
    show V c main_v86_0 (((cfg5.win 0).blk t).view.emb y) = V c main_v86_0 k
    congr 1
    funext a; apply Fin.ext
    match a with
    | ⟨0, _⟩ => show win5_0.index t (0 : Fin 2) * 4000 + 1 * (y 0).val = (k 0).val; rw [e0, hk0]; omega
    | ⟨1, _⟩ => show win5_0.index t (1 : Fin 2) * 128 + 1 * (y 1).val = (k 1).val; rw [e1, hk1]; omega
  · intro y
    unfold iblk5
    rw [View.read_apply]
    show V c main_v88 (((cfg5.win 1).blk t).view.emb y) = V c main_v88 y
    congr 1
    funext a; apply Fin.ext
    match a with
    | ⟨0, _⟩ => show win5_1.index t (0 : Fin 2) * 128 + 1 * (y 0).val = (y 0).val; rw [e2]; omega
    | ⟨1, _⟩ => show win5_1.index t (1 : Fin 2) * 128 + 1 * (y 1).val = (y 1).val; rw [e3]; omega
  · show win5_2.index t (0 : Fin 2) * 4000 + 1 * (j 0).val = t.val * 4000 + (j 0).val
    rw [e4]; omega
  · show win5_2.index t (1 : Fin 2) * 128 + 1 * (j 1).val = (j 1).val
    rw [e5]; omega

/-- An index of the array is in point `t`'s block iff each coordinate is in the block's range on its axis. -/
theorem mem_blk (t : Fin cfg5.N) (i : S100000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v89).slice (win5_2.rect t)).set ↔ _
  rw [View.set_slice_whole, Rect.mem_set_unit]
  exact Iff.rfl

/-- Every row of the array is in some point's block: row `r` in that of point `r / 4000`. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 4000 :=
    ⟨⟨(i 0).val / 4000, by show (i 0).val / 4000 < grid5.N; rw [N_5]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 4000 ≤ (i 0).val ∧ (i 0).val < win5_2.index t (0 : Fin 2) * 4000 + 4000; rw [e4, ht]; omega
  | ⟨1, _⟩ => show win5_2.index t (1 : Fin 2) * 128 ≤ (i 1).val ∧ (i 1).val < win5_2.index t (1 : Fin 2) * 128 + 128; rw [e5]; omega

/-- The region's output array, whatever the region finds on entry: the product of its two input arrays. -/
theorem region_value (c : Dev nD) : (dat5 (F := Ideal) V c).arrAt 2 cfg5.N = G (V c main_v86_0) (V c main_v88) :=
  (dat5 (F := Ideal) V c).arrAt_eq_of_cover 2 (G (V c main_v86_0) (V c main_v88)) (fun t _ => flushed_eq V c t) cover

end Region

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- Layer 2's projection: the kernel's sixth region leaves in its output array the product the reference's
    `dot_general` computes, when the node features and the weight stack agree on entry. -/
theorem step (Vr : RVal)
    (hx : W12 m ρ c (Proc.devRef .tc main_v86_0) = Vr (Proc.devRef .tc Cert.ReferenceIdeal.main_v141))
    (h4 : W12 m ρ c (Proc.devRef .tc main_arg4) = Vr (Proc.devRef .tc Cert.ReferenceIdeal.main_arg4)) :
    W14 m ρ c (Proc.devRef .tc main_v89)
      = StableHlo.after Cert.ReferenceIdeal.RunP.rc8 Vr (Proc.devRef .tc Cert.ReferenceIdeal.main_v144) := by
  rw [show W14 m ρ c (Proc.devRef .tc main_v89) = (dat5 (V13 m ρ) c).arrAt 2 cfg5.N from W14_arr m ρ c 2, region_value]
  show G (StableHlo.after hostOps5 (W12 m ρ c) (Proc.devRef .tc main_v86_0)) (StableHlo.after hostOps5 (W12 m ρ c) (Proc.devRef .tc main_v88)) = _
  after_results
  rw [hx, h4]
  funext i
  obtain ⟨a, b, rfl⟩ : ∃ (a : Fin 100000) (b : Fin 128), i = ix2 a b := ⟨i 0, i 1, eq_ix2 i⟩
  refine Eq.trans ?_ (ref_dot _ _ a b).symm
  rfl

end Cert.Bridge.Mm2

end
-- ==== Proof.Msg2.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Msg2

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

set_option maxHeartbeats 2000000 in
/-- Layer 2's message pass: both programs gather the projected features at the column indices, weight them and
    scatter-add them at the row indices with the same host operations; from projected features, indices and
    weights that agree the aggregated messages agree. -/
theorem msg (Vk : KVal) (Vr : RVal)
    (hH : Vk (Proc.devRef .tc main_v89) = Vr (Proc.devRef .tc Cert.ReferenceIdeal.main_v144))
    (hrow : Vk (Proc.devRef .tc main_v3) = Vr (Proc.devRef .tc Cert.ReferenceIdeal.main_v3))
    (hcol : Vk (Proc.devRef .tc main_v7) = Vr (Proc.devRef .tc Cert.ReferenceIdeal.main_v7))
    (hnorm : Vk (Proc.devRef .tc main_v32) = Vr (Proc.devRef .tc Cert.ReferenceIdeal.main_v32)) :
    StableHlo.after hostOps6 Vk (Proc.devRef .tc main_v102)
      = StableHlo.after Cert.ReferenceIdeal.RunP.rc9 Vr (Proc.devRef .tc Cert.ReferenceIdeal.main_v157) := by
  -- each side, operation by operation, is the scatter-add at the row indices of the products of the gathered
  -- features with the broadcast weights, over the four given buffers
  after_results_simp
  rw [hH, hrow, hcol, hnorm]
  -- the two programs' names for the shapes and the gather / scatter dimension records are the same literals
  rfl

end Cert.Bridge.Msg2

end
-- ==== Proof.Mm3.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Mm3

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

/-- The product of a node array with a weight matrix, entry by entry: row `i 0` of `x` against column `i 1` of `w`. -/
def G (x : S100000x128.Idx → EReal) (w : S128x128.Idx → EReal) : S100000x128.Idx → EReal :=
  fun i => ∑ k : Fin 128, x (ix2 (i 0) k) * w (ix2 k (i 1))

/-! ## The block product at an index -/

theorem lhsB_0 (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsB_1 (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
theorem rhsB_0 (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
theorem rhsB_1 (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's payload at an entry of the block: the narrowing of the operands is the identity on the extended reals,
    the casts are between equal shapes, and the matrix product into the zero splat is the sum over the contraction axis. -/
theorem pay_apply (x : Vec Ideal S4000x128 .f32) (w : Vec Ideal S128x128 .f32) (p : Fin 4000) (q : Fin 128) :
    k7_pay1 (F := Ideal) x w (ix2 p q) = ∑ k : Fin 128, x (ix2 p k) * w (ix2 k q) := by
  unfold k7_pay1
  simp only [shapeCast_self]
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]
  rfl

/-! ## The reference's product at an index -/

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's contraction of the node array's axis 1 with the weight matrix's axis 0, at an entry: the same sum. -/
theorem ref_dot (x : FVec Ideal Cert.ReferenceIdeal.S100000x128 .f32) (w : FVec Ideal Cert.ReferenceIdeal.S128x128 .f32) (a : Fin 100000) (b : Fin 128) :
    Host.dotGeneral (F := Ideal) Cert.ReferenceIdeal.dot_S100000x128_S128x128_S100000x128_1_0_0_1_n_n none x w (ix2 a b)
      = ∑ k : Fin 128, x (ix2 a k) * w (ix2 k b) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 a b) ((contrEquiv1 Cert.ReferenceIdeal.dot_S100000x128_S128x128_S100000x128_1_0_0_1_n_n 128 rfl rfl).symm k) = ix2 a k := funext fun d => Fin.ext (by
    match d with
    | ⟨0, _⟩ => exact lhsR_0 _ _
    | ⟨1, _⟩ => exact (lhsR_1 _ _).trans hk)
  have er : Cert.ReferenceIdeal.dot_S100000x128_S128x128_S100000x128_1_0_0_1_n_n.rhsIdx (ix2 a b) ((contrEquiv1 Cert.ReferenceIdeal.dot_S100000x128_S128x128_S100000x128_1_0_0_1_n_n 128 rfl rfl).symm k) = ix2 k b := funext fun d => Fin.ext (by
    match d with
    | ⟨0, _⟩ => exact (rhsR_0 _ _).trans hk
    | ⟨1, _⟩ => exact rhsR_1 _ _)
  rw [el, er]

/-! ## One block of the product -/

/-- A block whose rows are rows `n·4000 …` of the node array, against the whole weight matrix: the payload at an entry of
    the block is the product's entry at the corresponding row of the array. -/
theorem blk_point (X : Vec Ideal S100000x128 .f32) (Wt : Vec Ideal S128x128 .f32)
    (x : Vec Ideal S4000x128 .f32) (w : Vec Ideal S128x128 .f32) (n : Nat)
    (hx : ∀ (y : S4000x128.Idx) (k : S100000x128.Idx), (k 0).val = n * 4000 + (y 0).val → (k 1).val = (y 1).val → x y = X k)
    (hw : ∀ y : S128x128.Idx, w y = Wt y)
    (j : S4000x128.Idx) (i : S100000x128.Idx) (hi0 : (i 0).val = n * 4000 + (j 0).val) (hi1 : (i 1).val = (j 1).val) :
    k7_pay1 (F := Ideal) x w j = G X Wt i := by
  obtain ⟨p, q, rfl⟩ : ∃ (p : Fin 4000) (q : Fin 128), j = ix2 p q := ⟨j 0, j 1, eq_ix2 j⟩
  obtain ⟨a, b, rfl⟩ : ∃ (a : Fin 100000) (b : Fin 128), i = ix2 a b := ⟨i 0, i 1, eq_ix2 i⟩
  have hb : b = q := Fin.ext hi1
  subst hb
  rw [pay_apply]
  unfold G
  refine Finset.sum_congr rfl fun k _ => ?_
  rw [hx (ix2 p k) (ix2 a k) hi0 rfl, hw]

/-! ## From the blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node window and the output window are at block row `t`, the weight
    window stays at the origin. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the product of the arrays as the region finds them. -/
theorem flushed_eq (c : Dev nD) (t : Fin cfg7.N) :
    (dat7 (F := Ideal) V c).flushed 2 t = ((cfg7.win 2).blk t).view.read (Elt Ideal) (G (V c main_v112_0) (V c main_v114)) := by
  show (cfg7.win 2).cut (grid7.coords t) ((dat7 V c).after 2 t) = _
  rw [after7_2]
  unfold out7_2
  rw [View.canon_unit_zero hz]
  simp only [View.ld_unit_zero (S := S4000x128) hz, View.ld_unit_zero (S := S128x128) hz]
  obtain ⟨e0, e1, e2, e3, e4, e5⟩ := idx_facts t
  funext j
  show k7_pay1 (F := Ideal) (iblk7 V c 0 t) (iblk7 V c 1 t) ((cfg7.win 2).xinj (grid7.coords t) j)
    = G (V c main_v112_0) (V c main_v114) (((cfg7.win 2).blk t).view.emb j)
  refine blk_point (V c main_v112_0) (V c main_v114) (iblk7 V c 0 t) (iblk7 V c 1 t) t.val ?_ ?_
    ((cfg7.win 2).xinj (grid7.coords t) j) (((cfg7.win 2).blk t).view.emb j) ?_ ?_
  · intro y k hk0 hk1
    unfold iblk7
    rw [View.read_apply]
    show V c main_v112_0 (((cfg7.win 0).blk t).view.emb y) = V c main_v112_0 k
    congr 1
    funext a; apply Fin.ext
    match a with
    | ⟨0, _⟩ => show win7_0.index t (0 : Fin 2) * 4000 + 1 * (y 0).val = (k 0).val; rw [e0, hk0]; omega
    | ⟨1, _⟩ => show win7_0.index t (1 : Fin 2) * 128 + 1 * (y 1).val = (k 1).val; rw [e1, hk1]; omega
  · intro y
    unfold iblk7
    rw [View.read_apply]
    show V c main_v114 (((cfg7.win 1).blk t).view.emb y) = V c main_v114 y
    congr 1
    funext a; apply Fin.ext
    match a with
    | ⟨0, _⟩ => show win7_1.index t (0 : Fin 2) * 128 + 1 * (y 0).val = (y 0).val; rw [e2]; omega
    | ⟨1, _⟩ => show win7_1.index t (1 : Fin 2) * 128 + 1 * (y 1).val = (y 1).val; rw [e3]; omega
  · show win7_2.index t (0 : Fin 2) * 4000 + 1 * (j 0).val = t.val * 4000 + (j 0).val
    rw [e4]; omega
  · show win7_2.index t (1 : Fin 2) * 128 + 1 * (j 1).val = (j 1).val
    rw [e5]; omega

/-- An index of the array is in point `t`'s block iff each coordinate is in the block's range on its axis. -/
theorem mem_blk (t : Fin cfg7.N) (i : S100000x128.Idx) :
    i ∈ ((cfg7.win 2).blk t).view.set ↔ ∀ a : Fin 2, win7_2.index t a * S4000x128.size a ≤ (i a).val ∧ (i a).val < win7_2.index t a * S4000x128.size a + S4000x128.size a := by
  show i ∈ ((View.whole main_v115).slice (win7_2.rect t)).set ↔ _
  rw [View.set_slice_whole, Rect.mem_set_unit]
  exact Iff.rfl

/-- Every row of the array is in some point's block: row `r` in that of point `r / 4000`. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, ht⟩ : ∃ t : Fin cfg7.N, t.val = (i 0).val / 4000 :=
    ⟨⟨(i 0).val / 4000, by show (i 0).val / 4000 < grid7.N; rw [N_7]; omega⟩, rfl⟩
  obtain ⟨e0, e1, e2, e3, e4, e5⟩ := idx_facts t
  refine ⟨t, flush7_2 t, ?_⟩
  rw [mem_blk]
  intro a
  match a with
  | ⟨0, _⟩ => show win7_2.index t (0 : Fin 2) * 4000 ≤ (i 0).val ∧ (i 0).val < win7_2.index t (0 : Fin 2) * 4000 + 4000; rw [e4, ht]; omega
  | ⟨1, _⟩ => show win7_2.index t (1 : Fin 2) * 128 ≤ (i 1).val ∧ (i 1).val < win7_2.index t (1 : Fin 2) * 128 + 128; rw [e5]; omega

/-- The region's output array, whatever the region finds on entry: the product of its two input arrays. -/
theorem region_value (c : Dev nD) : (dat7 (F := Ideal) V c).arrAt 2 cfg7.N = G (V c main_v112_0) (V c main_v114) :=
  (dat7 (F := Ideal) V c).arrAt_eq_of_cover 2 (G (V c main_v112_0) (V c main_v114)) (fun t _ => flushed_eq V c t) cover

end Region

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- Layer 3's projection: the kernel's eighth region leaves in its output array the product the reference's
    `dot_general` computes, when the node features and the weight stack agree on entry. -/
theorem step (Vr : RVal)
    (hx : W16 m ρ c (Proc.devRef .tc main_v112_0) = Vr (Proc.devRef .tc Cert.ReferenceIdeal.main_v192))
    (h4 : W16 m ρ c (Proc.devRef .tc main_arg4) = Vr (Proc.devRef .tc Cert.ReferenceIdeal.main_arg4)) :
    W18 m ρ c (Proc.devRef .tc main_v115)
      = StableHlo.after Cert.ReferenceIdeal.RunP.rc11 Vr (Proc.devRef .tc Cert.ReferenceIdeal.main_v195) := by
  rw [show W18 m ρ c (Proc.devRef .tc main_v115) = (dat7 (V17 m ρ) c).arrAt 2 cfg7.N from W18_arr m ρ c 2, region_value]
  show G (StableHlo.after hostOps7 (W16 m ρ c) (Proc.devRef .tc main_v112_0)) (StableHlo.after hostOps7 (W16 m ρ c) (Proc.devRef .tc main_v114)) = _
  after_results
  rw [hx, h4]
  funext i
  obtain ⟨a, b, rfl⟩ : ∃ (a : Fin 100000) (b : Fin 128), i = ix2 a b := ⟨i 0, i 1, eq_ix2 i⟩
  refine Eq.trans ?_ (ref_dot _ _ a b).symm
  rfl

end Cert.Bridge.Mm3

end
-- ==== Proof.Msg3.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Msg3

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

set_option maxHeartbeats 2000000 in
/-- Layer 3's message pass: both programs gather the projected features at the column indices, weight them and
    scatter-add them at the row indices with the same host operations; from projected features, indices and
    weights that agree the aggregated messages agree. -/
theorem msg (Vk : KVal) (Vr : RVal)
    (hH : Vk (Proc.devRef .tc main_v115) = Vr (Proc.devRef .tc Cert.ReferenceIdeal.main_v195))
    (hrow : Vk (Proc.devRef .tc main_v3) = Vr (Proc.devRef .tc Cert.ReferenceIdeal.main_v3))
    (hcol : Vk (Proc.devRef .tc main_v7) = Vr (Proc.devRef .tc Cert.ReferenceIdeal.main_v7))
    (hnorm : Vk (Proc.devRef .tc main_v32) = Vr (Proc.devRef .tc Cert.ReferenceIdeal.main_v32)) :
    StableHlo.after hostOps8 Vk (Proc.devRef .tc main_v128)
      = StableHlo.after Cert.ReferenceIdeal.RunP.rc12 Vr (Proc.devRef .tc Cert.ReferenceIdeal.main_v208) := by
  -- each side, operation by operation, is the scatter-add at the row indices of the products of the gathered
  -- features with the broadcast weights, over the four given buffers
  after_results_simp
  rw [hH, hrow, hcol, hnorm]
  -- the two programs' names for the shapes and the gather / scatter dimension records are the same literals
  rfl

end Cert.Bridge.Msg3

end
-- ==== Proof.Ln0.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Ln0

open Idealize.ShloMosaic Idealize.ShloMosaic.TcCoe Idealize.SL.Sem Idealize.ShloMosaic.StableHlo
open Idealize.ShloMosaic.ValueIdx
open Cert.KernelIdeal Cert.KernelIdeal.Gen

/-! ## The layer's arithmetic, index by index -/

/-- The row of the bias table this layer adds. -/
abbrev brow : Fin 4 := 0
/-- The row of the scale and shift tables this layer's normalisation uses. -/
abbrev lrow : Fin 3 := 0

/-- `x + (conv + bias)` at node `r`, lane `q`. -/
def newAt (x conv : Vec Ideal S100000x128 .f32) (b : Vec Ideal S4x128 .f32) (r : Fin 100000) (q : Fin 128) : EReal :=
  x (ix2 r q) + (conv (ix2 r q) + b (ix2 brow q))

/-- The whole array `x + (conv + bias)`. -/
def newG (x conv : Vec Ideal S100000x128 .f32) (b : Vec Ideal S4x128 .f32) : Vec Ideal S100000x128 .f32 :=
  fun i => newAt x conv b (i 0) (i 1)

/-- A row's mean: its sum over the 128 lanes divided by 128. -/
def mean (f : Fin 128 → EReal) : EReal := Ideal.div (∑ k : Fin 128, f k) (Ideal.ofBits .f32 0x43000000#32)

/-- The normalised row at lane `q`, scaled by `s` and shifted by `l`: the deviation from the mean times the
    reciprocal square root of the variance plus the literal epsilon. -/
def lnAt (f : Fin 128 → EReal) (s l : EReal) (q : Fin 128) : EReal :=
  ((f q - mean f) * Ideal.rsqrt (mean (fun k => (f k - mean f) * (f k - mean f)) + Ideal.ofBits .f32 0x3727C5AC#32)) * s + l

/-- The positive part, against the zero word as both programs write it. -/
def pos (a : EReal) : EReal := max a (Ideal.ofBits .f32 0x00000000#32)

/-- The whole array: the layer norm of the positive part of `new`, row by row. -/
def lnG (new : Vec Ideal S100000x128 .f32) (sc lb : Vec Ideal S3x128 .f32) : Vec Ideal S100000x128 .f32 :=
  fun i => lnAt (fun k => pos (new (ix2 (i 0) k))) (sc (ix2 lrow (i 1))) (lb (ix2 lrow (i 1))) (i 1)

/-! ## The kernel body's two results at an index of a block -/

theorem bcastRow_apply (v : FVec Ideal S1x128 .f32) (p : Fin 4000) (q : Fin 128) :
    broadcastTo S4000x128 v broadcasts_S1x128_S4000x128 (ix2 p q) = v (ix2 0 q) :=
  broadcastTo_apply v _ (ix2 p q) (ix2 0 q) (fun a => by match a with | ⟨0, _⟩ => rfl | ⟨1, _⟩ => rfl)

theorem bcastCol_apply (v : FVec Ideal S4000x1 .f32) (p : Fin 4000) (q : Fin 128) :
    broadcastTo S4000x128 v broadcasts_S4000x1_S4000x128 (ix2 p q) = v (ix2 p 0) :=
  broadcastTo_apply v _ (ix2 p q) (ix2 p 0) (fun a => by match a with | ⟨0, _⟩ => rfl | ⟨1, _⟩ => rfl)

theorem castCol_apply (v : FVec Ideal S4000 .f32) (p : Fin 4000) :
    shapeCast S4000x1 v shapeCasts_S4000_S4000x1 (ix2 p 0) = v (ix1 p) :=
  shapeCast_apply v _ (ix2 p 0) (ix1 p) (by
    rw [Shape.rowMajor_val_one, Shape.rowMajor_val_two]; show p.val = p.val * 1 + 0; omega)

theorem rowSum_apply (v : FVec Ideal S4000x128 .f32) (hφ : FTy.f32 = FTy.f32 ∨ FTy.f32 = FTy.bf16)
    (hacc : (0x00000000#32 : BitVec 32) = 0x00000000#32) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v ?_
  funext a; apply Fin.ext
  match a with
  | ⟨0, _⟩ => rfl
  | ⟨1, _⟩ => rfl

theorem pay1_apply (v0 v2 : Vec Ideal S4000x128 .f32) (v4 : Vec Ideal S1x128 .f32) (p : Fin 4000) (q : Fin 128) :
    k2_pay1 v0 v2 v4 (ix2 p q) = v0 (ix2 p q) + (v2 (ix2 p q) + v4 (ix2 0 q)) := by
  unfold k2_pay1
  simp only [shapeCast_self]
  rw [addf_apply, addf_apply, bcastRow_apply]

theorem rsqrt_apply {s : Shape} (a : FVec Ideal s .f32) (i : s.Idx) : rsqrt a i = Ideal.rsqrt (a i) := rfl

theorem pay2_apply (v0 v2 : Vec Ideal S4000x128 .f32) (v4 v30 v34 : Vec Ideal S1x128 .f32) (p : Fin 4000) (q : Fin 128) :
    k2_pay2 v0 v2 v4 v30 v34 (ix2 p q)
      = lnAt (fun k => pos (k2_pay1 v0 v2 v4 (ix2 p k))) (v30 (ix2 0 q)) (v34 (ix2 0 q)) q := by
  unfold k2_pay2
  simp only [shapeCast_self]
  simp only [addf_apply, mulf_apply, subf_apply, divf_apply, maximumf_apply, rsqrt_apply, broadcast_apply,
    bcastRow_apply, bcastCol_apply, castCol_apply]
  erw [rowSum_apply]
  try simp only [addf_apply, mulf_apply, subf_apply, divf_apply, maximumf_apply, rsqrt_apply, broadcast_apply,
    bcastRow_apply, bcastCol_apply, castCol_apply]
  try erw [rowSum_apply]
  try simp only [addf_apply, mulf_apply, subf_apply, divf_apply, maximumf_apply, rsqrt_apply, broadcast_apply,
    bcastRow_apply, bcastCol_apply, castCol_apply]
  try erw [rowSum_apply]
  rfl

/-! ## From the blocks to the arrays: region 2 at ANY entry contents `V` -/

section Region

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the four node windows sit at block row `t`, block column 0; the three
    parameter windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 25 := lt_of_lt_of_eq t.isLt N_2

/-- Row `p` of block `t` of `x` is row `4000 t + p` of the array. -/
theorem blk0_apply (t : Fin cfg2.N) (p : Fin 4000) (q : Fin 128) (r : Fin 100000) (hr : r.val = t.val * 4000 + p.val) :
    (iblk2 V c 0 t : Vec Ideal S4000x128 .f32) (ix2 p q) = V c main_v34 (ix2 r q) := by
  obtain ⟨e0, e1, -⟩ := idx_facts t
  show V c main_v34 (((cfg2.win 0).blk t).view.emb (ix2 p q)) = V c main_v34 (ix2 r q)
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * q.val = q.val; omega

/-- The same for `conv`. -/
theorem blk1_apply (t : Fin cfg2.N) (p : Fin 4000) (q : Fin 128) (r : Fin 100000) (hr : r.val = t.val * 4000 + p.val) :
    (iblk2 V c 1 t : Vec Ideal S4000x128 .f32) (ix2 p q) = V c main_v50 (ix2 r q) := by
  obtain ⟨-, -, e0, e1, -⟩ := idx_facts t
  show V c main_v50 (((cfg2.win 1).blk t).view.emb (ix2 p q)) = V c main_v50 (ix2 r q)
  refine congrArg _ (funext fun a => Fin.ext ?_)
  match a with
  | ⟨0, _⟩ => show win2_1.index t (0 : Fin 2) * 4000 + 1 * p.val = r.val; omega
  | ⟨1, _⟩ => show win2_1.index t (1 : Fin 2) * 128 + 1 * q.val = q.val; omega

/-- A parameter row's block is the row itself, at every point. -/
theorem blk2_apply (t : Fin cfg2.N) (q : Fin 128) :
    (iblk2 V c 2 t : Vec Ideal S1x128 .f32) (ix2 0 q) = V c main_v53 (ix2 0 q) := by
  obtain ⟨-, -, -, -, e0, e1, -⟩ := idx_facts t
  show V c main_v53 (((cfg2.win 2).blk t).view.emb (ix2 0 q)) = V c main_v53 (ix2 0 q)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

theorem blk3_apply (t : Fin cfg2.N) (q : Fin 128) :
    (iblk2 V c 3 t : Vec Ideal S1x128 .f32) (ix2 0 q) = V c main_v56 (ix2 0 q) := by
  obtain ⟨-, -, -, -, -, -, e0, e1, -⟩ := idx_facts t
  show V c main_v56 (((cfg2.win 3).blk t).view.emb (ix2 0 q)) = V c main_v56 (ix2 0 q)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

theorem blk4_apply (t : Fin cfg2.N) (q : Fin 128) :
    (iblk2 V c 4 t : Vec Ideal S1x128 .f32) (ix2 0 q) = V c main_v59 (ix2 0 q) := by
  obtain ⟨-, -, -, -, -, -, -, -, e0, e1, -⟩ := idx_facts t
  show V c main_v59 (((cfg2.win 4).blk t).view.emb (ix2 0 q)) = V c main_v59 (ix2 0 q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

variable (b5 : Vec Ideal S4x128 .f32) (b6 b7 : Vec Ideal S3x128 .f32)
  (hbias : ∀ q : Fin 128, V c main_v53 (ix2 0 q) = b5 (ix2 brow q))
  (hscale : ∀ q : Fin 128, V c main_v56 (ix2 0 q) = b6 (ix2 lrow q))
  (hshift : ∀ q : Fin 128, V c main_v59 (ix2 0 q) = b7 (ix2 lrow q))

include hbias in
/-- The body's first result on a block row is `x + (conv + bias)` on the array row. -/
theorem new_blk (t : Fin cfg2.N) (p : Fin 4000) (q : Fin 128) (r : Fin 100000) (hr : r.val = t.val * 4000 + p.val) :
    k2_pay1 (iblk2 V c 0 t) (iblk2 V c 1 t) (iblk2 V c 2 t) (ix2 p q) = newAt (V c main_v34) (V c main_v50) b5 r q := by
  refine (pay1_apply (iblk2 V c 0 t) (iblk2 V c 1 t) (iblk2 V c 2 t) p q).trans ?_
  rw [blk0_apply V c t p q r hr, blk1_apply V c t p q r hr, blk2_apply V c t q, hbias q]
  rfl

include hbias hscale hshift in
/-- The body's second result on a block row is the layer norm of the array row: a block holds whole rows, so the
    row's mean and variance are the array row's. -/
theorem ln_blk (t : Fin cfg2.N) (p : Fin 4000) (q : Fin 128) (r : Fin 100000) (hr : r.val = t.val * 4000 + p.val) :
    k2_pay2 (iblk2 V c 0 t) (iblk2 V c 1 t) (iblk2 V c 2 t) (iblk2 V c 3 t) (iblk2 V c 4 t) (ix2 p q)
      = lnAt (fun k => pos (newAt (V c main_v34) (V c main_v50) b5 r k)) (b6 (ix2 lrow q)) (b7 (ix2 lrow q)) q := by
  refine (pay2_apply (iblk2 V c 0 t) (iblk2 V c 1 t) (iblk2 V c 2 t) (iblk2 V c 3 t) (iblk2 V c 4 t) p q).trans ?_
  have e : (fun k => pos (k2_pay1 (iblk2 V c 0 t) (iblk2 V c 1 t) (iblk2 V c 2 t) (ix2 p k)))
      = fun k => pos (newAt (V c main_v34) (V c main_v50) b5 r k) :=
    funext fun k => congrArg pos (new_blk V c b5 hbias t p k r hr)
  have e3 : (iblk2 V c 3 t : Vec Ideal S1x128 .f32) (ix2 0 q) = b6 (ix2 lrow q) := (blk3_apply V c t q).trans (hscale q)
  have e4 : (iblk2 V c 4 t : Vec Ideal S1x128 .f32) (ix2 0 q) = b7 (ix2 lrow q) := (blk4_apply V c t q).trans (hshift q)
  rw [e, e3, e4]

/-- Block `t`'s place in the array: row `p` of the block is row `4000 t + p`. -/
theorem emb5 (t : Fin cfg2.N) (p : Fin 4000) (q : Fin 128) (r : Fin 100000) (hr : r.val = t.val * 4000 + p.val) :
    ((cfg2.win 5).blk t).view.emb (ix2 p q) = ix2 r q := by
  obtain ⟨-, -, -, -, -, -, -, -, -, -, e0, e1, -⟩ := idx_facts t
  refine funext fun a => Fin.ext ?_
  match a with
  | ⟨0, _⟩ => show win2_5.index t (0 : Fin 2) * 4000 + 1 * p.val = r.val; omega
  | ⟨1, _⟩ => show win2_5.index t (1 : Fin 2) * 128 + 1 * q.val = q.val; omega

theorem emb6 (t : Fin cfg2.N) (p : Fin 4000) (q : Fin 128) (r : Fin 100000) (hr : r.val = t.val * 4000 + p.val) :
    ((cfg2.win 6).blk t).view.emb (ix2 p q) = ix2 r q := by
  obtain ⟨-, -, -, -, -, -, -, -, -, -, -, -, e0, e1⟩ := idx_facts t
  refine funext fun a => Fin.ext ?_
  match a with
  | ⟨0, _⟩ => show win2_6.index t (0 : Fin 2) * 4000 + 1 * p.val = r.val; omega
  | ⟨1, _⟩ => show win2_6.index t (1 : Fin 2) * 128 + 1 * q.val = q.val; omega

include hbias in
/-- What point `t` writes back to the second output is block `t` of `x + (conv + bias)`. -/
theorem flushed6_eq (t : Fin cfg2.N) :
    (dat2 V c).flushed 6 t = ((cfg2.win 6).blk t).view.read (Elt Ideal) (newG (V c main_v34) (V c main_v50) b5) := by
  show (cfg2.win 6).cut (grid2.coords t) ((dat2 V c).after 6 t) = _
  rw [after2_6]
  unfold out2_6
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (new_blk V c b5 hbias t p q _ hr).trans ?_
  show _ = newG (V c main_v34) (V c main_v50) b5 (((cfg2.win 6).blk t).view.emb (ix2 p q))
  rw [emb6 t p q _ hr]
  rfl

include hbias hscale hshift in
/-- What point `t` writes back to the first output is block `t` of the layer norm. -/
theorem flushed5_eq (t : Fin cfg2.N) :
    (dat2 V c).flushed 5 t
      = ((cfg2.win 5).blk t).view.read (Elt Ideal) (lnG (newG (V c main_v34) (V c main_v50) b5) b6 b7) := by
  show (cfg2.win 5).cut (grid2.coords t) ((dat2 V c).after 5 t) = _
  rw [after2_5]
  unfold out2_5
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (ln_blk V c b5 b6 b7 hbias hscale hshift t p q _ hr).trans ?_
  show _ = lnG (newG (V c main_v34) (V c main_v50) b5) b6 b7 (((cfg2.win 5).blk t).view.emb (ix2 p q))
  rw [emb5 t p q _ hr]
  rfl

/-- An index of the array is in point `t`'s block iff each coordinate is in the block's range on its axis. -/
theorem mem_blk5 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v60_0).slice (win2_5.rect t)).set ↔ _
  rw [View.set_slice_whole, Rect.mem_set_unit]
  exact Iff.rfl

theorem mem_blk6 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v60_1).slice (win2_6.rect t)).set ↔ _
  rw [View.set_slice_whole, Rect.mem_set_unit]
  exact Iff.rfl

/-- Row `r` of the array lies in the block of point `r / 4000`. -/
theorem cover5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 4000 < cfg2.N := by show _ < grid2.N; rw [N_2]; omega
  obtain ⟨-, -, -, -, -, -, -, -, -, -, e0, e1, -⟩ := idx_facts ⟨(i 0).val / 4000, hN⟩
  have e0' : win2_5.index ⟨(i 0).val / 4000, hN⟩ (0 : Fin 2) = (i 0).val / 4000 := e0
  refine ⟨⟨(i 0).val / 4000, hN⟩, flush2_5 _, ?_⟩
  rw [mem_blk5]
  intro a
  match a with
  | ⟨0, _⟩ => show win2_5.index ⟨(i 0).val / 4000, hN⟩ (0 : Fin 2) * 4000 ≤ (i 0).val ∧ (i 0).val < win2_5.index ⟨(i 0).val / 4000, hN⟩ (0 : Fin 2) * 4000 + 4000; omega
  | ⟨1, _⟩ => show win2_5.index ⟨(i 0).val / 4000, hN⟩ (1 : Fin 2) * 128 ≤ (i 1).val ∧ (i 1).val < win2_5.index ⟨(i 0).val / 4000, hN⟩ (1 : Fin 2) * 128 + 128; omega

theorem cover6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 4000 < cfg2.N := by show _ < grid2.N; rw [N_2]; omega
  obtain ⟨-, -, -, -, -, -, -, -, -, -, -, -, e0, e1⟩ := idx_facts ⟨(i 0).val / 4000, hN⟩
  have e0' : win2_6.index ⟨(i 0).val / 4000, hN⟩ (0 : Fin 2) = (i 0).val / 4000 := e0
  refine ⟨⟨(i 0).val / 4000, hN⟩, flush2_6 _, ?_⟩
  rw [mem_blk6]
  intro a
  match a with
  | ⟨0, _⟩ => show win2_6.index ⟨(i 0).val / 4000, hN⟩ (0 : Fin 2) * 4000 ≤ (i 0).val ∧ (i 0).val < win2_6.index ⟨(i 0).val / 4000, hN⟩ (0 : Fin 2) * 4000 + 4000; omega
  | ⟨1, _⟩ => show win2_6.index ⟨(i 0).val / 4000, hN⟩ (1 : Fin 2) * 128 ≤ (i 1).val ∧ (i 1).val < win2_6.index ⟨(i 0).val / 4000, hN⟩ (1 : Fin 2) * 128 + 128; omega

include hbias in
/-- The second output array after the region, whole. -/
theorem final6 : (dat2 V c).arrAt 6 cfg2.N = newG (V c main_v34) (V c main_v50) b5 :=
  (dat2 V c).arrAt_eq_of_cover 6 (newG (V c main_v34) (V c main_v50) b5) (fun t _ => flushed6_eq V c b5 hbias t) cover6

include hbias hscale hshift in
/-- The first output array after the region, whole. -/
theorem final5 : (dat2 V c).arrAt 5 cfg2.N = lnG (newG (V c main_v34) (V c main_v50) b5) b6 b7 :=
  (dat2 V c).arrAt_eq_of_cover 5 (lnG (newG (V c main_v34) (V c main_v50) b5) b6 b7)
    (fun t _ => flushed5_eq V c b5 b6 b7 hbias hscale hshift t) cover5

end Region

/-! ## The parameter rows the host stretch lays out, and the region's exit -/

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The bias row as the region finds it is the table's row: a slice, flattened and laid out again as one row. -/
theorem biasRow (q : Fin 128) :
    W7 m ρ c (Proc.devRef .tc main_v53) (ix2 0 q) = W6 m ρ c (Proc.devRef .tc main_arg5) (ix2 brow q) := by
  have e : (W7 m ρ c (Proc.devRef .tc main_v53) : Vec Ideal S1x128 .f32)
      = shapeCast S1x128 (shapeCast S128 (extractStridedSlice S1x128 ![0, 0]
          (W6 m ρ c (Proc.devRef .tc main_arg5) : Vec Ideal S4x128 .f32) slices_S4x128_S1x128_0_0) shapeCasts_S1x128_S128)
          shapeCasts_S128_S1x128 := by
    show StableHlo.after hostOps2 (W6 m ρ c) (Proc.devRef .tc main_v53) = _
    after_results; rfl
  refine (congrFun e (ix2 0 q)).trans ?_
  rw [shapeCast_shapeCast]
  exact extractStridedSlice_apply _ _ _ (ix2 0 q) (ix2 brow q) (fun a => by
    match a with
    | ⟨0, _⟩ => rfl
    | ⟨1, _⟩ => exact (Nat.zero_add _).symm)

/-- The scale row likewise. -/
theorem scaleRow (q : Fin 128) :
    W7 m ρ c (Proc.devRef .tc main_v56) (ix2 0 q) = W6 m ρ c (Proc.devRef .tc main_arg6) (ix2 lrow q) := by
  have e : (W7 m ρ c (Proc.devRef .tc main_v56) : Vec Ideal S1x128 .f32)
      = shapeCast S1x128 (shapeCast S128 (extractStridedSlice S1x128 ![0, 0]
          (W6 m ρ c (Proc.devRef .tc main_arg6) : Vec Ideal S3x128 .f32) slices_S3x128_S1x128_0_0) shapeCasts_S1x128_S128)
          shapeCasts_S128_S1x128 := by
    show StableHlo.after hostOps2 (W6 m ρ c) (Proc.devRef .tc main_v56) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The shift row likewise. -/
theorem shiftRow (q : Fin 128) :
    W7 m ρ c (Proc.devRef .tc main_v59) (ix2 0 q) = W6 m ρ c (Proc.devRef .tc main_arg7) (ix2 lrow q) := by
  have e : (W7 m ρ c (Proc.devRef .tc main_v59) : Vec Ideal S1x128 .f32)
      = shapeCast S1x128 (shapeCast S128 (extractStridedSlice S1x128 ![0, 0]
          (W6 m ρ c (Proc.devRef .tc main_arg7) : Vec Ideal S3x128 .f32) slices_S3x128_S1x128_0_0) shapeCasts_S1x128_S128)
          shapeCasts_S128_S1x128 := by
    show StableHlo.after hostOps2 (W6 m ρ c) (Proc.devRef .tc main_v59) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The kernel's second output after the region: `x + (conv + bias)` of the region's entry arrays. -/
theorem kernel_new :
    W8 m ρ c (Proc.devRef .tc main_v60_1)
      = newG (W7 m ρ c (Proc.devRef .tc main_v34)) (W7 m ρ c (Proc.devRef .tc main_v50))
          (W6 m ρ c (Proc.devRef .tc main_arg5)) :=
  (W8_arr m ρ c 6).trans (final6 (V7 m ρ) c (W6 m ρ c (Proc.devRef .tc main_arg5)) (biasRow m ρ c))

/-- The kernel's first output after the region: the layer norm of that. -/
theorem kernel_ln :
    W8 m ρ c (Proc.devRef .tc main_v60_0)
      = lnG (newG (W7 m ρ c (Proc.devRef .tc main_v34)) (W7 m ρ c (Proc.devRef .tc main_v50))
            (W6 m ρ c (Proc.devRef .tc main_arg5)))
          (W6 m ρ c (Proc.devRef .tc main_arg6)) (W6 m ρ c (Proc.devRef .tc main_arg7)) :=
  (W8_arr m ρ c 5).trans (final5 (V7 m ρ) c (W6 m ρ c (Proc.devRef .tc main_arg5))
    (W6 m ρ c (Proc.devRef .tc main_arg6)) (W6 m ρ c (Proc.devRef .tc main_arg7)) (biasRow m ρ c) (scaleRow m ρ c) (shiftRow m ρ c))

/-! ## The reference's host operations of this layer, read at an index -/

section RefTerms
variable {F : FTy → Type} [FloatOps F]

/-- The reference's parameter row spread over the array: a slice of the table, flattened, laid out as one row and
    repeated down the nodes. -/
def rRow4 (b : FVec F Cert.ReferenceIdeal.S4x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![0, 0] b Cert.ReferenceIdeal.Gen.slices_S4x128_S1x128_0_0) Cert.ReferenceIdeal.Gen.shapeCasts_S1x128_S128))

def rRow3 (b : FVec F Cert.ReferenceIdeal.S3x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![0, 0] b Cert.ReferenceIdeal.Gen.slices_S3x128_S1x128_0_0) Cert.ReferenceIdeal.Gen.shapeCasts_S1x128_S128))

theorem rRow4_apply (b : FVec Ideal Cert.ReferenceIdeal.S4x128 .f32) (r : Fin 100000) (q : Fin 128) : rRow4 b (ix2 r q) = b (ix2 brow q) := by
  unfold rRow4
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 brow q) (fun a => by
    match a with
    | ⟨0, _⟩ => rfl
    | ⟨1, _⟩ => exact (Nat.zero_add _).symm)

theorem rRow3_apply (b : FVec Ideal Cert.ReferenceIdeal.S3x128 .f32) (r : Fin 100000) (q : Fin 128) : rRow3 b (ix2 r q) = b (ix2 lrow q) := by
  unfold rRow3
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 lrow q) (fun a => by
    match a with
    | ⟨0, _⟩ => rfl
    | ⟨1, _⟩ => exact (Nat.zero_add _).symm)

/-- A word spread over the whole array. -/
def rFull (w : BitVec 32) : FVec F Cert.ReferenceIdeal.S100000x128 .f32 :=
  broadcastInDim Cert.ReferenceIdeal.S100000x128 ![] Cert.ReferenceIdeal.Gen.bcast_S_S100000x128 (constant (F := F) Cert.ReferenceIdeal.S_ .f32 w)

/-- A word spread over a column. -/
def rColW (w : BitVec 32) : FVec F Cert.ReferenceIdeal.S100000x1 .f32 :=
  broadcastInDim Cert.ReferenceIdeal.S100000x1 ![] Cert.ReferenceIdeal.Gen.bcast_S_S100000x1 (constant (F := F) Cert.ReferenceIdeal.S_ .f32 w)

theorem rFull_apply (w : BitVec 32) (i : Cert.ReferenceIdeal.S100000x128.Idx) : rFull (F := Ideal) w i = Ideal.ofBits .f32 w := rfl
theorem rColW_apply (w : BitVec 32) (i : Cert.ReferenceIdeal.S100000x1.Idx) : rColW (F := Ideal) w i = Ideal.ofBits .f32 w := rfl

/-- A row's sum as a column: the host's reduce over the lanes from a zero word, kept as a one-wide axis. -/
def rSumCol (v : FVec F Cert.ReferenceIdeal.S100000x128 .f32) : FVec F Cert.ReferenceIdeal.S100000x1 .f32 :=
  broadcastInDim Cert.ReferenceIdeal.S100000x1 ![0] Cert.ReferenceIdeal.Gen.bcast_S100000_S100000x1_0
    (Host.reduceAdd v (constant (F := F) Cert.ReferenceIdeal.S_ .f32 0x00000000#32) Cert.ReferenceIdeal.Gen.reducesTo_S100000x128_S100000_d1 Cert.ReferenceIdeal.Gen.h_S_)

theorem rSumCol_apply (v : FVec Ideal Cert.ReferenceIdeal.S100000x128 .f32) (r : Fin 100000) :
    rSumCol v (ix2 r 0) = ∑ k : Fin 128, v (ix2 r k) := by
  unfold rSumCol
  refine (broadcastInDim_apply _ _ _ (ix2 r 0) (ix1 r) (fun a => by match a with | ⟨0, _⟩ => rfl)).trans ?_
  have h : Cert.ReferenceIdeal.S100000x128.Reduces [1] Cert.ReferenceIdeal.S100000 := by decide
  show Ideal.hostReduceAdd Cert.ReferenceIdeal.Gen.reducesTo_S100000x128_S100000_d1 v (Ideal.ofBits .f32 0x00000000#32) (ix1 r) = _
  rw [Ideal.hostReduceAdd_single Cert.ReferenceIdeal.Gen.reducesTo_S100000x128_S100000_d1 h, Ideal.ofBits_zero_f32, zero_add]
  refine Finset.sum_congr rfl fun k _ => congrArg v ?_
  funext a; apply Fin.ext
  match a with
  | ⟨0, _⟩ => rfl
  | ⟨1, _⟩ => rfl

/-- A column spread along the lanes. -/
def rSpread (v : FVec F Cert.ReferenceIdeal.S100000x1 .f32) : FVec F Cert.ReferenceIdeal.S100000x128 .f32 :=
  broadcastInDim Cert.ReferenceIdeal.S100000x128 ![0, 1] Cert.ReferenceIdeal.Gen.bcast_S100000x1_S100000x128_0_1 v

theorem rSpread_apply (v : FVec Ideal Cert.ReferenceIdeal.S100000x1 .f32) (r : Fin 100000) (q : Fin 128) : rSpread v (ix2 r q) = v (ix2 r 0) := by
  unfold rSpread
  exact broadcastInDim_apply _ _ _ (ix2 r q) (ix2 r 0) (fun a => by match a with | ⟨0, _⟩ => rfl | ⟨1, _⟩ => rfl)

theorem hostDivf_apply' {s : Shape} (a b : FVec Ideal s .f32) (i : s.Idx) : Host.divf a b i = Ideal.div (a i) (b i) := rfl
theorem hostRsqrt_apply' {s : Shape} (a : FVec Ideal s .f32) (i : s.Idx) : Host.rsqrt a i = Ideal.rsqrt (a i) := rfl

/-- The reference's `x + (conv + bias)`. -/
def refNew (x cv : FVec F Cert.ReferenceIdeal.S100000x128 .f32) (b5 : FVec F Cert.ReferenceIdeal.S4x128 .f32) : FVec F Cert.ReferenceIdeal.S100000x128 .f32 :=
  addf x (addf cv (rRow4 b5))

/-- The positive part of `n`, as the reference takes it. -/
def rPos (n : FVec F Cert.ReferenceIdeal.S100000x128 .f32) : FVec F Cert.ReferenceIdeal.S100000x128 .f32 := maximumf n (rFull 0x00000000#32)

/-- Its rows' means, as a column. -/
def rMu (n : FVec F Cert.ReferenceIdeal.S100000x128 .f32) : FVec F Cert.ReferenceIdeal.S100000x1 .f32 := Host.divf (rSumCol (rPos n)) (rColW 0x43000000#32)

/-- The reference's layer norm of the positive part of `n`, its operations in order. -/
def refLn (n : FVec F Cert.ReferenceIdeal.S100000x128 .f32) (b6 b7 : FVec F Cert.ReferenceIdeal.S3x128 .f32) : FVec F Cert.ReferenceIdeal.S100000x128 .f32 :=
  addf (mulf (mulf (subf (rPos n) (rSpread (rMu n)))
      (rSpread (Host.rsqrt (addf
        (Host.divf (rSumCol (mulf (subf (rPos n) (rSpread (rMu n))) (subf (rPos n) (rSpread (rMu n))))) (rColW 0x43000000#32))
        (rColW 0x3727C5AC#32))))) (rRow3 b6)) (rRow3 b7)

/-- The stretch's two results are these terms of the entry arrays (the operations' results composed). -/
theorem ref_new_term (V : Valuation Cert.ReferenceIdeal.τ Cert.ReferenceIdeal.sig (Elt F)) :
    StableHlo.after Cert.ReferenceIdeal.RunP.rc4 V (Proc.devRef .tc Cert.ReferenceIdeal.main_v61)
      = refNew (V (Proc.devRef .tc Cert.ReferenceIdeal.main_v39)) (V (Proc.devRef .tc Cert.ReferenceIdeal.main_v55)) (V (Proc.devRef .tc Cert.ReferenceIdeal.main_arg5)) := by
  after_results; rfl

set_option maxHeartbeats 2000000 in
theorem ref_ln_term (V : Valuation Cert.ReferenceIdeal.τ Cert.ReferenceIdeal.sig (Elt F)) :
    StableHlo.after Cert.ReferenceIdeal.RunP.rc4 V (Proc.devRef .tc Cert.ReferenceIdeal.main_v90)
      = refLn (refNew (V (Proc.devRef .tc Cert.ReferenceIdeal.main_v39)) (V (Proc.devRef .tc Cert.ReferenceIdeal.main_v55)) (V (Proc.devRef .tc Cert.ReferenceIdeal.main_arg5)))
          (V (Proc.devRef .tc Cert.ReferenceIdeal.main_arg6)) (V (Proc.devRef .tc Cert.ReferenceIdeal.main_arg7)) := by
  after_results_simp; rfl

end RefTerms

theorem refNew_apply (x cv : FVec Ideal Cert.ReferenceIdeal.S100000x128 .f32) (b5 : FVec Ideal Cert.ReferenceIdeal.S4x128 .f32) (r : Fin 100000) (q : Fin 128) :
    refNew x cv b5 (ix2 r q) = newAt x cv b5 r q := by
  unfold refNew
  rw [addf_apply, addf_apply, rRow4_apply]
  rfl

theorem refLn_apply (n : FVec Ideal Cert.ReferenceIdeal.S100000x128 .f32) (b6 b7 : FVec Ideal Cert.ReferenceIdeal.S3x128 .f32) (r : Fin 100000) (q : Fin 128) :
    refLn n b6 b7 (ix2 r q) = lnAt (fun k => pos (n (ix2 r k))) (b6 (ix2 lrow q)) (b7 (ix2 lrow q)) q := by
  unfold refLn rMu rPos
  simp only [addf_apply, mulf_apply, subf_apply, maximumf_apply, hostDivf_apply', hostRsqrt_apply', rFull_apply, rColW_apply,
    rRow3_apply, rSpread_apply, rSumCol_apply]
  rfl

theorem ref_new (Vr : RVal) :
    StableHlo.after Cert.ReferenceIdeal.RunP.rc4 Vr (Proc.devRef .tc Cert.ReferenceIdeal.main_v61)
      = newG (Vr (Proc.devRef .tc Cert.ReferenceIdeal.main_v39)) (Vr (Proc.devRef .tc Cert.ReferenceIdeal.main_v55))
          (Vr (Proc.devRef .tc Cert.ReferenceIdeal.main_arg5)) := by
  rw [ref_new_term Vr]
  funext i
  obtain ⟨r, q, rfl⟩ : ∃ (r : Fin 100000) (q : Fin 128), i = ix2 r q := ⟨i 0, i 1, eq_ix2 i⟩
  exact refNew_apply _ _ _ r q

theorem ref_ln (Vr : RVal) :
    StableHlo.after Cert.ReferenceIdeal.RunP.rc4 Vr (Proc.devRef .tc Cert.ReferenceIdeal.main_v90)
      = lnG (newG (Vr (Proc.devRef .tc Cert.ReferenceIdeal.main_v39)) (Vr (Proc.devRef .tc Cert.ReferenceIdeal.main_v55))
            (Vr (Proc.devRef .tc Cert.ReferenceIdeal.main_arg5)))
          (Vr (Proc.devRef .tc Cert.ReferenceIdeal.main_arg6)) (Vr (Proc.devRef .tc Cert.ReferenceIdeal.main_arg7)) := by
  rw [ref_ln_term Vr]
  funext i
  obtain ⟨r, q, rfl⟩ : ∃ (r : Fin 100000) (q : Fin 128), i = ix2 r q := ⟨i 0, i 1, eq_ix2 i⟩
  refine (refLn_apply _ _ _ r q).trans ?_
  have en : (fun k => pos (refNew (F := Ideal) (Vr (Proc.devRef .tc Cert.ReferenceIdeal.main_v39)) (Vr (Proc.devRef .tc Cert.ReferenceIdeal.main_v55)) (Vr (Proc.devRef .tc Cert.ReferenceIdeal.main_arg5)) (ix2 r k)))
      = fun k => pos (newAt (Vr (Proc.devRef .tc Cert.ReferenceIdeal.main_v39)) (Vr (Proc.devRef .tc Cert.ReferenceIdeal.main_v55)) (Vr (Proc.devRef .tc Cert.ReferenceIdeal.main_arg5)) r k) :=
    funext fun k => by rw [refNew_apply]
  rw [en]
  rfl

/-- Layer 0's combination: the kernel's third region leaves `x + (conv + bias)` in its second output and the
    layer norm of its positive part, scaled and shifted, in its first; the reference computes both by host operations. -/
theorem step (Vr : RVal)
    (hx : W7 m ρ c (Proc.devRef .tc main_v34) = Vr (Proc.devRef .tc Cert.ReferenceIdeal.main_v39))
    (hconv : W7 m ρ c (Proc.devRef .tc main_v50) = Vr (Proc.devRef .tc Cert.ReferenceIdeal.main_v55))
    (h5 : W6 m ρ c (Proc.devRef .tc main_arg5) = Vr (Proc.devRef .tc Cert.ReferenceIdeal.main_arg5))
    (h6 : W6 m ρ c (Proc.devRef .tc main_arg6) = Vr (Proc.devRef .tc Cert.ReferenceIdeal.main_arg6))
    (h7 : W6 m ρ c (Proc.devRef .tc main_arg7) = Vr (Proc.devRef .tc Cert.ReferenceIdeal.main_arg7)) :
    W8 m ρ c (Proc.devRef .tc main_v60_0) = StableHlo.after Cert.ReferenceIdeal.RunP.rc4 Vr (Proc.devRef .tc Cert.ReferenceIdeal.main_v90)
    ∧ W8 m ρ c (Proc.devRef .tc main_v60_1) = StableHlo.after Cert.ReferenceIdeal.RunP.rc4 Vr (Proc.devRef .tc Cert.ReferenceIdeal.main_v61) := by
  refine ⟨?_, ?_⟩
  · rw [kernel_ln m ρ c, ref_ln Vr, hx, hconv, h5, h6, h7]
  · rw [kernel_new m ρ c, ref_new Vr, hx, hconv, h5]

end Cert.Bridge.Ln0

end
-- ==== Proof.Ln1.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Ln1

open Idealize.ShloMosaic Idealize.ShloMosaic.TcCoe Idealize.SL.Sem Idealize.ShloMosaic.StableHlo
open Idealize.ShloMosaic.ValueIdx
open Cert.KernelIdeal Cert.KernelIdeal.Gen

/-! ## The layer's arithmetic, index by index -/

/-- The row of the bias table this layer adds. -/
abbrev brow : Fin 4 := 1
/-- The row of the scale and shift tables this layer's normalisation uses. -/
abbrev lrow : Fin 3 := 1

/-- `x + (conv + bias)` at node `r`, lane `q`. -/
def newAt (x conv : Vec Ideal S100000x128 .f32) (b : Vec Ideal S4x128 .f32) (r : Fin 100000) (q : Fin 128) : EReal :=
  x (ix2 r q) + (conv (ix2 r q) + b (ix2 brow q))

/-- The whole array `x + (conv + bias)`. -/
def newG (x conv : Vec Ideal S100000x128 .f32) (b : Vec Ideal S4x128 .f32) : Vec Ideal S100000x128 .f32 :=
  fun i => newAt x conv b (i 0) (i 1)

/-- A row's mean: its sum over the 128 lanes divided by 128. -/
def mean (f : Fin 128 → EReal) : EReal := Ideal.div (∑ k : Fin 128, f k) (Ideal.ofBits .f32 0x43000000#32)

/-- The normalised row at lane `q`, scaled by `s` and shifted by `l`: the deviation from the mean times the
    reciprocal square root of the variance plus the literal epsilon. -/
def lnAt (f : Fin 128 → EReal) (s l : EReal) (q : Fin 128) : EReal :=
  ((f q - mean f) * Ideal.rsqrt (mean (fun k => (f k - mean f) * (f k - mean f)) + Ideal.ofBits .f32 0x3727C5AC#32)) * s + l

/-- The positive part, against the zero word as both programs write it. -/
def pos (a : EReal) : EReal := max a (Ideal.ofBits .f32 0x00000000#32)

/-- The whole array: the layer norm of the positive part of `new`, row by row. -/
def lnG (new : Vec Ideal S100000x128 .f32) (sc lb : Vec Ideal S3x128 .f32) : Vec Ideal S100000x128 .f32 :=
  fun i => lnAt (fun k => pos (new (ix2 (i 0) k))) (sc (ix2 lrow (i 1))) (lb (ix2 lrow (i 1))) (i 1)

/-! ## The kernel body's two results at an index of a block -/

theorem bcastRow_apply (v : FVec Ideal S1x128 .f32) (p : Fin 4000) (q : Fin 128) :
    broadcastTo S4000x128 v broadcasts_S1x128_S4000x128 (ix2 p q) = v (ix2 0 q) :=
  broadcastTo_apply v _ (ix2 p q) (ix2 0 q) (fun a => by match a with | ⟨0, _⟩ => rfl | ⟨1, _⟩ => rfl)

theorem bcastCol_apply (v : FVec Ideal S4000x1 .f32) (p : Fin 4000) (q : Fin 128) :
    broadcastTo S4000x128 v broadcasts_S4000x1_S4000x128 (ix2 p q) = v (ix2 p 0) :=
  broadcastTo_apply v _ (ix2 p q) (ix2 p 0) (fun a => by match a with | ⟨0, _⟩ => rfl | ⟨1, _⟩ => rfl)

theorem castCol_apply (v : FVec Ideal S4000 .f32) (p : Fin 4000) :
    shapeCast S4000x1 v shapeCasts_S4000_S4000x1 (ix2 p 0) = v (ix1 p) :=
  shapeCast_apply v _ (ix2 p 0) (ix1 p) (by
    rw [Shape.rowMajor_val_one, Shape.rowMajor_val_two]; show p.val = p.val * 1 + 0; omega)

theorem rowSum_apply (v : FVec Ideal S4000x128 .f32) (hφ : FTy.f32 = FTy.f32 ∨ FTy.f32 = FTy.bf16)
    (hacc : (0x00000000#32 : BitVec 32) = 0x00000000#32) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v ?_
  funext a; apply Fin.ext
  match a with
  | ⟨0, _⟩ => rfl
  | ⟨1, _⟩ => rfl

theorem pay1_apply (v0 v2 : Vec Ideal S4000x128 .f32) (v4 : Vec Ideal S1x128 .f32) (p : Fin 4000) (q : Fin 128) :
    k4_pay1 v0 v2 v4 (ix2 p q) = v0 (ix2 p q) + (v2 (ix2 p q) + v4 (ix2 0 q)) := by
  unfold k4_pay1
  simp only [shapeCast_self]
  rw [addf_apply, addf_apply, bcastRow_apply]

theorem rsqrt_apply {s : Shape} (a : FVec Ideal s .f32) (i : s.Idx) : rsqrt a i = Ideal.rsqrt (a i) := rfl

theorem pay2_apply (v0 v2 : Vec Ideal S4000x128 .f32) (v4 v30 v34 : Vec Ideal S1x128 .f32) (p : Fin 4000) (q : Fin 128) :
    k4_pay2 v0 v2 v4 v30 v34 (ix2 p q)
      = lnAt (fun k => pos (k4_pay1 v0 v2 v4 (ix2 p k))) (v30 (ix2 0 q)) (v34 (ix2 0 q)) q := by
  unfold k4_pay2
  simp only [shapeCast_self]
  simp only [addf_apply, mulf_apply, subf_apply, divf_apply, maximumf_apply, rsqrt_apply, broadcast_apply,
    bcastRow_apply, bcastCol_apply, castCol_apply]
  erw [rowSum_apply]
  try simp only [addf_apply, mulf_apply, subf_apply, divf_apply, maximumf_apply, rsqrt_apply, broadcast_apply,
    bcastRow_apply, bcastCol_apply, castCol_apply]
  try erw [rowSum_apply]
  try simp only [addf_apply, mulf_apply, subf_apply, divf_apply, maximumf_apply, rsqrt_apply, broadcast_apply,
    bcastRow_apply, bcastCol_apply, castCol_apply]
  try erw [rowSum_apply]
  rfl

/-! ## From the blocks to the arrays: region 4 at ANY entry contents `V` -/

section Region

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the four node windows sit at block row `t`, block column 0; the three
    parameter windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

theorem t_lt (t : Fin cfg4.N) : t.val < 25 := lt_of_lt_of_eq t.isLt N_4

/-- Row `p` of block `t` of `x` is row `4000 t + p` of the array. -/
theorem blk0_apply (t : Fin cfg4.N) (p : Fin 4000) (q : Fin 128) (r : Fin 100000) (hr : r.val = t.val * 4000 + p.val) :
    (iblk4 V c 0 t : Vec Ideal S4000x128 .f32) (ix2 p q) = V c main_v60_0 (ix2 r q) := by
  obtain ⟨e0, e1, -⟩ := idx_facts t
  show V c main_v60_0 (((cfg4.win 0).blk t).view.emb (ix2 p q)) = V c main_v60_0 (ix2 r q)
  refine congrArg _ (funext fun a => Fin.ext ?_)
  match a with
  | ⟨0, _⟩ => show win4_0.index t (0 : Fin 2) * 4000 + 1 * p.val = r.val; omega
  | ⟨1, _⟩ => show win4_0.index t (1 : Fin 2) * 128 + 1 * q.val = q.val; omega

/-- The same for `conv`. -/
theorem blk1_apply (t : Fin cfg4.N) (p : Fin 4000) (q : Fin 128) (r : Fin 100000) (hr : r.val = t.val * 4000 + p.val) :
    (iblk4 V c 1 t : Vec Ideal S4000x128 .f32) (ix2 p q) = V c main_v76 (ix2 r q) := by
  obtain ⟨-, -, e0, e1, -⟩ := idx_facts t
  show V c main_v76 (((cfg4.win 1).blk t).view.emb (ix2 p q)) = V c main_v76 (ix2 r q)
  refine congrArg _ (funext fun a => Fin.ext ?_)
  match a with
  | ⟨0, _⟩ => show win4_1.index t (0 : Fin 2) * 4000 + 1 * p.val = r.val; omega
  | ⟨1, _⟩ => show win4_1.index t (1 : Fin 2) * 128 + 1 * q.val = q.val; omega

/-- A parameter row's block is the row itself, at every point. -/
theorem blk2_apply (t : Fin cfg4.N) (q : Fin 128) :
    (iblk4 V c 2 t : Vec Ideal S1x128 .f32) (ix2 0 q) = V c main_v79 (ix2 0 q) := by
  obtain ⟨-, -, -, -, e0, e1, -⟩ := idx_facts t
  show V c main_v79 (((cfg4.win 2).blk t).view.emb (ix2 0 q)) = V c main_v79 (ix2 0 q)
  refine congrArg _ (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

theorem blk3_apply (t : Fin cfg4.N) (q : Fin 128) :
    (iblk4 V c 3 t : Vec Ideal S1x128 .f32) (ix2 0 q) = V c main_v82 (ix2 0 q) := by
  obtain ⟨-, -, -, -, -, -, e0, e1, -⟩ := idx_facts t
  show V c main_v82 (((cfg4.win 3).blk t).view.emb (ix2 0 q)) = V c main_v82 (ix2 0 q)
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

theorem blk4_apply (t : Fin cfg4.N) (q : Fin 128) :
    (iblk4 V c 4 t : Vec Ideal S1x128 .f32) (ix2 0 q) = V c main_v85 (ix2 0 q) := by
  obtain ⟨-, -, -, -, -, -, -, -, e0, e1, -⟩ := idx_facts t
  show V c main_v85 (((cfg4.win 4).blk t).view.emb (ix2 0 q)) = V c main_v85 (ix2 0 q)
  refine congrArg _ (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

variable (b5 : Vec Ideal S4x128 .f32) (b6 b7 : Vec Ideal S3x128 .f32)
  (hbias : ∀ q : Fin 128, V c main_v79 (ix2 0 q) = b5 (ix2 brow q))
  (hscale : ∀ q : Fin 128, V c main_v82 (ix2 0 q) = b6 (ix2 lrow q))
  (hshift : ∀ q : Fin 128, V c main_v85 (ix2 0 q) = b7 (ix2 lrow q))

include hbias in
/-- The body's first result on a block row is `x + (conv + bias)` on the array row. -/
theorem new_blk (t : Fin cfg4.N) (p : Fin 4000) (q : Fin 128) (r : Fin 100000) (hr : r.val = t.val * 4000 + p.val) :
    k4_pay1 (iblk4 V c 0 t) (iblk4 V c 1 t) (iblk4 V c 2 t) (ix2 p q) = newAt (V c main_v60_0) (V c main_v76) b5 r q := by
  refine (pay1_apply (iblk4 V c 0 t) (iblk4 V c 1 t) (iblk4 V c 2 t) p q).trans ?_
  rw [blk0_apply V c t p q r hr, blk1_apply V c t p q r hr, blk2_apply V c t q, hbias q]
  rfl

include hbias hscale hshift in
/-- The body's second result on a block row is the layer norm of the array row: a block holds whole rows, so the
    row's mean and variance are the array row's. -/
theorem ln_blk (t : Fin cfg4.N) (p : Fin 4000) (q : Fin 128) (r : Fin 100000) (hr : r.val = t.val * 4000 + p.val) :
    k4_pay2 (iblk4 V c 0 t) (iblk4 V c 1 t) (iblk4 V c 2 t) (iblk4 V c 3 t) (iblk4 V c 4 t) (ix2 p q)
      = lnAt (fun k => pos (newAt (V c main_v60_0) (V c main_v76) b5 r k)) (b6 (ix2 lrow q)) (b7 (ix2 lrow q)) q := by
  refine (pay2_apply (iblk4 V c 0 t) (iblk4 V c 1 t) (iblk4 V c 2 t) (iblk4 V c 3 t) (iblk4 V c 4 t) p q).trans ?_
  have e : (fun k => pos (k4_pay1 (iblk4 V c 0 t) (iblk4 V c 1 t) (iblk4 V c 2 t) (ix2 p k)))
      = fun k => pos (newAt (V c main_v60_0) (V c main_v76) b5 r k) :=
    funext fun k => congrArg pos (new_blk V c b5 hbias t p k r hr)
  have e3 : (iblk4 V c 3 t : Vec Ideal S1x128 .f32) (ix2 0 q) = b6 (ix2 lrow q) := (blk3_apply V c t q).trans (hscale q)
  have e4 : (iblk4 V c 4 t : Vec Ideal S1x128 .f32) (ix2 0 q) = b7 (ix2 lrow q) := (blk4_apply V c t q).trans (hshift q)
  rw [e, e3, e4]

/-- Block `t`'s place in the array: row `p` of the block is row `4000 t + p`. -/
theorem emb5 (t : Fin cfg4.N) (p : Fin 4000) (q : Fin 128) (r : Fin 100000) (hr : r.val = t.val * 4000 + p.val) :
    ((cfg4.win 5).blk t).view.emb (ix2 p q) = ix2 r q := by
  obtain ⟨-, -, -, -, -, -, -, -, -, -, e0, e1, -⟩ := idx_facts t
  refine funext fun a => Fin.ext ?_
  match a with
  | ⟨0, _⟩ => show win4_5.index t (0 : Fin 2) * 4000 + 1 * p.val = r.val; omega
  | ⟨1, _⟩ => show win4_5.index t (1 : Fin 2) * 128 + 1 * q.val = q.val; omega

theorem emb6 (t : Fin cfg4.N) (p : Fin 4000) (q : Fin 128) (r : Fin 100000) (hr : r.val = t.val * 4000 + p.val) :
    ((cfg4.win 6).blk t).view.emb (ix2 p q) = ix2 r q := by
  obtain ⟨-, -, -, -, -, -, -, -, -, -, -, -, e0, e1⟩ := idx_facts t
  refine funext fun a => Fin.ext ?_
  match a with
  | ⟨0, _⟩ => show win4_6.index t (0 : Fin 2) * 4000 + 1 * p.val = r.val; omega
  | ⟨1, _⟩ => show win4_6.index t (1 : Fin 2) * 128 + 1 * q.val = q.val; omega

include hbias in
/-- What point `t` writes back to the second output is block `t` of `x + (conv + bias)`. -/
theorem flushed6_eq (t : Fin cfg4.N) :
    (dat4 V c).flushed 6 t = ((cfg4.win 6).blk t).view.read (Elt Ideal) (newG (V c main_v60_0) (V c main_v76) b5) := by
  show (cfg4.win 6).cut (grid4.coords t) ((dat4 V c).after 6 t) = _
  rw [after4_6]
  unfold out4_6
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (new_blk V c b5 hbias t p q _ hr).trans ?_
  show _ = newG (V c main_v60_0) (V c main_v76) b5 (((cfg4.win 6).blk t).view.emb (ix2 p q))
  rw [emb6 t p q _ hr]
  rfl

include hbias hscale hshift in
/-- What point `t` writes back to the first output is block `t` of the layer norm. -/
theorem flushed5_eq (t : Fin cfg4.N) :
    (dat4 V c).flushed 5 t
      = ((cfg4.win 5).blk t).view.read (Elt Ideal) (lnG (newG (V c main_v60_0) (V c main_v76) b5) b6 b7) := by
  show (cfg4.win 5).cut (grid4.coords t) ((dat4 V c).after 5 t) = _
  rw [after4_5]
  unfold out4_5
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (ln_blk V c b5 b6 b7 hbias hscale hshift t p q _ hr).trans ?_
  show _ = lnG (newG (V c main_v60_0) (V c main_v76) b5) b6 b7 (((cfg4.win 5).blk t).view.emb (ix2 p q))
  rw [emb5 t p q _ hr]
  rfl

/-- An index of the array is in point `t`'s block iff each coordinate is in the block's range on its axis. -/
theorem mem_blk5 (t : Fin cfg4.N) (i : S100000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v86_0).slice (win4_5.rect t)).set ↔ _
  rw [View.set_slice_whole, Rect.mem_set_unit]
  exact Iff.rfl

theorem mem_blk6 (t : Fin cfg4.N) (i : S100000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v86_1).slice (win4_6.rect t)).set ↔ _
  rw [View.set_slice_whole, Rect.mem_set_unit]
  exact Iff.rfl

/-- Row `r` of the array lies in the block of point `r / 4000`. -/
theorem cover5 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : (i 0).val / 4000 < cfg4.N := by show _ < grid4.N; rw [N_4]; omega
  obtain ⟨-, -, -, -, -, -, -, -, -, -, e0, e1, -⟩ := idx_facts ⟨(i 0).val / 4000, hN⟩
  have e0' : win4_5.index ⟨(i 0).val / 4000, hN⟩ (0 : Fin 2) = (i 0).val / 4000 := e0
  refine ⟨⟨(i 0).val / 4000, hN⟩, flush4_5 _, ?_⟩
  rw [mem_blk5]
  intro a
  match a with
  | ⟨0, _⟩ => show win4_5.index ⟨(i 0).val / 4000, hN⟩ (0 : Fin 2) * 4000 ≤ (i 0).val ∧ (i 0).val < win4_5.index ⟨(i 0).val / 4000, hN⟩ (0 : Fin 2) * 4000 + 4000; omega
  | ⟨1, _⟩ => show win4_5.index ⟨(i 0).val / 4000, hN⟩ (1 : Fin 2) * 128 ≤ (i 1).val ∧ (i 1).val < win4_5.index ⟨(i 0).val / 4000, hN⟩ (1 : Fin 2) * 128 + 128; omega

theorem cover6 (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : (i 0).val / 4000 < cfg4.N := by show _ < grid4.N; rw [N_4]; omega
  obtain ⟨-, -, -, -, -, -, -, -, -, -, -, -, e0, e1⟩ := idx_facts ⟨(i 0).val / 4000, hN⟩
  have e0' : win4_6.index ⟨(i 0).val / 4000, hN⟩ (0 : Fin 2) = (i 0).val / 4000 := e0
  refine ⟨⟨(i 0).val / 4000, hN⟩, flush4_6 _, ?_⟩
  rw [mem_blk6]
  intro a
  match a with
  | ⟨0, _⟩ => show win4_6.index ⟨(i 0).val / 4000, hN⟩ (0 : Fin 2) * 4000 ≤ (i 0).val ∧ (i 0).val < win4_6.index ⟨(i 0).val / 4000, hN⟩ (0 : Fin 2) * 4000 + 4000; omega
  | ⟨1, _⟩ => show win4_6.index ⟨(i 0).val / 4000, hN⟩ (1 : Fin 2) * 128 ≤ (i 1).val ∧ (i 1).val < win4_6.index ⟨(i 0).val / 4000, hN⟩ (1 : Fin 2) * 128 + 128; omega

include hbias in
/-- The second output array after the region, whole. -/
theorem final6 : (dat4 V c).arrAt 6 cfg4.N = newG (V c main_v60_0) (V c main_v76) b5 :=
  (dat4 V c).arrAt_eq_of_cover 6 (newG (V c main_v60_0) (V c main_v76) b5) (fun t _ => flushed6_eq V c b5 hbias t) cover6

include hbias hscale hshift in
/-- The first output array after the region, whole. -/
theorem final5 : (dat4 V c).arrAt 5 cfg4.N = lnG (newG (V c main_v60_0) (V c main_v76) b5) b6 b7 :=
  (dat4 V c).arrAt_eq_of_cover 5 (lnG (newG (V c main_v60_0) (V c main_v76) b5) b6 b7)
    (fun t _ => flushed5_eq V c b5 b6 b7 hbias hscale hshift t) cover5

end Region

/-! ## The parameter rows the host stretch lays out, and the region's exit -/

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The bias row as the region finds it is the table's row: a slice, flattened and laid out again as one row. -/
theorem biasRow (q : Fin 128) :
    W11 m ρ c (Proc.devRef .tc main_v79) (ix2 0 q) = W10 m ρ c (Proc.devRef .tc main_arg5) (ix2 brow q) := by
  have e : (W11 m ρ c (Proc.devRef .tc main_v79) : Vec Ideal S1x128 .f32)
      = shapeCast S1x128 (shapeCast S128 (extractStridedSlice S1x128 ![1, 0]
          (W10 m ρ c (Proc.devRef .tc main_arg5) : Vec Ideal S4x128 .f32) slices_S4x128_S1x128_1_0) shapeCasts_S1x128_S128)
          shapeCasts_S128_S1x128 := by
    show StableHlo.after hostOps4 (W10 m ρ c) (Proc.devRef .tc main_v79) = _
    after_results; rfl
  refine (congrFun e (ix2 0 q)).trans ?_
  rw [shapeCast_shapeCast]
  exact extractStridedSlice_apply _ _ _ (ix2 0 q) (ix2 brow q) (fun a => by
    match a with
    | ⟨0, _⟩ => rfl
    | ⟨1, _⟩ => exact (Nat.zero_add _).symm)

/-- The scale row likewise. -/
theorem scaleRow (q : Fin 128) :
    W11 m ρ c (Proc.devRef .tc main_v82) (ix2 0 q) = W10 m ρ c (Proc.devRef .tc main_arg6) (ix2 lrow q) := by
  have e : (W11 m ρ c (Proc.devRef .tc main_v82) : Vec Ideal S1x128 .f32)
      = shapeCast S1x128 (shapeCast S128 (extractStridedSlice S1x128 ![1, 0]
          (W10 m ρ c (Proc.devRef .tc main_arg6) : Vec Ideal S3x128 .f32) slices_S3x128_S1x128_1_0) shapeCasts_S1x128_S128)
          shapeCasts_S128_S1x128 := by
    show StableHlo.after hostOps4 (W10 m ρ c) (Proc.devRef .tc main_v82) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The shift row likewise. -/
theorem shiftRow (q : Fin 128) :
    W11 m ρ c (Proc.devRef .tc main_v85) (ix2 0 q) = W10 m ρ c (Proc.devRef .tc main_arg7) (ix2 lrow q) := by
  have e : (W11 m ρ c (Proc.devRef .tc main_v85) : Vec Ideal S1x128 .f32)
      = shapeCast S1x128 (shapeCast S128 (extractStridedSlice S1x128 ![1, 0]
          (W10 m ρ c (Proc.devRef .tc main_arg7) : Vec Ideal S3x128 .f32) slices_S3x128_S1x128_1_0) shapeCasts_S1x128_S128)
          shapeCasts_S128_S1x128 := by
    show StableHlo.after hostOps4 (W10 m ρ c) (Proc.devRef .tc main_v85) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The kernel's second output after the region: `x + (conv + bias)` of the region's entry arrays. -/
theorem kernel_new :
    W12 m ρ c (Proc.devRef .tc main_v86_1)
      = newG (W11 m ρ c (Proc.devRef .tc main_v60_0)) (W11 m ρ c (Proc.devRef .tc main_v76))
          (W10 m ρ c (Proc.devRef .tc main_arg5)) :=
  (W12_arr m ρ c 6).trans (final6 (V11 m ρ) c (W10 m ρ c (Proc.devRef .tc main_arg5)) (biasRow m ρ c))

/-- The kernel's first output after the region: the layer norm of that. -/
theorem kernel_ln :
    W12 m ρ c (Proc.devRef .tc main_v86_0)
      = lnG (newG (W11 m ρ c (Proc.devRef .tc main_v60_0)) (W11 m ρ c (Proc.devRef .tc main_v76))
            (W10 m ρ c (Proc.devRef .tc main_arg5)))
          (W10 m ρ c (Proc.devRef .tc main_arg6)) (W10 m ρ c (Proc.devRef .tc main_arg7)) :=
  (W12_arr m ρ c 5).trans (final5 (V11 m ρ) c (W10 m ρ c (Proc.devRef .tc main_arg5))
    (W10 m ρ c (Proc.devRef .tc main_arg6)) (W10 m ρ c (Proc.devRef .tc main_arg7)) (biasRow m ρ c) (scaleRow m ρ c) (shiftRow m ρ c))

/-! ## The reference's host operations of this layer, read at an index -/

section RefTerms
variable {F : FTy → Type} [FloatOps F]

/-- The reference's parameter row spread over the array: a slice of the table, flattened, laid out as one row and
    repeated down the nodes. -/
def rRow4 (b : FVec F Cert.ReferenceIdeal.S4x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![1, 0] b Cert.ReferenceIdeal.Gen.slices_S4x128_S1x128_1_0) Cert.ReferenceIdeal.Gen.shapeCasts_S1x128_S128))

def rRow3 (b : FVec F Cert.ReferenceIdeal.S3x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![1, 0] b Cert.ReferenceIdeal.Gen.slices_S3x128_S1x128_1_0) Cert.ReferenceIdeal.Gen.shapeCasts_S1x128_S128))

theorem rRow4_apply (b : FVec Ideal Cert.ReferenceIdeal.S4x128 .f32) (r : Fin 100000) (q : Fin 128) : rRow4 b (ix2 r q) = b (ix2 brow q) := by
  unfold rRow4
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 brow q) (fun a => by
    match a with
    | ⟨0, _⟩ => rfl
    | ⟨1, _⟩ => exact (Nat.zero_add _).symm)

theorem rRow3_apply (b : FVec Ideal Cert.ReferenceIdeal.S3x128 .f32) (r : Fin 100000) (q : Fin 128) : rRow3 b (ix2 r q) = b (ix2 lrow q) := by
  unfold rRow3
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 lrow q) (fun a => by
    match a with
    | ⟨0, _⟩ => rfl
    | ⟨1, _⟩ => exact (Nat.zero_add _).symm)

/-- A word spread over the whole array. -/
def rFull (w : BitVec 32) : FVec F Cert.ReferenceIdeal.S100000x128 .f32 :=
  broadcastInDim Cert.ReferenceIdeal.S100000x128 ![] Cert.ReferenceIdeal.Gen.bcast_S_S100000x128 (constant (F := F) Cert.ReferenceIdeal.S_ .f32 w)

/-- A word spread over a column. -/
def rColW (w : BitVec 32) : FVec F Cert.ReferenceIdeal.S100000x1 .f32 :=
  broadcastInDim Cert.ReferenceIdeal.S100000x1 ![] Cert.ReferenceIdeal.Gen.bcast_S_S100000x1 (constant (F := F) Cert.ReferenceIdeal.S_ .f32 w)

theorem rFull_apply (w : BitVec 32) (i : Cert.ReferenceIdeal.S100000x128.Idx) : rFull (F := Ideal) w i = Ideal.ofBits .f32 w := rfl
theorem rColW_apply (w : BitVec 32) (i : Cert.ReferenceIdeal.S100000x1.Idx) : rColW (F := Ideal) w i = Ideal.ofBits .f32 w := rfl

/-- A row's sum as a column: the host's reduce over the lanes from a zero word, kept as a one-wide axis. -/
def rSumCol (v : FVec F Cert.ReferenceIdeal.S100000x128 .f32) : FVec F Cert.ReferenceIdeal.S100000x1 .f32 :=
  broadcastInDim Cert.ReferenceIdeal.S100000x1 ![0] Cert.ReferenceIdeal.Gen.bcast_S100000_S100000x1_0
    (Host.reduceAdd v (constant (F := F) Cert.ReferenceIdeal.S_ .f32 0x00000000#32) Cert.ReferenceIdeal.Gen.reducesTo_S100000x128_S100000_d1 Cert.ReferenceIdeal.Gen.h_S_)

theorem rSumCol_apply (v : FVec Ideal Cert.ReferenceIdeal.S100000x128 .f32) (r : Fin 100000) :
    rSumCol v (ix2 r 0) = ∑ k : Fin 128, v (ix2 r k) := by
  unfold rSumCol
  refine (broadcastInDim_apply _ _ _ (ix2 r 0) (ix1 r) (fun a => by match a with | ⟨0, _⟩ => rfl)).trans ?_
  have h : Cert.ReferenceIdeal.S100000x128.Reduces [1] Cert.ReferenceIdeal.S100000 := by decide
  show Ideal.hostReduceAdd Cert.ReferenceIdeal.Gen.reducesTo_S100000x128_S100000_d1 v (Ideal.ofBits .f32 0x00000000#32) (ix1 r) = _
  rw [Ideal.hostReduceAdd_single Cert.ReferenceIdeal.Gen.reducesTo_S100000x128_S100000_d1 h, Ideal.ofBits_zero_f32, zero_add]
  refine Finset.sum_congr rfl fun k _ => congrArg v ?_
  funext a; apply Fin.ext
  match a with
  | ⟨0, _⟩ => rfl
  | ⟨1, _⟩ => rfl

/-- A column spread along the lanes. -/
def rSpread (v : FVec F Cert.ReferenceIdeal.S100000x1 .f32) : FVec F Cert.ReferenceIdeal.S100000x128 .f32 :=
  broadcastInDim Cert.ReferenceIdeal.S100000x128 ![0, 1] Cert.ReferenceIdeal.Gen.bcast_S100000x1_S100000x128_0_1 v

theorem rSpread_apply (v : FVec Ideal Cert.ReferenceIdeal.S100000x1 .f32) (r : Fin 100000) (q : Fin 128) : rSpread v (ix2 r q) = v (ix2 r 0) := by
  unfold rSpread
  exact broadcastInDim_apply _ _ _ (ix2 r q) (ix2 r 0) (fun a => by match a with | ⟨0, _⟩ => rfl | ⟨1, _⟩ => rfl)

theorem hostDivf_apply' {s : Shape} (a b : FVec Ideal s .f32) (i : s.Idx) : Host.divf a b i = Ideal.div (a i) (b i) := rfl
theorem hostRsqrt_apply' {s : Shape} (a : FVec Ideal s .f32) (i : s.Idx) : Host.rsqrt a i = Ideal.rsqrt (a i) := rfl

/-- The reference's `x + (conv + bias)`. -/
def refNew (x cv : FVec F Cert.ReferenceIdeal.S100000x128 .f32) (b5 : FVec F Cert.ReferenceIdeal.S4x128 .f32) : FVec F Cert.ReferenceIdeal.S100000x128 .f32 :=
  addf x (addf cv (rRow4 b5))

/-- The positive part of `n`, as the reference takes it. -/
def rPos (n : FVec F Cert.ReferenceIdeal.S100000x128 .f32) : FVec F Cert.ReferenceIdeal.S100000x128 .f32 := maximumf n (rFull 0x00000000#32)

/-- Its rows' means, as a column. -/
def rMu (n : FVec F Cert.ReferenceIdeal.S100000x128 .f32) : FVec F Cert.ReferenceIdeal.S100000x1 .f32 := Host.divf (rSumCol (rPos n)) (rColW 0x43000000#32)

/-- The reference's layer norm of the positive part of `n`, its operations in order. -/
def refLn (n : FVec F Cert.ReferenceIdeal.S100000x128 .f32) (b6 b7 : FVec F Cert.ReferenceIdeal.S3x128 .f32) : FVec F Cert.ReferenceIdeal.S100000x128 .f32 :=
  addf (mulf (mulf (subf (rPos n) (rSpread (rMu n)))
      (rSpread (Host.rsqrt (addf
        (Host.divf (rSumCol (mulf (subf (rPos n) (rSpread (rMu n))) (subf (rPos n) (rSpread (rMu n))))) (rColW 0x43000000#32))
        (rColW 0x3727C5AC#32))))) (rRow3 b6)) (rRow3 b7)

/-- The stretch's two results are these terms of the entry arrays (the operations' results composed). -/
theorem ref_new_term (V : Valuation Cert.ReferenceIdeal.τ Cert.ReferenceIdeal.sig (Elt F)) :
    StableHlo.after Cert.ReferenceIdeal.RunP.rc7 V (Proc.devRef .tc Cert.ReferenceIdeal.main_v112)
      = refNew (V (Proc.devRef .tc Cert.ReferenceIdeal.main_v90)) (V (Proc.devRef .tc Cert.ReferenceIdeal.main_v106)) (V (Proc.devRef .tc Cert.ReferenceIdeal.main_arg5)) := by
  after_results; rfl

set_option maxHeartbeats 2000000 in
theorem ref_ln_term (V : Valuation Cert.ReferenceIdeal.τ Cert.ReferenceIdeal.sig (Elt F)) :
    StableHlo.after Cert.ReferenceIdeal.RunP.rc7 V (Proc.devRef .tc Cert.ReferenceIdeal.main_v141)
      = refLn (refNew (V (Proc.devRef .tc Cert.ReferenceIdeal.main_v90)) (V (Proc.devRef .tc Cert.ReferenceIdeal.main_v106)) (V (Proc.devRef .tc Cert.ReferenceIdeal.main_arg5)))
          (V (Proc.devRef .tc Cert.ReferenceIdeal.main_arg6)) (V (Proc.devRef .tc Cert.ReferenceIdeal.main_arg7)) := by
  after_results_simp; rfl

end RefTerms

theorem refNew_apply (x cv : FVec Ideal Cert.ReferenceIdeal.S100000x128 .f32) (b5 : FVec Ideal Cert.ReferenceIdeal.S4x128 .f32) (r : Fin 100000) (q : Fin 128) :
    refNew x cv b5 (ix2 r q) = newAt x cv b5 r q := by
  unfold refNew
  rw [addf_apply, addf_apply, rRow4_apply]
  rfl

theorem refLn_apply (n : FVec Ideal Cert.ReferenceIdeal.S100000x128 .f32) (b6 b7 : FVec Ideal Cert.ReferenceIdeal.S3x128 .f32) (r : Fin 100000) (q : Fin 128) :
    refLn n b6 b7 (ix2 r q) = lnAt (fun k => pos (n (ix2 r k))) (b6 (ix2 lrow q)) (b7 (ix2 lrow q)) q := by
  unfold refLn rMu rPos
  simp only [addf_apply, mulf_apply, subf_apply, maximumf_apply, hostDivf_apply', hostRsqrt_apply', rFull_apply, rColW_apply,
    rRow3_apply, rSpread_apply, rSumCol_apply]
  rfl

theorem ref_new (Vr : RVal) :
    StableHlo.after Cert.ReferenceIdeal.RunP.rc7 Vr (Proc.devRef .tc Cert.ReferenceIdeal.main_v112)
      = newG (Vr (Proc.devRef .tc Cert.ReferenceIdeal.main_v90)) (Vr (Proc.devRef .tc Cert.ReferenceIdeal.main_v106))
          (Vr (Proc.devRef .tc Cert.ReferenceIdeal.main_arg5)) := by
  rw [ref_new_term Vr]
  funext i
  obtain ⟨r, q, rfl⟩ : ∃ (r : Fin 100000) (q : Fin 128), i = ix2 r q := ⟨i 0, i 1, eq_ix2 i⟩
  exact refNew_apply _ _ _ r q

theorem ref_ln (Vr : RVal) :
    StableHlo.after Cert.ReferenceIdeal.RunP.rc7 Vr (Proc.devRef .tc Cert.ReferenceIdeal.main_v141)
      = lnG (newG (Vr (Proc.devRef .tc Cert.ReferenceIdeal.main_v90)) (Vr (Proc.devRef .tc Cert.ReferenceIdeal.main_v106))
            (Vr (Proc.devRef .tc Cert.ReferenceIdeal.main_arg5)))
          (Vr (Proc.devRef .tc Cert.ReferenceIdeal.main_arg6)) (Vr (Proc.devRef .tc Cert.ReferenceIdeal.main_arg7)) := by
  rw [ref_ln_term Vr]
  funext i
  obtain ⟨r, q, rfl⟩ : ∃ (r : Fin 100000) (q : Fin 128), i = ix2 r q := ⟨i 0, i 1, eq_ix2 i⟩
  refine (refLn_apply _ _ _ r q).trans ?_
  have en : (fun k => pos (refNew (F := Ideal) (Vr (Proc.devRef .tc Cert.ReferenceIdeal.main_v90)) (Vr (Proc.devRef .tc Cert.ReferenceIdeal.main_v106)) (Vr (Proc.devRef .tc Cert.ReferenceIdeal.main_arg5)) (ix2 r k)))
      = fun k => pos (newAt (Vr (Proc.devRef .tc Cert.ReferenceIdeal.main_v90)) (Vr (Proc.devRef .tc Cert.ReferenceIdeal.main_v106)) (Vr (Proc.devRef .tc Cert.ReferenceIdeal.main_arg5)) r k) :=
    funext fun k => by rw [refNew_apply]
  rw [en]
  rfl

/-- Layer 1's combination: the kernel's fifth region leaves `x + (conv + bias)` in its second output and the
    layer norm of its positive part, scaled and shifted, in its first; the reference computes both by host operations. -/
theorem step (Vr : RVal)
    (hx : W11 m ρ c (Proc.devRef .tc main_v60_0) = Vr (Proc.devRef .tc Cert.ReferenceIdeal.main_v90))
    (hconv : W11 m ρ c (Proc.devRef .tc main_v76) = Vr (Proc.devRef .tc Cert.ReferenceIdeal.main_v106))
    (h5 : W10 m ρ c (Proc.devRef .tc main_arg5) = Vr (Proc.devRef .tc Cert.ReferenceIdeal.main_arg5))
    (h6 : W10 m ρ c (Proc.devRef .tc main_arg6) = Vr (Proc.devRef .tc Cert.ReferenceIdeal.main_arg6))
    (h7 : W10 m ρ c (Proc.devRef .tc main_arg7) = Vr (Proc.devRef .tc Cert.ReferenceIdeal.main_arg7)) :
    W12 m ρ c (Proc.devRef .tc main_v86_0) = StableHlo.after Cert.ReferenceIdeal.RunP.rc7 Vr (Proc.devRef .tc Cert.ReferenceIdeal.main_v141)
    ∧ W12 m ρ c (Proc.devRef .tc main_v86_1) = StableHlo.after Cert.ReferenceIdeal.RunP.rc7 Vr (Proc.devRef .tc Cert.ReferenceIdeal.main_v112) := by
  refine ⟨?_, ?_⟩
  · rw [kernel_ln m ρ c, ref_ln Vr, hx, hconv, h5, h6, h7]
  · rw [kernel_new m ρ c, ref_new Vr, hx, hconv, h5]

end Cert.Bridge.Ln1

end
-- ==== Proof.Ln2.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Ln2

open Idealize.ShloMosaic Idealize.ShloMosaic.TcCoe Idealize.SL.Sem Idealize.ShloMosaic.StableHlo
open Idealize.ShloMosaic.ValueIdx
open Cert.KernelIdeal Cert.KernelIdeal.Gen

/-! ## The layer's arithmetic, index by index -/

/-- The row of the bias table this layer adds. -/
abbrev brow : Fin 4 := 2
/-- The row of the scale and shift tables this layer's normalisation uses. -/
abbrev lrow : Fin 3 := 2

/-- `x + (conv + bias)` at node `r`, lane `q`. -/
def newAt (x conv : Vec Ideal S100000x128 .f32) (b : Vec Ideal S4x128 .f32) (r : Fin 100000) (q : Fin 128) : EReal :=
  x (ix2 r q) + (conv (ix2 r q) + b (ix2 brow q))

/-- The whole array `x + (conv + bias)`. -/
def newG (x conv : Vec Ideal S100000x128 .f32) (b : Vec Ideal S4x128 .f32) : Vec Ideal S100000x128 .f32 :=
  fun i => newAt x conv b (i 0) (i 1)

/-- A row's mean: its sum over the 128 lanes divided by 128. -/
def mean (f : Fin 128 → EReal) : EReal := Ideal.div (∑ k : Fin 128, f k) (Ideal.ofBits .f32 0x43000000#32)

/-- The normalised row at lane `q`, scaled by `s` and shifted by `l`: the deviation from the mean times the
    reciprocal square root of the variance plus the literal epsilon. -/
def lnAt (f : Fin 128 → EReal) (s l : EReal) (q : Fin 128) : EReal :=
  ((f q - mean f) * Ideal.rsqrt (mean (fun k => (f k - mean f) * (f k - mean f)) + Ideal.ofBits .f32 0x3727C5AC#32)) * s + l

/-- The positive part, against the zero word as both programs write it. -/
def pos (a : EReal) : EReal := max a (Ideal.ofBits .f32 0x00000000#32)

/-- The whole array: the layer norm of the positive part of `new`, row by row. -/
def lnG (new : Vec Ideal S100000x128 .f32) (sc lb : Vec Ideal S3x128 .f32) : Vec Ideal S100000x128 .f32 :=
  fun i => lnAt (fun k => pos (new (ix2 (i 0) k))) (sc (ix2 lrow (i 1))) (lb (ix2 lrow (i 1))) (i 1)

/-! ## The kernel body's two results at an index of a block -/

theorem bcastRow_apply (v : FVec Ideal S1x128 .f32) (p : Fin 4000) (q : Fin 128) :
    broadcastTo S4000x128 v broadcasts_S1x128_S4000x128 (ix2 p q) = v (ix2 0 q) :=
  broadcastTo_apply v _ (ix2 p q) (ix2 0 q) (fun a => by match a with | ⟨0, _⟩ => rfl | ⟨1, _⟩ => rfl)

theorem bcastCol_apply (v : FVec Ideal S4000x1 .f32) (p : Fin 4000) (q : Fin 128) :
    broadcastTo S4000x128 v broadcasts_S4000x1_S4000x128 (ix2 p q) = v (ix2 p 0) :=
  broadcastTo_apply v _ (ix2 p q) (ix2 p 0) (fun a => by match a with | ⟨0, _⟩ => rfl | ⟨1, _⟩ => rfl)

theorem castCol_apply (v : FVec Ideal S4000 .f32) (p : Fin 4000) :
    shapeCast S4000x1 v shapeCasts_S4000_S4000x1 (ix2 p 0) = v (ix1 p) :=
  shapeCast_apply v _ (ix2 p 0) (ix1 p) (by
    rw [Shape.rowMajor_val_one, Shape.rowMajor_val_two]; show p.val = p.val * 1 + 0; omega)

theorem rowSum_apply (v : FVec Ideal S4000x128 .f32) (hφ : FTy.f32 = FTy.f32 ∨ FTy.f32 = FTy.bf16)
    (hacc : (0x00000000#32 : BitVec 32) = 0x00000000#32) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v ?_
  funext a; apply Fin.ext
  match a with
  | ⟨0, _⟩ => rfl
  | ⟨1, _⟩ => rfl

theorem pay1_apply (v0 v2 : Vec Ideal S4000x128 .f32) (v4 : Vec Ideal S1x128 .f32) (p : Fin 4000) (q : Fin 128) :
    k6_pay1 v0 v2 v4 (ix2 p q) = v0 (ix2 p q) + (v2 (ix2 p q) + v4 (ix2 0 q)) := by
  unfold k6_pay1
  simp only [shapeCast_self]
  rw [addf_apply, addf_apply, bcastRow_apply]

theorem rsqrt_apply {s : Shape} (a : FVec Ideal s .f32) (i : s.Idx) : rsqrt a i = Ideal.rsqrt (a i) := rfl

theorem pay2_apply (v0 v2 : Vec Ideal S4000x128 .f32) (v4 v30 v34 : Vec Ideal S1x128 .f32) (p : Fin 4000) (q : Fin 128) :
    k6_pay2 v0 v2 v4 v30 v34 (ix2 p q)
      = lnAt (fun k => pos (k6_pay1 v0 v2 v4 (ix2 p k))) (v30 (ix2 0 q)) (v34 (ix2 0 q)) q := by
  unfold k6_pay2
  simp only [shapeCast_self]
  simp only [addf_apply, mulf_apply, subf_apply, divf_apply, maximumf_apply, rsqrt_apply, broadcast_apply,
    bcastRow_apply, bcastCol_apply, castCol_apply]
  erw [rowSum_apply]
  try simp only [addf_apply, mulf_apply, subf_apply, divf_apply, maximumf_apply, rsqrt_apply, broadcast_apply,
    bcastRow_apply, bcastCol_apply, castCol_apply]
  try erw [rowSum_apply]
  try simp only [addf_apply, mulf_apply, subf_apply, divf_apply, maximumf_apply, rsqrt_apply, broadcast_apply,
    bcastRow_apply, bcastCol_apply, castCol_apply]
  try erw [rowSum_apply]
  rfl

/-! ## From the blocks to the arrays: region 6 at ANY entry contents `V` -/

section Region

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the four node windows sit at block row `t`, block column 0; the three
    parameter windows at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

theorem t_lt (t : Fin cfg6.N) : t.val < 25 := lt_of_lt_of_eq t.isLt N_6

/-- Row `p` of block `t` of `x` is row `4000 t + p` of the array. -/
theorem blk0_apply (t : Fin cfg6.N) (p : Fin 4000) (q : Fin 128) (r : Fin 100000) (hr : r.val = t.val * 4000 + p.val) :
    (iblk6 V c 0 t : Vec Ideal S4000x128 .f32) (ix2 p q) = V c main_v86_0 (ix2 r q) := by
  obtain ⟨e0, e1, -⟩ := idx_facts t
  show V c main_v86_0 (((cfg6.win 0).blk t).view.emb (ix2 p q)) = V c main_v86_0 (ix2 r q)
  refine congrArg _ (funext fun a => Fin.ext ?_)
  match a with
  | ⟨0, _⟩ => show win6_0.index t (0 : Fin 2) * 4000 + 1 * p.val = r.val; omega
  | ⟨1, _⟩ => show win6_0.index t (1 : Fin 2) * 128 + 1 * q.val = q.val; omega

/-- The same for `conv`. -/
theorem blk1_apply (t : Fin cfg6.N) (p : Fin 4000) (q : Fin 128) (r : Fin 100000) (hr : r.val = t.val * 4000 + p.val) :
    (iblk6 V c 1 t : Vec Ideal S4000x128 .f32) (ix2 p q) = V c main_v102 (ix2 r q) := by
  obtain ⟨-, -, e0, e1, -⟩ := idx_facts t
  show V c main_v102 (((cfg6.win 1).blk t).view.emb (ix2 p q)) = V c main_v102 (ix2 r q)
  refine congrArg _ (funext fun a => Fin.ext ?_)
  match a with
  | ⟨0, _⟩ => show win6_1.index t (0 : Fin 2) * 4000 + 1 * p.val = r.val; omega
  | ⟨1, _⟩ => show win6_1.index t (1 : Fin 2) * 128 + 1 * q.val = q.val; omega

/-- A parameter row's block is the row itself, at every point. -/
theorem blk2_apply (t : Fin cfg6.N) (q : Fin 128) :
    (iblk6 V c 2 t : Vec Ideal S1x128 .f32) (ix2 0 q) = V c main_v105 (ix2 0 q) := by
  obtain ⟨-, -, -, -, e0, e1, -⟩ := idx_facts t
  show V c main_v105 (((cfg6.win 2).blk t).view.emb (ix2 0 q)) = V c main_v105 (ix2 0 q)
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * q.val = q.val; omega

theorem blk3_apply (t : Fin cfg6.N) (q : Fin 128) :
    (iblk6 V c 3 t : Vec Ideal S1x128 .f32) (ix2 0 q) = V c main_v108 (ix2 0 q) := by
  obtain ⟨-, -, -, -, -, -, e0, e1, -⟩ := idx_facts t
  show V c main_v108 (((cfg6.win 3).blk t).view.emb (ix2 0 q)) = V c main_v108 (ix2 0 q)
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * q.val = q.val; omega

theorem blk4_apply (t : Fin cfg6.N) (q : Fin 128) :
    (iblk6 V c 4 t : Vec Ideal S1x128 .f32) (ix2 0 q) = V c main_v111 (ix2 0 q) := by
  obtain ⟨-, -, -, -, -, -, -, -, e0, e1, -⟩ := idx_facts t
  show V c main_v111 (((cfg6.win 4).blk t).view.emb (ix2 0 q)) = V c main_v111 (ix2 0 q)
  refine congrArg _ (funext fun a => Fin.ext ?_)
  match a with
  | ⟨0, _⟩ => show win6_4.index t (0 : Fin 2) * 1 + 1 * 0 = 0; omega
  | ⟨1, _⟩ => show win6_4.index t (1 : Fin 2) * 128 + 1 * q.val = q.val; omega

variable (b5 : Vec Ideal S4x128 .f32) (b6 b7 : Vec Ideal S3x128 .f32)
  (hbias : ∀ q : Fin 128, V c main_v105 (ix2 0 q) = b5 (ix2 brow q))
  (hscale : ∀ q : Fin 128, V c main_v108 (ix2 0 q) = b6 (ix2 lrow q))
  (hshift : ∀ q : Fin 128, V c main_v111 (ix2 0 q) = b7 (ix2 lrow q))

include hbias in
/-- The body's first result on a block row is `x + (conv + bias)` on the array row. -/
theorem new_blk (t : Fin cfg6.N) (p : Fin 4000) (q : Fin 128) (r : Fin 100000) (hr : r.val = t.val * 4000 + p.val) :
    k6_pay1 (iblk6 V c 0 t) (iblk6 V c 1 t) (iblk6 V c 2 t) (ix2 p q) = newAt (V c main_v86_0) (V c main_v102) b5 r q := by
  refine (pay1_apply (iblk6 V c 0 t) (iblk6 V c 1 t) (iblk6 V c 2 t) p q).trans ?_
  rw [blk0_apply V c t p q r hr, blk1_apply V c t p q r hr, blk2_apply V c t q, hbias q]
  rfl

include hbias hscale hshift in
/-- The body's second result on a block row is the layer norm of the array row: a block holds whole rows, so the
    row's mean and variance are the array row's. -/
theorem ln_blk (t : Fin cfg6.N) (p : Fin 4000) (q : Fin 128) (r : Fin 100000) (hr : r.val = t.val * 4000 + p.val) :
    k6_pay2 (iblk6 V c 0 t) (iblk6 V c 1 t) (iblk6 V c 2 t) (iblk6 V c 3 t) (iblk6 V c 4 t) (ix2 p q)
      = lnAt (fun k => pos (newAt (V c main_v86_0) (V c main_v102) b5 r k)) (b6 (ix2 lrow q)) (b7 (ix2 lrow q)) q := by
  refine (pay2_apply (iblk6 V c 0 t) (iblk6 V c 1 t) (iblk6 V c 2 t) (iblk6 V c 3 t) (iblk6 V c 4 t) p q).trans ?_
  have e : (fun k => pos (k6_pay1 (iblk6 V c 0 t) (iblk6 V c 1 t) (iblk6 V c 2 t) (ix2 p k)))
      = fun k => pos (newAt (V c main_v86_0) (V c main_v102) b5 r k) :=
    funext fun k => congrArg pos (new_blk V c b5 hbias t p k r hr)
  have e3 : (iblk6 V c 3 t : Vec Ideal S1x128 .f32) (ix2 0 q) = b6 (ix2 lrow q) := (blk3_apply V c t q).trans (hscale q)
  have e4 : (iblk6 V c 4 t : Vec Ideal S1x128 .f32) (ix2 0 q) = b7 (ix2 lrow q) := (blk4_apply V c t q).trans (hshift q)
  rw [e, e3, e4]

/-- Block `t`'s place in the array: row `p` of the block is row `4000 t + p`. -/
theorem emb5 (t : Fin cfg6.N) (p : Fin 4000) (q : Fin 128) (r : Fin 100000) (hr : r.val = t.val * 4000 + p.val) :
    ((cfg6.win 5).blk t).view.emb (ix2 p q) = ix2 r q := by
  obtain ⟨-, -, -, -, -, -, -, -, -, -, e0, e1, -⟩ := idx_facts t
  refine funext fun a => Fin.ext ?_
  match a with
  | ⟨0, _⟩ => show win6_5.index t (0 : Fin 2) * 4000 + 1 * p.val = r.val; omega
  | ⟨1, _⟩ => show win6_5.index t (1 : Fin 2) * 128 + 1 * q.val = q.val; omega

theorem emb6 (t : Fin cfg6.N) (p : Fin 4000) (q : Fin 128) (r : Fin 100000) (hr : r.val = t.val * 4000 + p.val) :
    ((cfg6.win 6).blk t).view.emb (ix2 p q) = ix2 r q := by
  obtain ⟨-, -, -, -, -, -, -, -, -, -, -, -, e0, e1⟩ := idx_facts t
  refine funext fun a => Fin.ext ?_
  match a with
  | ⟨0, _⟩ => show win6_6.index t (0 : Fin 2) * 4000 + 1 * p.val = r.val; omega
  | ⟨1, _⟩ => show win6_6.index t (1 : Fin 2) * 128 + 1 * q.val = q.val; omega

include hbias in
/-- What point `t` writes back to the second output is block `t` of `x + (conv + bias)`. -/
theorem flushed6_eq (t : Fin cfg6.N) :
    (dat6 V c).flushed 6 t = ((cfg6.win 6).blk t).view.read (Elt Ideal) (newG (V c main_v86_0) (V c main_v102) b5) := by
  show (cfg6.win 6).cut (grid6.coords t) ((dat6 V c).after 6 t) = _
  rw [after6_6]
  unfold out6_6
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (new_blk V c b5 hbias t p q _ hr).trans ?_
  show _ = newG (V c main_v86_0) (V c main_v102) b5 (((cfg6.win 6).blk t).view.emb (ix2 p q))
  rw [emb6 t p q _ hr]
  rfl

include hbias hscale hshift in
/-- What point `t` writes back to the first output is block `t` of the layer norm. -/
theorem flushed5_eq (t : Fin cfg6.N) :
    (dat6 V c).flushed 5 t
      = ((cfg6.win 5).blk t).view.read (Elt Ideal) (lnG (newG (V c main_v86_0) (V c main_v102) b5) b6 b7) := by
  show (cfg6.win 5).cut (grid6.coords t) ((dat6 V c).after 5 t) = _
  rw [after6_5]
  unfold out6_5
  rw [View.canon_unit_zero hz]
  simp only [View.ld_unit_zero (S := S4000x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  have ht := t_lt t
  have hr : ((⟨t.val * 4000 + p.val, by omega⟩ : Fin 100000)).val = t.val * 4000 + p.val := rfl
  refine (ln_blk V c b5 b6 b7 hbias hscale hshift t p q _ hr).trans ?_
  show _ = lnG (newG (V c main_v86_0) (V c main_v102) b5) b6 b7 (((cfg6.win 5).blk t).view.emb (ix2 p q))
  rw [emb5 t p q _ hr]
  rfl

/-- An index of the array is in point `t`'s block iff each coordinate is in the block's range on its axis. -/
theorem mem_blk5 (t : Fin cfg6.N) (i : S100000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v112_0).slice (win6_5.rect t)).set ↔ _
  rw [View.set_slice_whole, Rect.mem_set_unit]
  exact Iff.rfl

theorem mem_blk6 (t : Fin cfg6.N) (i : S100000x128.Idx) :
    i ∈ ((cfg6.win 6).blk t).view.set ↔ ∀ a : Fin 2, win6_6.index t a * S4000x128.size a ≤ (i a).val ∧ (i a).val < win6_6.index t a * S4000x128.size a + S4000x128.size a := by
  show i ∈ ((View.whole main_v112_1).slice (win6_6.rect t)).set ↔ _
  rw [View.set_slice_whole, Rect.mem_set_unit]
  exact Iff.rfl

/-- Row `r` of the array lies in the block of point `r / 4000`. -/
theorem cover5 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : (i 0).val / 4000 < cfg6.N := by show _ < grid6.N; rw [N_6]; omega
  obtain ⟨-, -, -, -, -, -, -, -, -, -, e0, e1, -⟩ := idx_facts ⟨(i 0).val / 4000, hN⟩
  have e0' : win6_5.index ⟨(i 0).val / 4000, hN⟩ (0 : Fin 2) = (i 0).val / 4000 := e0
  refine ⟨⟨(i 0).val / 4000, hN⟩, flush6_5 _, ?_⟩
  rw [mem_blk5]
  intro a
  match a with
  | ⟨0, _⟩ => show win6_5.index ⟨(i 0).val / 4000, hN⟩ (0 : Fin 2) * 4000 ≤ (i 0).val ∧ (i 0).val < win6_5.index ⟨(i 0).val / 4000, hN⟩ (0 : Fin 2) * 4000 + 4000; omega
  | ⟨1, _⟩ => show win6_5.index ⟨(i 0).val / 4000, hN⟩ (1 : Fin 2) * 128 ≤ (i 1).val ∧ (i 1).val < win6_5.index ⟨(i 0).val / 4000, hN⟩ (1 : Fin 2) * 128 + 128; omega

theorem cover6 (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : (i 0).val / 4000 < cfg6.N := by show _ < grid6.N; rw [N_6]; omega
  obtain ⟨-, -, -, -, -, -, -, -, -, -, -, -, e0, e1⟩ := idx_facts ⟨(i 0).val / 4000, hN⟩
  have e0' : win6_6.index ⟨(i 0).val / 4000, hN⟩ (0 : Fin 2) = (i 0).val / 4000 := e0
  refine ⟨⟨(i 0).val / 4000, hN⟩, flush6_6 _, ?_⟩
  rw [mem_blk6]
  intro a
  match a with
  | ⟨0, _⟩ => show win6_6.index ⟨(i 0).val / 4000, hN⟩ (0 : Fin 2) * 4000 ≤ (i 0).val ∧ (i 0).val < win6_6.index ⟨(i 0).val / 4000, hN⟩ (0 : Fin 2) * 4000 + 4000; omega
  | ⟨1, _⟩ => show win6_6.index ⟨(i 0).val / 4000, hN⟩ (1 : Fin 2) * 128 ≤ (i 1).val ∧ (i 1).val < win6_6.index ⟨(i 0).val / 4000, hN⟩ (1 : Fin 2) * 128 + 128; omega

include hbias in
/-- The second output array after the region, whole. -/
theorem final6 : (dat6 V c).arrAt 6 cfg6.N = newG (V c main_v86_0) (V c main_v102) b5 :=
  (dat6 V c).arrAt_eq_of_cover 6 (newG (V c main_v86_0) (V c main_v102) b5) (fun t _ => flushed6_eq V c b5 hbias t) cover6

include hbias hscale hshift in
/-- The first output array after the region, whole. -/
theorem final5 : (dat6 V c).arrAt 5 cfg6.N = lnG (newG (V c main_v86_0) (V c main_v102) b5) b6 b7 :=
  (dat6 V c).arrAt_eq_of_cover 5 (lnG (newG (V c main_v86_0) (V c main_v102) b5) b6 b7)
    (fun t _ => flushed5_eq V c b5 b6 b7 hbias hscale hshift t) cover5

end Region

/-! ## The parameter rows the host stretch lays out, and the region's exit -/

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The bias row as the region finds it is the table's row: a slice, flattened and laid out again as one row. -/
theorem biasRow (q : Fin 128) :
    W15 m ρ c (Proc.devRef .tc main_v105) (ix2 0 q) = W14 m ρ c (Proc.devRef .tc main_arg5) (ix2 brow q) := by
  have e : (W15 m ρ c (Proc.devRef .tc main_v105) : Vec Ideal S1x128 .f32)
      = shapeCast S1x128 (shapeCast S128 (extractStridedSlice S1x128 ![2, 0]
          (W14 m ρ c (Proc.devRef .tc main_arg5) : Vec Ideal S4x128 .f32) slices_S4x128_S1x128_2_0) shapeCasts_S1x128_S128)
          shapeCasts_S128_S1x128 := by
    show StableHlo.after hostOps6 (W14 m ρ c) (Proc.devRef .tc main_v105) = _
    after_results; rfl
  refine (congrFun e (ix2 0 q)).trans ?_
  rw [shapeCast_shapeCast]
  exact extractStridedSlice_apply _ _ _ (ix2 0 q) (ix2 brow q) (fun a => by
    match a with
    | ⟨0, _⟩ => rfl
    | ⟨1, _⟩ => exact (Nat.zero_add _).symm)

/-- The scale row likewise. -/
theorem scaleRow (q : Fin 128) :
    W15 m ρ c (Proc.devRef .tc main_v108) (ix2 0 q) = W14 m ρ c (Proc.devRef .tc main_arg6) (ix2 lrow q) := by
  have e : (W15 m ρ c (Proc.devRef .tc main_v108) : Vec Ideal S1x128 .f32)
      = shapeCast S1x128 (shapeCast S128 (extractStridedSlice S1x128 ![2, 0]
          (W14 m ρ c (Proc.devRef .tc main_arg6) : Vec Ideal S3x128 .f32) slices_S3x128_S1x128_2_0) shapeCasts_S1x128_S128)
          shapeCasts_S128_S1x128 := by
    show StableHlo.after hostOps6 (W14 m ρ c) (Proc.devRef .tc main_v108) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The shift row likewise. -/
theorem shiftRow (q : Fin 128) :
    W15 m ρ c (Proc.devRef .tc main_v111) (ix2 0 q) = W14 m ρ c (Proc.devRef .tc main_arg7) (ix2 lrow q) := by
  have e : (W15 m ρ c (Proc.devRef .tc main_v111) : Vec Ideal S1x128 .f32)
      = shapeCast S1x128 (shapeCast S128 (extractStridedSlice S1x128 ![2, 0]
          (W14 m ρ c (Proc.devRef .tc main_arg7) : Vec Ideal S3x128 .f32) slices_S3x128_S1x128_2_0) shapeCasts_S1x128_S128)
          shapeCasts_S128_S1x128 := by
    show StableHlo.after hostOps6 (W14 m ρ c) (Proc.devRef .tc main_v111) = _
    after_results; rfl
  refine (congrFun e (ix2 0 q)).trans ?_
  rw [shapeCast_shapeCast]
  exact extractStridedSlice_apply _ _ _ (ix2 0 q) (ix2 lrow q) (fun a => by
    match a with
    | ⟨0, _⟩ => rfl
    | ⟨1, _⟩ => exact (Nat.zero_add _).symm)

/-- The kernel's second output after the region: `x + (conv + bias)` of the region's entry arrays. -/
theorem kernel_new :
    W16 m ρ c (Proc.devRef .tc main_v112_1)
      = newG (W15 m ρ c (Proc.devRef .tc main_v86_0)) (W15 m ρ c (Proc.devRef .tc main_v102))
          (W14 m ρ c (Proc.devRef .tc main_arg5)) :=
  (W16_arr m ρ c 6).trans (final6 (V15 m ρ) c (W14 m ρ c (Proc.devRef .tc main_arg5)) (biasRow m ρ c))

/-- The kernel's first output after the region: the layer norm of that. -/
theorem kernel_ln :
    W16 m ρ c (Proc.devRef .tc main_v112_0)
      = lnG (newG (W15 m ρ c (Proc.devRef .tc main_v86_0)) (W15 m ρ c (Proc.devRef .tc main_v102))
            (W14 m ρ c (Proc.devRef .tc main_arg5)))
          (W14 m ρ c (Proc.devRef .tc main_arg6)) (W14 m ρ c (Proc.devRef .tc main_arg7)) :=
  (W16_arr m ρ c 5).trans (final5 (V15 m ρ) c (W14 m ρ c (Proc.devRef .tc main_arg5))
    (W14 m ρ c (Proc.devRef .tc main_arg6)) (W14 m ρ c (Proc.devRef .tc main_arg7)) (biasRow m ρ c) (scaleRow m ρ c) (shiftRow m ρ c))

/-! ## The reference's host operations of this layer, read at an index -/

section RefTerms
variable {F : FTy → Type} [FloatOps F]

/-- The reference's parameter row spread over the array: a slice of the table, flattened, laid out as one row and
    repeated down the nodes. -/
def rRow4 (b : FVec F Cert.ReferenceIdeal.S4x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![2, 0] b Cert.ReferenceIdeal.Gen.slices_S4x128_S1x128_2_0) Cert.ReferenceIdeal.Gen.shapeCasts_S1x128_S128))

def rRow3 (b : FVec F Cert.ReferenceIdeal.S3x128 .f32) : FVec F Cert.ReferenceIdeal.S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128 (extractStridedSlice Cert.ReferenceIdeal.S1x128 ![2, 0] b Cert.ReferenceIdeal.Gen.slices_S3x128_S1x128_2_0) Cert.ReferenceIdeal.Gen.shapeCasts_S1x128_S128))

theorem rRow4_apply (b : FVec Ideal Cert.ReferenceIdeal.S4x128 .f32) (r : Fin 100000) (q : Fin 128) : rRow4 b (ix2 r q) = b (ix2 brow q) := by
  unfold rRow4
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 brow q) (fun a => by
    match a with
    | ⟨0, _⟩ => rfl
    | ⟨1, _⟩ => exact (Nat.zero_add _).symm)

theorem rRow3_apply (b : FVec Ideal Cert.ReferenceIdeal.S3x128 .f32) (r : Fin 100000) (q : Fin 128) : rRow3 b (ix2 r q) = b (ix2 lrow q) := by
  unfold rRow3
  refine (broadcastInDim_apply _ _ _ (ix2 r q) (ix2 0 q) (fun a => by match a with | ⟨0, _⟩ => rfl | ⟨1, _⟩ => rfl)).trans ?_
  refine (broadcastInDim_apply _ _ _ (ix2 0 q) (ix1 q) (fun a => by match a with | ⟨0, _⟩ => rfl)).trans ?_
  refine (shapeCast_apply _ _ (ix1 q) (ix2 0 q) (by
    rw [Shape.rowMajor_val_one, Shape.rowMajor_val_two]; show 0 * 128 + q.val = q.val; omega)).trans ?_
  exact extractStridedSlice_apply _ _ _ (ix2 0 q) (ix2 lrow q) (fun a => by
    match a with
    | ⟨0, _⟩ => rfl
    | ⟨1, _⟩ => exact (Nat.zero_add _).symm)

/-- A word spread over the whole array. -/
def rFull (w : BitVec 32) : FVec F Cert.ReferenceIdeal.S100000x128 .f32 :=
  broadcastInDim Cert.ReferenceIdeal.S100000x128 ![] Cert.ReferenceIdeal.Gen.bcast_S_S100000x128 (constant (F := F) Cert.ReferenceIdeal.S_ .f32 w)

/-- A word spread over a column. -/
def rColW (w : BitVec 32) : FVec F Cert.ReferenceIdeal.S100000x1 .f32 :=
  broadcastInDim Cert.ReferenceIdeal.S100000x1 ![] Cert.ReferenceIdeal.Gen.bcast_S_S100000x1 (constant (F := F) Cert.ReferenceIdeal.S_ .f32 w)

theorem rFull_apply (w : BitVec 32) (i : Cert.ReferenceIdeal.S100000x128.Idx) : rFull (F := Ideal) w i = Ideal.ofBits .f32 w := rfl
theorem rColW_apply (w : BitVec 32) (i : Cert.ReferenceIdeal.S100000x1.Idx) : rColW (F := Ideal) w i = Ideal.ofBits .f32 w := rfl

/-- A row's sum as a column: the host's reduce over the lanes from a zero word, kept as a one-wide axis. -/
def rSumCol (v : FVec F Cert.ReferenceIdeal.S100000x128 .f32) : FVec F Cert.ReferenceIdeal.S100000x1 .f32 :=
  broadcastInDim Cert.ReferenceIdeal.S100000x1 ![0] Cert.ReferenceIdeal.Gen.bcast_S100000_S100000x1_0
    (Host.reduceAdd v (constant (F := F) Cert.ReferenceIdeal.S_ .f32 0x00000000#32) Cert.ReferenceIdeal.Gen.reducesTo_S100000x128_S100000_d1 Cert.ReferenceIdeal.Gen.h_S_)

theorem rSumCol_apply (v : FVec Ideal Cert.ReferenceIdeal.S100000x128 .f32) (r : Fin 100000) :
    rSumCol v (ix2 r 0) = ∑ k : Fin 128, v (ix2 r k) := by
  unfold rSumCol
  refine (broadcastInDim_apply _ _ _ (ix2 r 0) (ix1 r) (fun a => by match a with | ⟨0, _⟩ => rfl)).trans ?_
  have h : Cert.ReferenceIdeal.S100000x128.Reduces [1] Cert.ReferenceIdeal.S100000 := by decide
  show Ideal.hostReduceAdd Cert.ReferenceIdeal.Gen.reducesTo_S100000x128_S100000_d1 v (Ideal.ofBits .f32 0x00000000#32) (ix1 r) = _
  rw [Ideal.hostReduceAdd_single Cert.ReferenceIdeal.Gen.reducesTo_S100000x128_S100000_d1 h, Ideal.ofBits_zero_f32, zero_add]
  refine Finset.sum_congr rfl fun k _ => congrArg v ?_
  funext a; apply Fin.ext
  match a with
  | ⟨0, _⟩ => rfl
  | ⟨1, _⟩ => rfl

/-- A column spread along the lanes. -/
def rSpread (v : FVec F Cert.ReferenceIdeal.S100000x1 .f32) : FVec F Cert.ReferenceIdeal.S100000x128 .f32 :=
  broadcastInDim Cert.ReferenceIdeal.S100000x128 ![0, 1] Cert.ReferenceIdeal.Gen.bcast_S100000x1_S100000x128_0_1 v

theorem rSpread_apply (v : FVec Ideal Cert.ReferenceIdeal.S100000x1 .f32) (r : Fin 100000) (q : Fin 128) : rSpread v (ix2 r q) = v (ix2 r 0) := by
  unfold rSpread
  exact broadcastInDim_apply _ _ _ (ix2 r q) (ix2 r 0) (fun a => by match a with | ⟨0, _⟩ => rfl | ⟨1, _⟩ => rfl)

theorem hostDivf_apply' {s : Shape} (a b : FVec Ideal s .f32) (i : s.Idx) : Host.divf a b i = Ideal.div (a i) (b i) := rfl
theorem hostRsqrt_apply' {s : Shape} (a : FVec Ideal s .f32) (i : s.Idx) : Host.rsqrt a i = Ideal.rsqrt (a i) := rfl

/-- The reference's `x + (conv + bias)`. -/
def refNew (x cv : FVec F Cert.ReferenceIdeal.S100000x128 .f32) (b5 : FVec F Cert.ReferenceIdeal.S4x128 .f32) : FVec F Cert.ReferenceIdeal.S100000x128 .f32 :=
  addf x (addf cv (rRow4 b5))

/-- The positive part of `n`, as the reference takes it. -/
def rPos (n : FVec F Cert.ReferenceIdeal.S100000x128 .f32) : FVec F Cert.ReferenceIdeal.S100000x128 .f32 := maximumf n (rFull 0x00000000#32)

/-- Its rows' means, as a column. -/
def rMu (n : FVec F Cert.ReferenceIdeal.S100000x128 .f32) : FVec F Cert.ReferenceIdeal.S100000x1 .f32 := Host.divf (rSumCol (rPos n)) (rColW 0x43000000#32)

/-- The reference's layer norm of the positive part of `n`, its operations in order. -/
def refLn (n : FVec F Cert.ReferenceIdeal.S100000x128 .f32) (b6 b7 : FVec F Cert.ReferenceIdeal.S3x128 .f32) : FVec F Cert.ReferenceIdeal.S100000x128 .f32 :=
  addf (mulf (mulf (subf (rPos n) (rSpread (rMu n)))
      (rSpread (Host.rsqrt (addf
        (Host.divf (rSumCol (mulf (subf (rPos n) (rSpread (rMu n))) (subf (rPos n) (rSpread (rMu n))))) (rColW 0x43000000#32))
        (rColW 0x3727C5AC#32))))) (rRow3 b6)) (rRow3 b7)

/-- The stretch's two results are these terms of the entry arrays (the operations' results composed). -/
theorem ref_new_term (V : Valuation Cert.ReferenceIdeal.τ Cert.ReferenceIdeal.sig (Elt F)) :
    StableHlo.after Cert.ReferenceIdeal.RunP.rc10 V (Proc.devRef .tc Cert.ReferenceIdeal.main_v163)
      = refNew (V (Proc.devRef .tc Cert.ReferenceIdeal.main_v141)) (V (Proc.devRef .tc Cert.ReferenceIdeal.main_v157)) (V (Proc.devRef .tc Cert.ReferenceIdeal.main_arg5)) := by
  after_results; rfl

set_option maxHeartbeats 2000000 in
theorem ref_ln_term (V : Valuation Cert.ReferenceIdeal.τ Cert.ReferenceIdeal.sig (Elt F)) :
    StableHlo.after Cert.ReferenceIdeal.RunP.rc10 V (Proc.devRef .tc Cert.ReferenceIdeal.main_v192)
      = refLn (refNew (V (Proc.devRef .tc Cert.ReferenceIdeal.main_v141)) (V (Proc.devRef .tc Cert.ReferenceIdeal.main_v157)) (V (Proc.devRef .tc Cert.ReferenceIdeal.main_arg5)))
          (V (Proc.devRef .tc Cert.ReferenceIdeal.main_arg6)) (V (Proc.devRef .tc Cert.ReferenceIdeal.main_arg7)) := by
  after_results_simp; rfl

end RefTerms

theorem refNew_apply (x cv : FVec Ideal Cert.ReferenceIdeal.S100000x128 .f32) (b5 : FVec Ideal Cert.ReferenceIdeal.S4x128 .f32) (r : Fin 100000) (q : Fin 128) :
    refNew x cv b5 (ix2 r q) = newAt x cv b5 r q := by
  unfold refNew
  rw [addf_apply, addf_apply, rRow4_apply]
  rfl

theorem refLn_apply (n : FVec Ideal Cert.ReferenceIdeal.S100000x128 .f32) (b6 b7 : FVec Ideal Cert.ReferenceIdeal.S3x128 .f32) (r : Fin 100000) (q : Fin 128) :
    refLn n b6 b7 (ix2 r q) = lnAt (fun k => pos (n (ix2 r k))) (b6 (ix2 lrow q)) (b7 (ix2 lrow q)) q := by
  unfold refLn rMu rPos
  simp only [addf_apply, mulf_apply, subf_apply, maximumf_apply, hostDivf_apply', hostRsqrt_apply', rFull_apply, rColW_apply,
    rRow3_apply, rSpread_apply, rSumCol_apply]
  rfl

theorem ref_new (Vr : RVal) :
    StableHlo.after Cert.ReferenceIdeal.RunP.rc10 Vr (Proc.devRef .tc Cert.ReferenceIdeal.main_v163)
      = newG (Vr (Proc.devRef .tc Cert.ReferenceIdeal.main_v141)) (Vr (Proc.devRef .tc Cert.ReferenceIdeal.main_v157))
          (Vr (Proc.devRef .tc Cert.ReferenceIdeal.main_arg5)) := by
  rw [ref_new_term Vr]
  funext i
  obtain ⟨r, q, rfl⟩ : ∃ (r : Fin 100000) (q : Fin 128), i = ix2 r q := ⟨i 0, i 1, eq_ix2 i⟩
  exact refNew_apply _ _ _ r q

theorem ref_ln (Vr : RVal) :
    StableHlo.after Cert.ReferenceIdeal.RunP.rc10 Vr (Proc.devRef .tc Cert.ReferenceIdeal.main_v192)
      = lnG (newG (Vr (Proc.devRef .tc Cert.ReferenceIdeal.main_v141)) (Vr (Proc.devRef .tc Cert.ReferenceIdeal.main_v157))
            (Vr (Proc.devRef .tc Cert.ReferenceIdeal.main_arg5)))
          (Vr (Proc.devRef .tc Cert.ReferenceIdeal.main_arg6)) (Vr (Proc.devRef .tc Cert.ReferenceIdeal.main_arg7)) := by
  rw [ref_ln_term Vr]
  funext i
  obtain ⟨r, q, rfl⟩ : ∃ (r : Fin 100000) (q : Fin 128), i = ix2 r q := ⟨i 0, i 1, eq_ix2 i⟩
  refine (refLn_apply _ _ _ r q).trans ?_
  have en : (fun k => pos (refNew (F := Ideal) (Vr (Proc.devRef .tc Cert.ReferenceIdeal.main_v141)) (Vr (Proc.devRef .tc Cert.ReferenceIdeal.main_v157)) (Vr (Proc.devRef .tc Cert.ReferenceIdeal.main_arg5)) (ix2 r k)))
      = fun k => pos (newAt (Vr (Proc.devRef .tc Cert.ReferenceIdeal.main_v141)) (Vr (Proc.devRef .tc Cert.ReferenceIdeal.main_v157)) (Vr (Proc.devRef .tc Cert.ReferenceIdeal.main_arg5)) r k) :=
    funext fun k => by rw [refNew_apply]
  rw [en]
  rfl

/-- Layer 2's combination: the kernel's seventh region leaves `x + (conv + bias)` in its second output and the
    layer norm of its positive part, scaled and shifted, in its first; the reference computes both by host operations. -/
theorem step (Vr : RVal)
    (hx : W15 m ρ c (Proc.devRef .tc main_v86_0) = Vr (Proc.devRef .tc Cert.ReferenceIdeal.main_v141))
    (hconv : W15 m ρ c (Proc.devRef .tc main_v102) = Vr (Proc.devRef .tc Cert.ReferenceIdeal.main_v157))
    (h5 : W14 m ρ c (Proc.devRef .tc main_arg5) = Vr (Proc.devRef .tc Cert.ReferenceIdeal.main_arg5))
    (h6 : W14 m ρ c (Proc.devRef .tc main_arg6) = Vr (Proc.devRef .tc Cert.ReferenceIdeal.main_arg6))
    (h7 : W14 m ρ c (Proc.devRef .tc main_arg7) = Vr (Proc.devRef .tc Cert.ReferenceIdeal.main_arg7)) :
    W16 m ρ c (Proc.devRef .tc main_v112_0) = StableHlo.after Cert.ReferenceIdeal.RunP.rc10 Vr (Proc.devRef .tc Cert.ReferenceIdeal.main_v192)
    ∧ W16 m ρ c (Proc.devRef .tc main_v112_1) = StableHlo.after Cert.ReferenceIdeal.RunP.rc10 Vr (Proc.devRef .tc Cert.ReferenceIdeal.main_v163) := by
  refine ⟨?_, ?_⟩
  · rw [kernel_ln m ρ c, ref_ln Vr, hx, hconv, h5, h6, h7]
  · rw [kernel_new m ρ c, ref_new Vr, hx, hconv, h5]

end Cert.Bridge.Ln2

end
-- ==== Proof.Fin.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Fin

open Idealize.ShloMosaic Idealize.ShloMosaic.TcCoe Idealize.SL.Sem Idealize.ShloMosaic.StableHlo
open Cert.KernelIdeal Cert.KernelIdeal.Gen
open Idealize.ShloMosaic.ValueIdx

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-! ## The bias row at an index

The last layer's bias is row 3 of the 4×128 table. Both programs cut it out by the same slice and re-lay it
(the kernel as a 1×128 row, the reference by two broadcasts); read at a feature `q` each is the table at `(3, q)`. -/

/-- The slice `[3:4, 0:128]` of the table, at an index of the 1×128 row. -/
theorem slice3_apply (b : FVec Ideal S4x128 .f32) (hs : S4x128.Slices ![3, 0] S1x128) (j : S1x128.Idx) :
    extractStridedSlice S1x128 ![3, 0] b hs j = b (ix2 3 (j 1)) := by
  refine extractStridedSlice_apply _ _ hs j (ix2 3 (j 1)) fun a => ?_
  match a with
  | ⟨0, _⟩ => have h0 : (j 0).val < 1 := (j 0).isLt; show 3 = 3 + (j 0).val; omega
  | ⟨1, _⟩ => show (j 1).val = 0 + (j 1).val; omega

/-- The slice re-laid as a vector of 128 features. -/
theorem row128_apply (b : FVec Ideal S4x128 .f32) (hs : S4x128.Slices ![3, 0] S1x128) (hc : S1x128.ShapeCasts S128)
    (j : S128.Idx) : shapeCast S128 (extractStridedSlice S1x128 ![3, 0] b hs) hc j = b (ix2 3 (j 0)) := by
  refine (shapeCast_apply _ hc j (ix2 0 (j 0)) ?_).trans (slice3_apply b hs _)
  rw [Shape.rowMajor_val_two, Shape.rowMajor_val_one]
  show 0 * 128 + (j 0).val = (j 0).val
  omega

/-- … and back as a 1×128 row (what the kernel's region is handed). -/
theorem row1x128_apply (b : FVec Ideal S4x128 .f32) (hs : S4x128.Slices ![3, 0] S1x128) (hc : S1x128.ShapeCasts S128)
    (hc' : S128.ShapeCasts S1x128) (j : S1x128.Idx) :
    shapeCast S1x128 (shapeCast S128 (extractStridedSlice S1x128 ![3, 0] b hs) hc) hc' j = b (ix2 3 (j 1)) := by
  refine (shapeCast_apply _ hc' j (ix1 (j 1)) ?_).trans (row128_apply b hs hc _)
  rw [Shape.rowMajor_val_two, Shape.rowMajor_val_one]
  have h0 : (j 0).val < 1 := (j 0).isLt
  show (j 1).val = (j 0).val * 128 + (j 1).val
  omega

/-- The reference's two broadcasts of the 128 features over the 100000 nodes. -/
theorem bcast_apply (v : FVec Ideal S128 .f32) (h1 : S128.BroadcastsInDim S1x128 (![1] : Fin 1 → Fin S1x128.rank))
    (h2 : S1x128.BroadcastsInDim S100000x128 (![0, 1] : Fin 2 → Fin S100000x128.rank)) (i : S100000x128.Idx) :
    broadcastInDim S100000x128 ![0, 1] h2 (broadcastInDim S1x128 ![1] h1 v) i = v (ix1 (i 1)) := by
  refine (broadcastInDim_apply _ h2 _ i (ix2 0 (i 1)) fun a => ?_).trans
    (broadcastInDim_apply _ h1 v (ix2 0 (i 1)) (ix1 (i 1)) fun a => ?_)
  · match a with
    | ⟨0, _⟩ => rfl
    | ⟨1, _⟩ => rfl
  · match a with
    | ⟨0, _⟩ => rfl

/-! ## The region's arithmetic at an index -/

/-- The sum the region stores in its second output, at an index of a block: the node's features, plus the
    convolution's plus the bias row's entry of that feature. -/
theorem pay_new_apply (x0 x1 : Vec Ideal S4000x128 .f32) (x2 : Vec Ideal S1x128 .f32) (j : S4000x128.Idx) :
    k8_pay1 x0 x1 x2 j = x0 j + (x1 j + x2 (ix2 0 (j 1))) := by
  unfold k8_pay1
  show addf (F := Ideal) (shapeCast S4000x128 (x0 : FVec Ideal S4000x128 .f32) _) (addf (shapeCast S4000x128 (x1 : FVec Ideal S4000x128 .f32) _) (broadcastTo S4000x128 (shapeCast S1x128 (x2 : FVec Ideal S1x128 .f32) _) _)) j = _
  rw [addf_apply, addf_apply, shapeCast_self, shapeCast_self, shapeCast_self]
  refine congrArg (fun z => x0 j + (x1 j + z)) (broadcastTo_apply x2 _ j (ix2 0 (j 1)) fun a => ?_)
  match a with
  | ⟨0, _⟩ => rfl
  | ⟨1, _⟩ => rfl

/-- The first output is the positive part of the second. -/
theorem pay_relu_apply (x0 x1 : Vec Ideal S4000x128 .f32) (x2 : Vec Ideal S1x128 .f32) (j : S4000x128.Idx) :
    k8_pay2 x0 x1 x2 j = max (k8_pay1 x0 x1 x2 j) (Ideal.ofBits .f32 0x00000000#32) := rfl

/-! ## From the blocks to the node arrays, for any contents the region finds -/

/-- `x + (conv + row)` over the whole node array, the bias given as a 1×128 row. -/
def newOf (x conv : Vec Ideal S100000x128 .f32) (r : Vec Ideal S1x128 .f32) : Vec Ideal S100000x128 .f32 :=
  fun i => x i + (conv i + r (ix2 0 (i 1)))

/-- Its positive part. -/
def reluOf (x conv : Vec Ideal S100000x128 .f32) (r : Vec Ideal S1x128 .f32) : Vec Ideal S100000x128 .f32 :=
  fun i => max (newOf x conv r i) (Ideal.ofBits .f32 0x00000000#32)

theorem zero_offsets : (![0, 0] : Fin 2 → Nat) = fun _ => 0 := funext fun a => by fin_cases a <;> rfl

/-- The printed index maps over the 25 grid points: the node windows all sit at block row `t`, column block 0; the bias
    row's window is its whole array. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

section Region

variable (V : (c : Dev nD) → (b : Ref sig .tc) → Buf (Elt Ideal) ((c : Thread nD τ).loc b))

/-- The three arrays the region reads, as it finds them: the node features, the convolution's result, the bias row. -/
abbrev xArr (c : Dev nD) : Vec Ideal S100000x128 .f32 := V c main_v112_0
abbrev convArr (c : Dev nD) : Vec Ideal S100000x128 .f32 := V c main_v128
abbrev rowArr (c : Dev nD) : Vec Ideal S1x128 .f32 := V c main_v131

/-- What point `t` writes back to the second output is block `t` of `newOf` of the arrays the region finds. -/
theorem flushed_new (c : Dev nD) (t : Fin cfg8.N) :
    (dat8 V c).flushed 4 t
      = ((cfg8.win 4).blk t).view.read (Elt Ideal) (newOf (xArr V c) (convArr V c) (rowArr V c)) := by
  show (cfg8.win 4).cut (grid8.coords t) ((dat8 V c).after 4 t) = _
  rw [after8_4]
  unfold out8_4
  rw [View.canon_unit_zero zero_offsets]
  simp only [View.ld_unit_zero (S := S4000x128) zero_offsets, View.ld_unit_zero (S := S1x128) zero_offsets]
  obtain ⟨e00, e01, e10, e11, e20, e21, e30, e31, e40, e41⟩ := idx_facts t
  funext j
  show k8_pay1 (iblk8 V c 0 t) (iblk8 V c 1 t) (iblk8 V c 2 t) j
      = newOf (xArr V c) (convArr V c) (rowArr V c) (((cfg8.win 4).blk t).view.emb j)
  refine (pay_new_apply (iblk8 V c 0 t) (iblk8 V c 1 t) (iblk8 V c 2 t) j).trans ?_
  show xArr V c (((cfg8.win 0).blk t).view.emb j)
        + (convArr V c (((cfg8.win 1).blk t).view.emb j) + rowArr V c (((cfg8.win 2).blk t).view.emb (ix2 0 (j 1))))
      = xArr V c (((cfg8.win 4).blk t).view.emb j)
        + (convArr V c (((cfg8.win 4).blk t).view.emb j) + rowArr V c (ix2 0 ((((cfg8.win 4).blk t).view.emb j) 1)))
  have h0 : ((cfg8.win 0).blk t).view.emb j = ((cfg8.win 4).blk t).view.emb j := by
    funext a; apply Fin.ext
    match a with
    | ⟨0, _⟩ => show win8_0.index t (0 : Fin 2) * 4000 + 1 * (j 0).val = win8_4.index t (0 : Fin 2) * 4000 + 1 * (j 0).val; omega
    | ⟨1, _⟩ => show win8_0.index t (1 : Fin 2) * 128 + 1 * (j 1).val = win8_4.index t (1 : Fin 2) * 128 + 1 * (j 1).val; omega
  have h1 : ((cfg8.win 1).blk t).view.emb j = ((cfg8.win 4).blk t).view.emb j := by
    funext a; apply Fin.ext
    match a with
    | ⟨0, _⟩ => show win8_1.index t (0 : Fin 2) * 4000 + 1 * (j 0).val = win8_4.index t (0 : Fin 2) * 4000 + 1 * (j 0).val; omega
    | ⟨1, _⟩ => show win8_1.index t (1 : Fin 2) * 128 + 1 * (j 1).val = win8_4.index t (1 : Fin 2) * 128 + 1 * (j 1).val; omega
  have h2 : ((cfg8.win 2).blk t).view.emb (ix2 0 (j 1)) = ix2 0 ((((cfg8.win 4).blk t).view.emb j) 1) := by
    funext a; apply Fin.ext
    match a with
    | ⟨0, _⟩ => show win8_2.index t (0 : Fin 2) * 1 + 1 * 0 = 0; omega
    | ⟨1, _⟩ => show win8_2.index t (1 : Fin 2) * 128 + 1 * (j 1).val = win8_4.index t (1 : Fin 2) * 128 + 1 * (j 1).val; omega
  rw [h0, h1, h2]
  rfl

/-- An index of a node array is in point `t`'s block of the second output iff each coordinate is in the block's range. -/
theorem mem_blk_new (t : Fin cfg8.N) (i : S100000x128.Idx) :
    i ∈ ((cfg8.win 4).blk t).view.set ↔ ∀ a : Fin 2, win8_4.index t a * S4000x128.size a ≤ (i a).val
      ∧ (i a).val < win8_4.index t a * S4000x128.size a + S4000x128.size a := by
  show i ∈ ((View.whole main_v132_1).slice (win8_4.rect t)).set ↔ _
  rw [View.set_slice_whole, Rect.mem_set_unit]
  exact Iff.rfl

/-- Row `r` of a node array lies in the block of point `r / 4000`: the 25 blocks of 4000 rows tile the 100000 rows. -/
theorem cover_new (i : S100000x128.Idx) :
    ∃ t : Fin cfg8.N, (cfg8.win 4).flush t = true ∧ i ∈ ((cfg8.win 4).blk t).view.set := by
  have hi0 : (i 0).val < 100000 := (i 0).isLt
  have hi1 : (i 1).val < 128 := (i 1).isLt
  obtain ⟨t, ht⟩ : ∃ t : Fin cfg8.N, t.val = (i 0).val / 4000 :=
    ⟨⟨(i 0).val / 4000, by rw [show cfg8.N = 25 from N_8]; omega⟩, rfl⟩
  obtain ⟨e00, e01, e10, e11, e20, e21, e30, e31, e40, e41⟩ := idx_facts t
  refine ⟨t, flush8_4 t, ?_⟩
  rw [mem_blk_new]
  intro a
  match a with
  | ⟨0, _⟩ =>
    show win8_4.index t (0 : Fin 2) * 4000 ≤ (i 0).val ∧ (i 0).val < win8_4.index t (0 : Fin 2) * 4000 + 4000
    omega
  | ⟨1, _⟩ =>
    show win8_4.index t (1 : Fin 2) * 128 ≤ (i 1).val ∧ (i 1).val < win8_4.index t (1 : Fin 2) * 128 + 128
    omega

/-- The second output after the region, for any contents it finds. -/
theorem final_new (c : Dev nD) :
    (dat8 V c).arrAt 4 cfg8.N = newOf (xArr V c) (convArr V c) (rowArr V c) :=
  (dat8 V c).arrAt_eq_of_cover 4 _ (fun t _ => flushed_new V c t) cover_new

/-- What point `t` writes back to the first output is block `t` of `reluOf` of the arrays the region finds. -/
theorem flushed_relu (c : Dev nD) (t : Fin cfg8.N) :
    (dat8 V c).flushed 3 t
      = ((cfg8.win 3).blk t).view.read (Elt Ideal) (reluOf (xArr V c) (convArr V c) (rowArr V c)) := by
  show (cfg8.win 3).cut (grid8.coords t) ((dat8 V c).after 3 t) = _
  rw [after8_3]
  unfold out8_3
  rw [View.canon_unit_zero zero_offsets]
  simp only [View.ld_unit_zero (S := S4000x128) zero_offsets, View.ld_unit_zero (S := S1x128) zero_offsets]
  obtain ⟨e00, e01, e10, e11, e20, e21, e30, e31, e40, e41⟩ := idx_facts t
  funext j
  show k8_pay2 (iblk8 V c 0 t) (iblk8 V c 1 t) (iblk8 V c 2 t) j
      = reluOf (xArr V c) (convArr V c) (rowArr V c) (((cfg8.win 3).blk t).view.emb j)
  refine (pay_relu_apply (iblk8 V c 0 t) (iblk8 V c 1 t) (iblk8 V c 2 t) j).trans ?_
  refine congrArg (fun z => max z (Ideal.ofBits .f32 0x00000000#32)) ?_
  refine (pay_new_apply (iblk8 V c 0 t) (iblk8 V c 1 t) (iblk8 V c 2 t) j).trans ?_
  show xArr V c (((cfg8.win 0).blk t).view.emb j)
        + (convArr V c (((cfg8.win 1).blk t).view.emb j) + rowArr V c (((cfg8.win 2).blk t).view.emb (ix2 0 (j 1))))
      = xArr V c (((cfg8.win 3).blk t).view.emb j)
        + (convArr V c (((cfg8.win 3).blk t).view.emb j) + rowArr V c (ix2 0 ((((cfg8.win 3).blk t).view.emb j) 1)))
  have h0 : ((cfg8.win 0).blk t).view.emb j = ((cfg8.win 3).blk t).view.emb j := by
    funext a; apply Fin.ext
    match a with
    | ⟨0, _⟩ => show win8_0.index t (0 : Fin 2) * 4000 + 1 * (j 0).val = win8_3.index t (0 : Fin 2) * 4000 + 1 * (j 0).val; omega
    | ⟨1, _⟩ => show win8_0.index t (1 : Fin 2) * 128 + 1 * (j 1).val = win8_3.index t (1 : Fin 2) * 128 + 1 * (j 1).val; omega
  have h1 : ((cfg8.win 1).blk t).view.emb j = ((cfg8.win 3).blk t).view.emb j := by
    funext a; apply Fin.ext
    match a with
    | ⟨0, _⟩ => show win8_1.index t (0 : Fin 2) * 4000 + 1 * (j 0).val = win8_3.index t (0 : Fin 2) * 4000 + 1 * (j 0).val; omega
    | ⟨1, _⟩ => show win8_1.index t (1 : Fin 2) * 128 + 1 * (j 1).val = win8_3.index t (1 : Fin 2) * 128 + 1 * (j 1).val; omega
  have h2 : ((cfg8.win 2).blk t).view.emb (ix2 0 (j 1)) = ix2 0 ((((cfg8.win 3).blk t).view.emb j) 1) := by
    funext a; apply Fin.ext
    match a with
    | ⟨0, _⟩ => show win8_2.index t (0 : Fin 2) * 1 + 1 * 0 = 0; omega
    | ⟨1, _⟩ => show win8_2.index t (1 : Fin 2) * 128 + 1 * (j 1).val = win8_3.index t (1 : Fin 2) * 128 + 1 * (j 1).val; omega
  rw [h0, h1, h2]
  rfl

theorem mem_blk_relu (t : Fin cfg8.N) (i : S100000x128.Idx) :
    i ∈ ((cfg8.win 3).blk t).view.set ↔ ∀ a : Fin 2, win8_3.index t a * S4000x128.size a ≤ (i a).val
      ∧ (i a).val < win8_3.index t a * S4000x128.size a + S4000x128.size a := by
  show i ∈ ((View.whole main_v132_0).slice (win8_3.rect t)).set ↔ _
  rw [View.set_slice_whole, Rect.mem_set_unit]
  exact Iff.rfl

theorem cover_relu (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  obtain ⟨t, ht⟩ : ∃ t : Fin cfg8.N, t.val = (i 0).val / 4000 :=
    ⟨⟨(i 0).val / 4000, by rw [show cfg8.N = 25 from N_8]; omega⟩, rfl⟩
  obtain ⟨e00, e01, e10, e11, e20, e21, e30, e31, e40, e41⟩ := idx_facts t
  refine ⟨t, flush8_3 t, ?_⟩
  rw [mem_blk_relu]
  intro a
  match a with
  | ⟨0, _⟩ =>
    show win8_3.index t (0 : Fin 2) * 4000 ≤ (i 0).val ∧ (i 0).val < win8_3.index t (0 : Fin 2) * 4000 + 4000
    omega
  | ⟨1, _⟩ =>
    show win8_3.index t (1 : Fin 2) * 128 ≤ (i 1).val ∧ (i 1).val < win8_3.index t (1 : Fin 2) * 128 + 128
    omega

/-- The first output after the region, for any contents it finds. -/
theorem final_relu (c : Dev nD) :
    (dat8 V c).arrAt 3 cfg8.N = reluOf (xArr V c) (convArr V c) (rowArr V c) :=
  (dat8 V c).arrAt_eq_of_cover 3 _ (fun t _ => flushed_relu V c t) cover_relu

end Region

/-! ## The reference's operations, at an index -/

/-- The reference's buffers the last combination reads. -/
abbrev refX (Vr : RVal) : FVec Ideal S100000x128 .f32 := Vr (Proc.devRef .tc Cert.ReferenceIdeal.main_v192)
abbrev refConv (Vr : RVal) : FVec Ideal S100000x128 .f32 := Vr (Proc.devRef .tc Cert.ReferenceIdeal.main_v208)
abbrev refBias (Vr : RVal) : FVec Ideal S4x128 .f32 := Vr (Proc.devRef .tc Cert.ReferenceIdeal.main_arg5)

/-- The bias row broadcast over the nodes, as the reference builds it. -/
abbrev refBiasAll (Vr : RVal) : FVec Ideal S100000x128 .f32 :=
  broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1
      (shapeCast Cert.ReferenceIdeal.S128
        (extractStridedSlice Cert.ReferenceIdeal.S1x128 ![3, 0] (refBias Vr) Cert.ReferenceIdeal.Gen.slices_S4x128_S1x128_3_0)
        Cert.ReferenceIdeal.Gen.shapeCasts_S1x128_S128))

theorem ref_new (Vr : RVal) :
    StableHlo.after Cert.ReferenceIdeal.RunP.rc13 Vr (Proc.devRef .tc Cert.ReferenceIdeal.main_v214)
      = fun i => refX Vr i + (refConv Vr i + refBias Vr (ix2 3 (i 1))) := by
  have e : StableHlo.after Cert.ReferenceIdeal.RunP.rc13 Vr (Proc.devRef .tc Cert.ReferenceIdeal.main_v214)
      = addf (F := Ideal) (refX Vr) (addf (refConv Vr) (refBiasAll Vr)) := by
    after_results; rfl
  rw [e]
  funext i
  show refX Vr i + (refConv Vr i + refBiasAll Vr i) = _
  exact congrArg (fun z => refX Vr i + (refConv Vr i + z)) ((bcast_apply _ _ _ i).trans (row128_apply _ _ _ _))

theorem ref_relu (Vr : RVal) :
    StableHlo.after Cert.ReferenceIdeal.RunP.rc13 Vr (Proc.devRef .tc Cert.ReferenceIdeal.main_v215)
      = fun i => max (refX Vr i + (refConv Vr i + refBias Vr (ix2 3 (i 1)))) (Ideal.ofBits .f32 0x00000000#32) := by
  have e : StableHlo.after Cert.ReferenceIdeal.RunP.rc13 Vr (Proc.devRef .tc Cert.ReferenceIdeal.main_v215)
      = maximumf (F := Ideal) (addf (F := Ideal) (refX Vr) (addf (refConv Vr) (refBiasAll Vr)))
          (broadcastInDim Cert.ReferenceIdeal.S100000x128 ![] Cert.ReferenceIdeal.Gen.bcast_S_S100000x128
            (constant (F := Ideal) Cert.ReferenceIdeal.S_ .f32 0x00000000#32)) := by
    after_results; rfl
  rw [e]
  funext i
  have hb : refBiasAll Vr i = refBias Vr (ix2 3 (i 1)) := (bcast_apply _ _ _ i).trans (row128_apply _ _ _ _)
  have hzero : broadcastInDim Cert.ReferenceIdeal.S100000x128 ![] Cert.ReferenceIdeal.Gen.bcast_S_S100000x128
      (constant (F := Ideal) Cert.ReferenceIdeal.S_ .f32 0x00000000#32) i = Ideal.ofBits .f32 0x00000000#32 :=
    (broadcastInDim_apply _ _ _ i ix0 (fun a => a.elim0)).trans (constant_apply _ _)
  show max (refX Vr i + (refConv Vr i + refBiasAll Vr i)) _ = _
  exact congrArg₂ max (congrArg (fun z => refX Vr i + (refConv Vr i + z)) hb) hzero

/-! ## The two programs meet -/

/-- The bias row the region is handed, at feature `q`: the host operations before the region cut it out of the table
    and re-lay it twice. -/
theorem row_entry (Vr : RVal)
    (h5 : W18 m ρ c (Proc.devRef .tc main_arg5) = Vr (Proc.devRef .tc Cert.ReferenceIdeal.main_arg5)) (q : Fin 128) :
    rowArr (V19 m ρ) c (ix2 0 q) = refBias Vr (ix2 3 q) := by
  have e : rowArr (V19 m ρ) c
      = shapeCast S1x128 (shapeCast S128 (extractStridedSlice S1x128 ![3, 0]
          (W18 m ρ c (Proc.devRef .tc main_arg5) : FVec Ideal S4x128 .f32) slices_S4x128_S1x128_3_0)
          shapeCasts_S1x128_S128) shapeCasts_S128_S1x128 := by
    show StableHlo.after hostOps8 (W18 m ρ c) (Proc.devRef .tc main_v131) = _
    after_results; rfl
  rw [e, row1x128_apply, h5]

/-- The last layer's combination: the kernel's ninth region leaves `x + (conv + bias)` in its second output and
    its positive part in its first; the reference computes both by host operations. -/
theorem step (Vr : RVal)
    (hx : W19 m ρ c (Proc.devRef .tc main_v112_0) = Vr (Proc.devRef .tc Cert.ReferenceIdeal.main_v192))
    (hconv : W19 m ρ c (Proc.devRef .tc main_v128) = Vr (Proc.devRef .tc Cert.ReferenceIdeal.main_v208))
    (h5 : W18 m ρ c (Proc.devRef .tc main_arg5) = Vr (Proc.devRef .tc Cert.ReferenceIdeal.main_arg5)) :
    W20 m ρ c (Proc.devRef .tc main_v132_1) = StableHlo.after Cert.ReferenceIdeal.RunP.rc13 Vr (Proc.devRef .tc Cert.ReferenceIdeal.main_v214)
    ∧ W20 m ρ c (Proc.devRef .tc main_v132_0) = StableHlo.after Cert.ReferenceIdeal.RunP.rc13 Vr (Proc.devRef .tc Cert.ReferenceIdeal.main_v215) := by
  have hx' : xArr (V19 m ρ) c = refX Vr := hx
  have hconv' : convArr (V19 m ρ) c = refConv Vr := hconv
  have hnew : ∀ i : S100000x128.Idx, newOf (xArr (V19 m ρ) c) (convArr (V19 m ρ) c) (rowArr (V19 m ρ) c) i
      = refX Vr i + (refConv Vr i + refBias Vr (ix2 3 (i 1))) := fun i => by
    have hrow : rowArr (V19 m ρ) c (ix2 0 (i 1)) = refBias Vr (ix2 3 (i 1)) := row_entry m ρ c Vr h5 (i 1)
    show xArr (V19 m ρ) c i + (convArr (V19 m ρ) c i + rowArr (V19 m ρ) c (ix2 0 (i 1))) = _
    rw [hrow, hx', hconv']
  constructor
  · rw [ref_new]
    refine ((W20_arr m ρ c 4).trans (final_new (V19 m ρ) c)).trans ?_
    exact funext hnew
  · rw [ref_relu]
    refine ((W20_arr m ρ c 3).trans (final_relu (V19 m ρ) c)).trans ?_
    exact funext fun i => congrArg (fun z => max z (Ideal.ofBits .f32 0x00000000#32)) (hnew i)

end Cert.Bridge.Fin

end
-- ==== Proof.Dense.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

/-! # The dense readout

The last part of the network: the rows of the final node features named by the premise indices are gathered, each
gathered row goes through two hidden layers (row times matrix, plus bias, clipped below at zero) and a projection to one
number plus a bias, and the column of scores is flattened. The kernel does the gather and the reshapes on the host and
the arithmetic in its tenth region, block of 2000 rows by block; the reference does everything by host operations.
At the exact instance every product is a plain sum over the 128 shared coordinates, so both sides are, entry by entry,
the same function of the gathered row and the parameters. -/

set_option maxRecDepth 16384

noncomputable section

namespace Cert.Bridge.Dense

open Idealize.ShloMosaic Idealize.ShloMosaic.TcCoe Idealize.SL.Sem Idealize.ShloMosaic.StableHlo
open Cert.KernelIdeal Cert.KernelIdeal.Gen
open Idealize.ShloMosaic.ValueIdx
open scoped BigOperators

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-! ## The readout at one row

One row of 128 gathered features goes through two hidden layers, each the row times a weight matrix plus a bias,
clipped below at zero, and then the output projection to one number plus its bias; every product is a sum over the
128 shared coordinates. -/

/-- A hidden layer at one row: the row times the weight matrix, plus the bias, clipped below at zero. -/
def hid (h : Fin 128 → EReal) (W : Fin 128 → Fin 128 → EReal) (b : Fin 128 → EReal) : Fin 128 → EReal :=
  fun q => max ((∑ k : Fin 128, h k * W k q) + b q) (Ideal.ofBits .f32 0x00000000#32)

/-- The score of one row: two hidden layers, then the projection to one number plus its bias. -/
def score (h : Fin 128 → EReal) (W0 W1 : Fin 128 → Fin 128 → EReal) (b0 b1 : Fin 128 → EReal)
    (wo : Fin 128 → EReal) (bo : EReal) : EReal :=
  (∑ k : Fin 128, hid (hid h W0 b0) W1 b1 k * wo k) + bo

/-- Equal arguments give equal scores. -/
theorem score_congr {h h' : Fin 128 → EReal} {W0 W0' W1 W1' : Fin 128 → Fin 128 → EReal} {b0 b0' b1 b1' : Fin 128 → EReal}
    {wo wo' : Fin 128 → EReal} {bo bo' : EReal} (e1 : h = h') (e2 : W0 = W0') (e3 : W1 = W1') (e4 : b0 = b0')
    (e5 : b1 = b1') (e6 : wo = wo') (e7 : bo = bo') :
    score h W0 W1 b0 b1 wo bo = score h' W0' W1' b0' b1' wo' bo' := by
  subst e1 e2 e3 e4 e5 e6 e7; rfl

/-! ## The products' operand indices, axis by axis -/

theorem kh_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem kh_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem kh_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem kh_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The contraction over the one shared axis, re-indexed by its coordinate. -/
theorem kh_sum (a : S2000x128.Idx → EReal) (w : S128x128.Idx → EReal) (p : Fin 2000) (q : Fin 128) :
    (∑ k : dot_S2000x128_S128x128_S2000x128_1_0_0_1_n_n.contr.Idx, a (dot_S2000x128_S128x128_S2000x128_1_0_0_1_n_n.lhsIdx (ix2 p q) k) * w (dot_S2000x128_S128x128_S2000x128_1_0_0_1_n_n.rhsIdx (ix2 p q) k))
      = ∑ k : Fin 128, a (ix2 p k) * w (ix2 k q) := by
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact kh_l0 _ _
    | ⟨1, _⟩ => exact (kh_l1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (kh_r0 _ _).trans hk
    | ⟨1, _⟩ => exact kh_r1 _ _)
  rw [el, er]

theorem ko_l0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem ko_l1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem ko_r0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem ko_r1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl
/-- The contraction over the one shared axis, re-indexed by its coordinate. -/
theorem ko_sum (a : S2000x128.Idx → EReal) (w : S128x1.Idx → EReal) (p : Fin 2000) (q : Fin 1) :
    (∑ k : dot_S2000x128_S128x1_S2000x1_1_0_0_1_n_n.contr.Idx, a (dot_S2000x128_S128x1_S2000x1_1_0_0_1_n_n.lhsIdx (ix2 p q) k) * w (dot_S2000x128_S128x1_S2000x1_1_0_0_1_n_n.rhsIdx (ix2 p q) k))
      = ∑ k : Fin 128, a (ix2 p k) * w (ix2 k q) := by
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact ko_l0 _ _
    | ⟨1, _⟩ => exact (ko_l1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (ko_r0 _ _).trans hk
    | ⟨1, _⟩ => exact ko_r1 _ _)
  rw [el, er]

/-! ## The kernel body's arithmetic at one row of a block -/

/-- The product of a block of 2000 rows with a 128 by 128 matrix into the zero accumulator, at an entry. -/
theorem mm_kh (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) :=
  (Ideal.matmul_constant_zero_apply _ _ a w (ix2 p q)).trans (kh_sum a w p q)

/-- The product of a block of 2000 rows with the output column into the zero accumulator, at an entry. -/
theorem mm_ko (a : FVec Ideal S2000x128 .bf16) (w : FVec Ideal S128x1 .bf16) (p : Fin 2000) (z : Fin 1) :
    matmul dot_S2000x128_S128x1_S2000x1_1_0_0_1_n_n none a w (constant (F := Ideal) S2000x1 .f32 0x00000000#32) (ix2 p z)
      = ∑ k : Fin 128, a (ix2 p k) * w (ix2 k z) :=
  (Ideal.matmul_constant_zero_apply _ _ a w (ix2 p z)).trans (ko_sum a w p z)

/-- One matrix of the stack with its unit leading axis dropped. -/
theorem k_mat {α : Type} (v : S1x128x128.Idx → α) (h : S1x128x128.ShapeCasts S128x128) (k q : Fin 128) :
    shapeCast S128x128 v h (ix2 k q) = v (ix3 0 k q) :=
  shapeCast_apply v h (ix2 k q) (ix3 0 k q) (by
    rewrite [Shape.rowMajor_val_three, Shape.rowMajor_val_two]
    show (0 * 128 + k.val) * 128 + q.val = k.val * 128 + q.val
    omega)

/-- One bias row of the stack, its unit axes dropped, repeated down the 2000 rows. -/
theorem k_bias {α : Type} (v : S1x1x128.Idx → α) (h : S1x1x128.ShapeCasts S1x128) (h' : S1x128.Broadcasts S2000x128)
    (p : Fin 2000) (q : Fin 128) :
    broadcastTo S2000x128 (shapeCast S1x128 v h) h' (ix2 p q) = v (ix3 0 0 q) := by
  refine (broadcastTo_apply _ h' (ix2 p q) (ix2 0 q) (fun a => ?_)).trans ?_
  · match a with
    | ⟨0, _⟩ => rfl
    | ⟨1, _⟩ => rfl
  · exact shapeCast_apply v h (ix2 0 q) (ix3 0 0 q) (by
      rewrite [Shape.rowMajor_val_three, Shape.rowMajor_val_two]
      show (0 * 1 + 0) * 128 + q.val = 0 * 128 + q.val
      omega)

/-- The output bias, one number, repeated down the 2000 rows. -/
theorem k_bout {α : Type} (v : S1x1.Idx → α) (h' : S1x1.Broadcasts S2000x1)
    (p : Fin 2000) (z : Fin 1) :
    broadcastTo S2000x1 v h' (ix2 p z) = v (ix2 0 0) := by
  refine broadcastTo_apply _ h' (ix2 p z) (ix2 0 0) (fun a => ?_)
  match a with
  | ⟨0, _⟩ => rfl
  | ⟨1, _⟩ => rfl

/-- THE BODY AT ONE ROW: row p of what the body stores is the score of row p of the feature block under the two
    matrices and bias rows it loaded and the output column and bias. -/
theorem pay_apply (v0 : Vec Ideal S2000x128 .f32) (v2 : Vec Ideal S1x128x128 .f32) (v5 : Vec Ideal S1x1x128 .f32)
    (v13 : Vec Ideal S1x128x128 .f32) (v16 : Vec Ideal S1x1x128 .f32) (v24 : Vec Ideal S128x1 .f32) (v26 : Vec Ideal S1x1 .f32)
    (p : Fin 2000) (z : Fin 1) :
    k9_pay1 v0 v2 v5 v13 v16 v24 v26 (ix2 p z)
      = score (fun k => v0 (ix2 p k)) (fun k q => v2 (ix3 0 k q)) (fun k q => v13 (ix3 0 k q))
          (fun q => v5 (ix3 0 0 q)) (fun q => v16 (ix3 0 0 q)) (fun k => v24 (ix2 k z)) (v26 (ix2 0 0)) := by
  unfold k9_pay1 score hid
  simp only [addf_apply, maximumf_apply, truncf_apply, broadcast_apply, shapeCast_self, mm_kh, mm_ko, k_mat, k_bias, k_bout]
  rfl

/-! ## The tenth region: what it leaves in its output array, for any entry contents

The region walks the 20000 gathered rows in ten blocks of 2000; every point sees the whole weight stack, bias stack,
output column and output bias, and writes the 2000 scores of its rows. So the output array ends as the column of
scores of all rows. -/

section Region

variable (V : (c : Dev nD) → (b : Ref sig .tc) → Buf (Elt Ideal) ((c : Thread nD τ).loc b))

theorem hz2 : (![0, 0] : Fin 2 → Nat) = fun _ => 0 := funext fun a => by fin_cases a <;> rfl

/-- The column of scores: entry (r, 0) is the score of row r of the features under the two matrices and bias rows
    of the stacks and the output column and bias. -/
def G (h0 : FVec Ideal S20000x128 .f32) (Wd : FVec Ideal S2x128x128 .f32) (bd : FVec Ideal S2x1x128 .f32)
    (wo : FVec Ideal S128x1 .f32) (bo : FVec Ideal S1x1 .f32) : FVec Ideal S20000x1 .f32 :=
  fun i => score (fun k => h0 (ix2 (i 0) k)) (fun k q => Wd (ix3 0 k q)) (fun k q => Wd (ix3 1 k q))
    (fun q => bd (ix3 0 0 q)) (fun q => bd (ix3 1 0 q)) (fun k => wo (ix2 k (i 1))) (bo (ix2 0 0))

/-- The five input windows' blocks at a point, and the five arrays they are cut from, at their literal shapes. -/
abbrev xb0 (c : Dev nD) (t : Fin cfg9.N) : Vec Ideal S2000x128 .f32 := iblk9 V c 0 t
abbrev xb1 (c : Dev nD) (t : Fin cfg9.N) : Vec Ideal S2x128x128 .f32 := iblk9 V c 1 t
abbrev xb2 (c : Dev nD) (t : Fin cfg9.N) : Vec Ideal S2x1x128 .f32 := iblk9 V c 2 t
abbrev xb3 (c : Dev nD) (t : Fin cfg9.N) : Vec Ideal S128x1 .f32 := iblk9 V c 3 t
abbrev xb4 (c : Dev nD) (t : Fin cfg9.N) : Vec Ideal S1x1 .f32 := iblk9 V c 4 t
abbrev a0 (c : Dev nD) : FVec Ideal S20000x128 .f32 := V c main_v139
abbrev a1 (c : Dev nD) : FVec Ideal S2x128x128 .f32 := V c main_arg8
abbrev a2 (c : Dev nD) : FVec Ideal S2x1x128 .f32 := V c main_v140
abbrev a3 (c : Dev nD) : FVec Ideal S128x1 .f32 := V c main_arg10
abbrev a4 (c : Dev nD) : FVec Ideal S1x1 .f32 := V c main_v141

/-- The index maps over the ten points: the feature and score windows move one block of rows per point, the four
    parameter windows stay at their whole arrays. -/
theorem idx_facts : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (0 : Fin 3) = 0 ∧ win9_1.index t (1 : Fin 3) = 0 ∧ win9_1.index t (2 : Fin 3) = 0
    ∧ win9_2.index t (0 : Fin 3) = 0 ∧ win9_2.index t (1 : Fin 3) = 0 ∧ win9_2.index t (2 : Fin 3) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- Row p of the feature block at point t is row 2000 t + p of the feature array. -/
theorem xb0_apply (c : Dev nD) (t : Fin cfg9.N) (p : Fin 2000) (k : Fin 128) (i : S20000x128.Idx)
    (hi0 : (i 0).val = t.val * 2000 + p.val) (hi1 : (i 1).val = k.val) :
    xb0 V c t (ix2 p k) = a0 V c i := by
  obtain ⟨e00, e01, -⟩ := idx_facts t
  show iblk9 V c 0 t (ix2 p k) = _
  unfold iblk9
  rw [View.read_apply]
  show V c main_v139 _ = V c main_v139 _
  congr 1
  funext a
  apply Fin.ext
  match a with
  | ⟨0, _⟩ => show win9_0.index t (0 : Fin 2) * 2000 + 1 * p.val = (i 0).val; rw [e00, hi0]; omega
  | ⟨1, _⟩ => show win9_0.index t (1 : Fin 2) * 128 + 1 * k.val = (i 1).val; rw [e01, hi1]; omega

/-- The weight stack's block at every point is the whole stack. -/
theorem xb1_eq (c : Dev nD) (t : Fin cfg9.N) : xb1 V c t = a1 V c := by
  obtain ⟨-, -, -, -, e0, e1, e2, -⟩ := idx_facts t
  funext y
  show iblk9 V c 1 t y = _
  unfold iblk9
  rw [View.read_apply]
  show V c main_arg8 _ = V c main_arg8 _
  congr 1
  funext a
  apply Fin.ext
  match a with
  | ⟨0, _⟩ => show win9_1.index t (0 : Fin 3) * 2 + 1 * (y 0).val = (y 0).val; rw [e0]; omega
  | ⟨1, _⟩ => show win9_1.index t (1 : Fin 3) * 128 + 1 * (y 1).val = (y 1).val; rw [e1]; omega
  | ⟨2, _⟩ => show win9_1.index t (2 : Fin 3) * 128 + 1 * (y 2).val = (y 2).val; rw [e2]; omega

/-- The bias stack's block at every point is the whole stack. -/
theorem xb2_eq (c : Dev nD) (t : Fin cfg9.N) : xb2 V c t = a2 V c := by
  obtain ⟨-, -, -, -, -, -, -, e0, e1, e2, -⟩ := idx_facts t
  funext y
  show iblk9 V c 2 t y = _
  unfold iblk9
  rw [View.read_apply]
  show V c main_v140 _ = V c main_v140 _
  congr 1
  funext a
  apply Fin.ext
  match a with
  | ⟨0, _⟩ => show win9_2.index t (0 : Fin 3) * 2 + 1 * (y 0).val = (y 0).val; rw [e0]; omega
  | ⟨1, _⟩ => show win9_2.index t (1 : Fin 3) * 1 + 1 * (y 1).val = (y 1).val; rw [e1]; omega
  | ⟨2, _⟩ => show win9_2.index t (2 : Fin 3) * 128 + 1 * (y 2).val = (y 2).val; rw [e2]; omega

/-- The output column's block at every point is the whole column. -/
theorem xb3_eq (c : Dev nD) (t : Fin cfg9.N) : xb3 V c t = a3 V c := by
  obtain ⟨-, -, -, -, -, -, -, -, -, -, e0, e1, -⟩ := idx_facts t
  funext y
  show iblk9 V c 3 t y = _
  unfold iblk9
  rw [View.read_apply]
  show V c main_arg10 _ = V c main_arg10 _
  congr 1
  funext a
  apply Fin.ext
  match a with
  | ⟨0, _⟩ => show win9_3.index t (0 : Fin 2) * 128 + 1 * (y 0).val = (y 0).val; rw [e0]; omega
  | ⟨1, _⟩ => show win9_3.index t (1 : Fin 2) * 1 + 1 * (y 1).val = (y 1).val; rw [e1]; omega

/-- The output bias's block at every point is the whole one-entry array. -/
theorem xb4_eq (c : Dev nD) (t : Fin cfg9.N) : xb4 V c t = a4 V c := by
  obtain ⟨-, -, -, -, -, -, -, -, -, -, -, -, e0, e1⟩ := idx_facts t
  funext y
  show iblk9 V c 4 t y = _
  unfold iblk9
  rw [View.read_apply]
  show V c main_v141 _ = V c main_v141 _
  congr 1
  funext a
  apply Fin.ext
  match a with
  | ⟨0, _⟩ => show win9_4.index t (0 : Fin 2) * 1 + 1 * (y 0).val = (y 0).val; rw [e0]; omega
  | ⟨1, _⟩ => show win9_4.index t (1 : Fin 2) * 1 + 1 * (y 1).val = (y 1).val; rw [e1]; omega

/-- Matrix s of the stack, loaded through its rectangle. -/
theorem ld_mat (x : Vec Ideal S2x128x128 .f32) (s : Fin 2) (off : Fin 3 → Nat) (hoff : off = ![s.val, 0, 0])
    (inb : ∀ a, off a + S1x128x128.size a ≤ S2x128x128.size a) (k q : Fin 128) :
    View.ld x (Rect.unit (s := S2x128x128) off S1x128x128.size inb) (ix3 0 k q) = x (ix3 s k q) := by
  subst hoff
  show x _ = x _
  congr 1
  funext a
  apply Fin.ext
  match a with
  | ⟨0, _⟩ => show s.val + 1 * 0 = s.val; omega
  | ⟨1, _⟩ => show 0 + 1 * k.val = k.val; omega
  | ⟨2, _⟩ => show 0 + 1 * q.val = q.val; omega

/-- Bias row s of the stack, loaded through its rectangle. -/
theorem ld_bias (x : Vec Ideal S2x1x128 .f32) (s : Fin 2) (off : Fin 3 → Nat) (hoff : off = ![s.val, 0, 0])
    (inb : ∀ a, off a + S1x1x128.size a ≤ S2x1x128.size a) (q : Fin 128) :
    View.ld x (Rect.unit (s := S2x1x128) off S1x1x128.size inb) (ix3 0 0 q) = x (ix3 s 0 q) := by
  subst hoff
  show x _ = x _
  congr 1
  funext a
  apply Fin.ext
  match a with
  | ⟨0, _⟩ => show s.val + 1 * 0 = s.val; omega
  | ⟨1, _⟩ => show 0 + 1 * 0 = 0; omega
  | ⟨2, _⟩ => show 0 + 1 * q.val = q.val; omega

/-- WHAT POINT t WRITES BACK is block t of the column of scores of the arrays as the region finds them. -/
theorem flushed_eq (c : Dev nD) (t : Fin cfg9.N) :
    (dat9 V c).flushed 5 t
      = ((cfg9.win 5).blk t).view.read (Elt Ideal) (G (a0 V c) (a1 V c) (a2 V c) (a3 V c) (a4 V c)) := by
  show (cfg9.win 5).cut (grid9.coords t) ((dat9 V c).after 5 t) = _
  rw [after9_5]
  unfold out9_5
  rw [View.canon_unit_zero hz2]
  simp only [View.ld_unit_zero (S := S2000x128) hz2, View.ld_unit_zero (S := S128x1) hz2, View.ld_unit_zero (S := S1x1) hz2]
  obtain ⟨-, -, e50, e51, -⟩ := idx_facts t
  funext y
  obtain ⟨p, z, rfl⟩ : ∃ (p : Fin 2000) (z : Fin 1), y = ix2 p z := ⟨y 0, y 1, eq_ix2 y⟩
  rw [View.read_apply]
  refine (pay_apply (xb0 V c t) (View.ld (xb1 V c t) r9_1) (View.ld (xb2 V c t) r9_2) (View.ld (xb1 V c t) r9_3)
    (View.ld (xb2 V c t) r9_4) (xb3 V c t) (xb4 V c t) p z).trans ?_
  rw [xb1_eq, xb2_eq, xb3_eq, xb4_eq]
  show score _ _ _ _ _ _ _ = score _ _ _ _ _ _ _
  refine score_congr ?_ ?_ ?_ ?_ ?_ ?_ rfl
  · funext k
    exact xb0_apply V c t p k _ (by
      show win9_5.index t (0 : Fin 2) * 2000 + 1 * p.val = t.val * 2000 + p.val
      rw [e50]; omega) rfl
  · funext k q; exact ld_mat (a1 V c) 0 _ rfl _ k q
  · funext k q; exact ld_mat (a1 V c) 1 _ rfl _ k q
  · funext q; exact ld_bias (a2 V c) 0 _ rfl _ q
  · funext q; exact ld_bias (a2 V c) 1 _ rfl _ q
  · funext k
    refine congrArg (a3 V c) (funext fun a => Fin.ext ?_)
    match a with
    | ⟨0, _⟩ => rfl
    | ⟨1, _⟩ => show z.val = win9_5.index t (1 : Fin 2) * 1 + 1 * z.val; rw [e51]; omega

/-- An index of the score array is in point t's block iff each coordinate is in the block's range on its axis. -/
theorem mem_blk (t : Fin cfg9.N) (i : S20000x1.Idx) :
    i ∈ ((cfg9.win 5).blk t).view.set ↔ ∀ a : Fin 2, win9_5.index t a * S2000x1.size a ≤ (i a).val
      ∧ (i a).val < win9_5.index t a * S2000x1.size a + S2000x1.size a := by
  show i ∈ ((View.whole main_v142).slice (win9_5.rect t)).set ↔ _
  rw [View.set_slice_whole, Rect.mem_set_unit]
  exact Iff.rfl

/-- Every row is in the block of the point numbered by the row's quotient by 2000. -/
theorem cover (i : S20000x1.Idx) :
    ∃ t : Fin cfg9.N, (cfg9.win 5).flush t = true ∧ i ∈ ((cfg9.win 5).blk t).view.set := by
  have h0 : (i 0).val < 20000 := idx2_lt0 i
  have h1 : (i 1).val < 1 := idx2_lt1 i
  have hN : cfg9.N = 10 := N_9
  obtain ⟨t, ht⟩ : ∃ t : Fin cfg9.N, t.val = (i 0).val / 2000 := ⟨⟨(i 0).val / 2000, by rw [hN]; omega⟩, rfl⟩
  obtain ⟨-, -, e50, e51, -⟩ := idx_facts t
  refine ⟨t, flush9_5 t, ?_⟩
  rw [mem_blk]
  intro a
  match a with
  | ⟨0, _⟩ =>
    show win9_5.index t (0 : Fin 2) * 2000 ≤ (i 0).val ∧ (i 0).val < win9_5.index t (0 : Fin 2) * 2000 + 2000
    rw [e50, ht]; omega
  | ⟨1, _⟩ =>
    show win9_5.index t (1 : Fin 2) * 1 ≤ (i 1).val ∧ (i 1).val < win9_5.index t (1 : Fin 2) * 1 + 1
    rw [e51]; omega

/-- THE REGION'S OUTPUT ARRAY after the ten points: the column of scores of the arrays as the region finds them. -/
theorem region_out (c : Dev nD) :
    (dat9 V c).arrAt 5 cfg9.N = G (a0 V c) (a1 V c) (a2 V c) (a3 V c) (a4 V c) :=
  (dat9 V c).arrAt_eq_of_cover 5 (G (a0 V c) (a1 V c) (a2 V c) (a3 V c) (a4 V c)) (fun t _ => flushed_eq V c t) cover

end Region

/-! ## The reference's last stretch at one row -/

theorem rh_l0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch by decide), dif_pos (show (0 : Fin Cert.ReferenceIdeal.S20000x128.rank) ∈ Cert.ReferenceIdeal.dot_S20000x128_S128x128_S20000x128_1_0_0_1_n_n.lhsNonContracting by decide)]
  rfl
theorem rh_l1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, by decide⟩).val :=
  Cert.ReferenceIdeal.dot_S20000x128_S128x128_S20000x128_1_0_0_1_n_n.lhsIdx_val_of_single rfl i q
theorem rh_r0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, by decide⟩).val :=
  Cert.ReferenceIdeal.dot_S20000x128_S128x128_S20000x128_1_0_0_1_n_n.rhsIdx_val_of_single rfl i q
theorem rh_r1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch by decide), dif_pos (show (1 : Fin Cert.ReferenceIdeal.S128x128.rank) ∈ Cert.ReferenceIdeal.dot_S20000x128_S128x128_S20000x128_1_0_0_1_n_n.rhsNonContracting by decide)]
  rfl
/-- The contraction over the one shared axis, re-indexed by its coordinate. -/
theorem rh_sum (a : Cert.ReferenceIdeal.S20000x128.Idx → EReal) (w : Cert.ReferenceIdeal.S128x128.Idx → EReal) (p : Fin 20000) (q : Fin 128) :
    (∑ k : Cert.ReferenceIdeal.dot_S20000x128_S128x128_S20000x128_1_0_0_1_n_n.contr.Idx, a (Cert.ReferenceIdeal.dot_S20000x128_S128x128_S20000x128_1_0_0_1_n_n.lhsIdx (ix2 p q) k) * w (Cert.ReferenceIdeal.dot_S20000x128_S128x128_S20000x128_1_0_0_1_n_n.rhsIdx (ix2 p q) k))
      = ∑ k : Fin 128, a (ix2 p k) * w (ix2 k q) := by
  rw [← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := funext fun a => Fin.ext (by
    match a with
    | ⟨0, _⟩ => exact rh_l0 _ _
    | ⟨1, _⟩ => exact (rh_l1 _ _).trans hk)
  have er : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := funext fun a => Fin.ext (by
    match a with
    | ⟨0, _⟩ => exact (rh_r0 _ _).trans hk
    | ⟨1, _⟩ => exact rh_r1 _ _)
  rw [el, er]

theorem ro_l0 (i : Cert.ReferenceIdeal.S20000x1.Idx) (q : Cert.ReferenceIdeal.dot_S20000x128_S128x1_S20000x1_1_0_0_1_n_n.contr.Idx) :
    (Cert.ReferenceIdeal.dot_S20000x128_S128x1_S20000x1_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x1_S20000x1_1_0_0_1_n_n.lhsBatch by decide), dif_pos (show (0 : Fin Cert.ReferenceIdeal.S20000x128.rank) ∈ Cert.ReferenceIdeal.dot_S20000x128_S128x1_S20000x1_1_0_0_1_n_n.lhsNonContracting by decide)]
  rfl
theorem ro_l1 (i : Cert.ReferenceIdeal.S20000x1.Idx) (q : Cert.ReferenceIdeal.dot_S20000x128_S128x1_S20000x1_1_0_0_1_n_n.contr.Idx) :
    (Cert.ReferenceIdeal.dot_S20000x128_S128x1_S20000x1_1_0_0_1_n_n.lhsIdx i q 1).val = (q ⟨0, by decide⟩).val :=
  Cert.ReferenceIdeal.dot_S20000x128_S128x1_S20000x1_1_0_0_1_n_n.lhsIdx_val_of_single rfl i q
theorem ro_r0 (i : Cert.ReferenceIdeal.S20000x1.Idx) (q : Cert.ReferenceIdeal.dot_S20000x128_S128x1_S20000x1_1_0_0_1_n_n.contr.Idx) :
    (Cert.ReferenceIdeal.dot_S20000x128_S128x1_S20000x1_1_0_0_1_n_n.rhsIdx i q 0).val = (q ⟨0, by decide⟩).val :=
  Cert.ReferenceIdeal.dot_S20000x128_S128x1_S20000x1_1_0_0_1_n_n.rhsIdx_val_of_single rfl i q
theorem ro_r1 (i : Cert.ReferenceIdeal.S20000x1.Idx) (q : Cert.ReferenceIdeal.dot_S20000x128_S128x1_S20000x1_1_0_0_1_n_n.contr.Idx) :
    (Cert.ReferenceIdeal.dot_S20000x128_S128x1_S20000x1_1_0_0_1_n_n.rhsIdx i q 1).val = (i 1).val := by
  unfold DotDims.rhsIdx
  rw [dif_neg (show ¬(1 : Fin Cert.ReferenceIdeal.S128x1.rank) ∈ Cert.ReferenceIdeal.dot_S20000x128_S128x1_S20000x1_1_0_0_1_n_n.rhsBatch by decide), dif_pos (show (1 : Fin Cert.ReferenceIdeal.S128x1.rank) ∈ Cert.ReferenceIdeal.dot_S20000x128_S128x1_S20000x1_1_0_0_1_n_n.rhsNonContracting by decide)]
  rfl
/-- The contraction over the one shared axis, re-indexed by its coordinate. -/
theorem ro_sum (a : Cert.ReferenceIdeal.S20000x128.Idx → EReal) (w : Cert.ReferenceIdeal.S128x1.Idx → EReal) (p : Fin 20000) (q : Fin 1) :
    (∑ k : Cert.ReferenceIdeal.dot_S20000x128_S128x1_S20000x1_1_0_0_1_n_n.contr.Idx, a (Cert.ReferenceIdeal.dot_S20000x128_S128x1_S20000x1_1_0_0_1_n_n.lhsIdx (ix2 p q) k) * w (Cert.ReferenceIdeal.dot_S20000x128_S128x1_S20000x1_1_0_0_1_n_n.rhsIdx (ix2 p q) k))
      = ∑ k : Fin 128, a (ix2 p k) * w (ix2 k q) := by
  rw [← Equiv.sum_comp (contrEquiv1 Cert.ReferenceIdeal.dot_S20000x128_S128x1_S20000x1_1_0_0_1_n_n 128 rfl rfl).symm]
  refine Finset.sum_congr rfl fun k _ => ?_
  have hk := contrEquiv1_symm_val Cert.ReferenceIdeal.dot_S20000x128_S128x1_S20000x1_1_0_0_1_n_n 128 rfl rfl k
  have el : Cert.ReferenceIdeal.dot_S20000x128_S128x1_S20000x1_1_0_0_1_n_n.lhsIdx (ix2 p q) ((contrEquiv1 Cert.ReferenceIdeal.dot_S20000x128_S128x1_S20000x1_1_0_0_1_n_n 128 rfl rfl).symm k) = ix2 p k := funext fun a => Fin.ext (by
    match a with
    | ⟨0, _⟩ => exact ro_l0 _ _
    | ⟨1, _⟩ => exact (ro_l1 _ _).trans hk)
  have er : Cert.ReferenceIdeal.dot_S20000x128_S128x1_S20000x1_1_0_0_1_n_n.rhsIdx (ix2 p q) ((contrEquiv1 Cert.ReferenceIdeal.dot_S20000x128_S128x1_S20000x1_1_0_0_1_n_n 128 rfl rfl).symm k) = ix2 k q := funext fun a => Fin.ext (by
    match a with
    | ⟨0, _⟩ => exact (ro_r0 _ _).trans hk
    | ⟨1, _⟩ => exact ro_r1 _ _)
  rw [el, er]

/-- The reference's product of the 20000 rows with a 128 by 128 matrix, at an entry. -/
theorem mm_rh (a : FVec Ideal Cert.ReferenceIdeal.S20000x128 .f32) (w : FVec Ideal Cert.ReferenceIdeal.S128x128 .f32) (p : Fin 20000) (q : Fin 128) :
    Host.dotGeneral Cert.ReferenceIdeal.dot_S20000x128_S128x128_S20000x128_1_0_0_1_n_n none a w (ix2 p q)
      = ∑ k : Fin 128, a (ix2 p k) * w (ix2 k q) :=
  (Ideal.dotGeneral_apply _ _ _ a w (ix2 p q)).trans (rh_sum a w p q)

/-- The reference's product of the 20000 rows with the output column, at an entry. -/
theorem mm_ro (a : FVec Ideal Cert.ReferenceIdeal.S20000x128 .f32) (w : FVec Ideal Cert.ReferenceIdeal.S128x1 .f32) (p : Fin 20000) (z : Fin 1) :
    Host.dotGeneral Cert.ReferenceIdeal.dot_S20000x128_S128x1_S20000x1_1_0_0_1_n_n none a w (ix2 p z)
      = ∑ k : Fin 128, a (ix2 p k) * w (ix2 k z) :=
  (Ideal.dotGeneral_apply _ _ _ a w (ix2 p z)).trans (ro_sum a w p z)

/-- Matrix 0 of the stack, sliced out and its unit axis dropped. -/
theorem r_mat0 {α : Type} (W : Cert.ReferenceIdeal.S2x128x128.Idx → α) (h : Cert.ReferenceIdeal.S2x128x128.Slices ![0, 0, 0] Cert.ReferenceIdeal.S1x128x128)
    (h' : Cert.ReferenceIdeal.S1x128x128.ShapeCasts Cert.ReferenceIdeal.S128x128) :
    shapeCast Cert.ReferenceIdeal.S128x128 (extractStridedSlice Cert.ReferenceIdeal.S1x128x128 ![0, 0, 0] W h) h' = fun j => W (ix3 0 (j 0) (j 1)) := by
  funext j
  obtain ⟨k, q, rfl⟩ : ∃ (k q : Fin 128), j = ix2 k q := ⟨j 0, j 1, eq_ix2 j⟩
  refine (shapeCast_apply _ h' (ix2 k q) (ix3 0 k q) (by
    rewrite [Shape.rowMajor_val_three, Shape.rowMajor_val_two]
    show (0 * 128 + k.val) * 128 + q.val = k.val * 128 + q.val
    omega)).trans ?_
  refine extractStridedSlice_apply _ W h (ix3 0 k q) (ix3 0 k q) (fun a => ?_)
  match a with
  | ⟨0, _⟩ => rfl
  | ⟨1, _⟩ => show k.val = 0 + k.val; omega
  | ⟨2, _⟩ => show q.val = 0 + q.val; omega

/-- Matrix 1 of the stack, sliced out and its unit axis dropped. -/
theorem r_mat1 {α : Type} (W : Cert.ReferenceIdeal.S2x128x128.Idx → α) (h : Cert.ReferenceIdeal.S2x128x128.Slices ![1, 0, 0] Cert.ReferenceIdeal.S1x128x128)
    (h' : Cert.ReferenceIdeal.S1x128x128.ShapeCasts Cert.ReferenceIdeal.S128x128) :
    shapeCast Cert.ReferenceIdeal.S128x128 (extractStridedSlice Cert.ReferenceIdeal.S1x128x128 ![1, 0, 0] W h) h' = fun j => W (ix3 1 (j 0) (j 1)) := by
  funext j
  obtain ⟨k, q, rfl⟩ : ∃ (k q : Fin 128), j = ix2 k q := ⟨j 0, j 1, eq_ix2 j⟩
  refine (shapeCast_apply _ h' (ix2 k q) (ix3 0 k q) (by
    rewrite [Shape.rowMajor_val_three, Shape.rowMajor_val_two]
    show (0 * 128 + k.val) * 128 + q.val = k.val * 128 + q.val
    omega)).trans ?_
  refine extractStridedSlice_apply _ W h (ix3 0 k q) (ix3 1 k q) (fun a => ?_)
  match a with
  | ⟨0, _⟩ => rfl
  | ⟨1, _⟩ => show k.val = 0 + k.val; omega
  | ⟨2, _⟩ => show q.val = 0 + q.val; omega

/-- Bias row 0 of the stack, sliced out, flattened, and repeated down the 20000 rows. -/
theorem r_bias0 {α : Type} (b : Cert.ReferenceIdeal.S2x128.Idx → α)
    (hs : Cert.ReferenceIdeal.S2x128.Slices ![0, 0] Cert.ReferenceIdeal.S1x128) (hc : Cert.ReferenceIdeal.S1x128.ShapeCasts Cert.ReferenceIdeal.S128)
    (h1 : Cert.ReferenceIdeal.S128.BroadcastsInDim Cert.ReferenceIdeal.S1x128 ![1]) (h2 : Cert.ReferenceIdeal.S1x128.BroadcastsInDim Cert.ReferenceIdeal.S20000x128 ![0, 1]) :
    broadcastInDim Cert.ReferenceIdeal.S20000x128 ![0, 1] h2 (broadcastInDim Cert.ReferenceIdeal.S1x128 ![1] h1
      (shapeCast Cert.ReferenceIdeal.S128 (extractStridedSlice Cert.ReferenceIdeal.S1x128 ![0, 0] b hs) hc)) = fun j => b (ix2 0 (j 1)) := by
  funext j
  obtain ⟨p, q, rfl⟩ : ∃ (p : Fin 20000) (q : Fin 128), j = ix2 p q := ⟨j 0, j 1, eq_ix2 j⟩
  refine (broadcastInDim_apply _ h2 _ (ix2 p q) (ix2 0 q) (fun a => ?_)).trans ?_
  · match a with
    | ⟨0, _⟩ => rfl
    | ⟨1, _⟩ => show q.val = if (128 : Nat) = 1 then 0 else q.val; rw [if_neg (by decide)]
  refine (broadcastInDim_apply _ h1 _ (ix2 0 q) (ix1 q) (fun a => ?_)).trans ?_
  · match a with
    | ⟨0, _⟩ => show q.val = if (128 : Nat) = 1 then 0 else q.val; rw [if_neg (by decide)]
  refine (shapeCast_apply _ hc (ix1 q) (ix2 0 q) (by
    rewrite [Shape.rowMajor_val_two, Shape.rowMajor_val_one]
    show 0 * 128 + q.val = q.val
    omega)).trans ?_
  refine extractStridedSlice_apply _ b hs (ix2 0 q) (ix2 0 q) (fun a => ?_)
  match a with
  | ⟨0, _⟩ => rfl
  | ⟨1, _⟩ => show q.val = 0 + q.val; omega

/-- Bias row 1 of the stack, sliced out, flattened, and repeated down the 20000 rows. -/
theorem r_bias1 {α : Type} (b : Cert.ReferenceIdeal.S2x128.Idx → α)
    (hs : Cert.ReferenceIdeal.S2x128.Slices ![1, 0] Cert.ReferenceIdeal.S1x128) (hc : Cert.ReferenceIdeal.S1x128.ShapeCasts Cert.ReferenceIdeal.S128)
    (h1 : Cert.ReferenceIdeal.S128.BroadcastsInDim Cert.ReferenceIdeal.S1x128 ![1]) (h2 : Cert.ReferenceIdeal.S1x128.BroadcastsInDim Cert.ReferenceIdeal.S20000x128 ![0, 1]) :
    broadcastInDim Cert.ReferenceIdeal.S20000x128 ![0, 1] h2 (broadcastInDim Cert.ReferenceIdeal.S1x128 ![1] h1
      (shapeCast Cert.ReferenceIdeal.S128 (extractStridedSlice Cert.ReferenceIdeal.S1x128 ![1, 0] b hs) hc)) = fun j => b (ix2 1 (j 1)) := by
  funext j
  obtain ⟨p, q, rfl⟩ : ∃ (p : Fin 20000) (q : Fin 128), j = ix2 p q := ⟨j 0, j 1, eq_ix2 j⟩
  refine (broadcastInDim_apply _ h2 _ (ix2 p q) (ix2 0 q) (fun a => ?_)).trans ?_
  · match a with
    | ⟨0, _⟩ => rfl
    | ⟨1, _⟩ => show q.val = if (128 : Nat) = 1 then 0 else q.val; rw [if_neg (by decide)]
  refine (broadcastInDim_apply _ h1 _ (ix2 0 q) (ix1 q) (fun a => ?_)).trans ?_
  · match a with
    | ⟨0, _⟩ => show q.val = if (128 : Nat) = 1 then 0 else q.val; rw [if_neg (by decide)]
  refine (shapeCast_apply _ hc (ix1 q) (ix2 0 q) (by
    rewrite [Shape.rowMajor_val_two, Shape.rowMajor_val_one]
    show 0 * 128 + q.val = q.val
    omega)).trans ?_
  refine extractStridedSlice_apply _ b hs (ix2 0 q) (ix2 1 q) (fun a => ?_)
  match a with
  | ⟨0, _⟩ => rfl
  | ⟨1, _⟩ => show q.val = 0 + q.val; omega

/-- A scalar constant repeated over the 20000 by 128 array. -/
theorem r_zero (w : BitVec 32) (h : Cert.ReferenceIdeal.S_.BroadcastsInDim Cert.ReferenceIdeal.S20000x128 ![]) :
    broadcastInDim Cert.ReferenceIdeal.S20000x128 ![] h (constant (F := Ideal) Cert.ReferenceIdeal.S_ .f32 w) = fun _ => Ideal.ofBits .f32 w :=
  funext fun j => (broadcastInDim_apply _ h _ j ix0 (fun a => a.elim0)).trans rfl

/-- The output bias, one number, repeated down the 20000 rows. -/
theorem r_bout {α : Type} (bo : Cert.ReferenceIdeal.S1.Idx → α) (h1 : Cert.ReferenceIdeal.S1.BroadcastsInDim Cert.ReferenceIdeal.S1x1 ![1])
    (h2 : Cert.ReferenceIdeal.S1x1.BroadcastsInDim Cert.ReferenceIdeal.S20000x1 ![0, 1]) :
    broadcastInDim Cert.ReferenceIdeal.S20000x1 ![0, 1] h2 (broadcastInDim Cert.ReferenceIdeal.S1x1 ![1] h1 bo) = fun _ => bo (ix1 0) := by
  funext j
  refine (broadcastInDim_apply _ h2 _ j (ix2 0 0) (fun a => ?_)).trans ?_
  · match a with
    | ⟨0, _⟩ => rfl
    | ⟨1, _⟩ => rfl
  refine broadcastInDim_apply _ h1 _ (ix2 0 0) (ix1 0) (fun a => ?_)
  match a with
  | ⟨0, _⟩ => rfl

/-- The column of scores flattened to a vector. -/
theorem r_flat {α : Type} (y : Cert.ReferenceIdeal.S20000x1.Idx → α) (h : Cert.ReferenceIdeal.S20000x1.ShapeCasts Cert.ReferenceIdeal.S20000) (r : Fin 20000) :
    shapeCast Cert.ReferenceIdeal.S20000 y h (ix1 r) = y (ix2 r 0) :=
  shapeCast_apply y h (ix1 r) (ix2 r 0) (by
    rewrite [Shape.rowMajor_val_two, Shape.rowMajor_val_one]
    show r.val * 1 + 0 = r.val
    omega)

/-- The reference's readout as one function of the gathered features and the four parameter arrays: the operations of
    its last stretch, in order. -/
def refScore (h0 : FVec Ideal Cert.ReferenceIdeal.S20000x128 .f32) (Wd : FVec Ideal Cert.ReferenceIdeal.S2x128x128 .f32)
    (bd : FVec Ideal Cert.ReferenceIdeal.S2x128 .f32) (Wo : FVec Ideal Cert.ReferenceIdeal.S128x1 .f32)
    (bo : FVec Ideal Cert.ReferenceIdeal.S1 .f32) : FVec Ideal Cert.ReferenceIdeal.S20000 .f32 :=
  shapeCast Cert.ReferenceIdeal.S20000
    (addf
      (Host.dotGeneral Cert.ReferenceIdeal.dot_S20000x128_S128x1_S20000x1_1_0_0_1_n_n none
        (maximumf
          (addf
            (Host.dotGeneral Cert.ReferenceIdeal.dot_S20000x128_S128x128_S20000x128_1_0_0_1_n_n none
              (maximumf
                (addf
                  (Host.dotGeneral Cert.ReferenceIdeal.dot_S20000x128_S128x128_S20000x128_1_0_0_1_n_n none h0
                    (shapeCast Cert.ReferenceIdeal.S128x128 (extractStridedSlice Cert.ReferenceIdeal.S1x128x128 ![0, 0, 0] Wd Cert.ReferenceIdeal.Gen.slices_S2x128x128_S1x128x128_0_0_0)
                      Cert.ReferenceIdeal.Gen.shapeCasts_S1x128x128_S128x128))
                  (broadcastInDim Cert.ReferenceIdeal.S20000x128 ![0, 1] Cert.ReferenceIdeal.Gen.bcast_S1x128_S20000x128_0_1
                    (broadcastInDim Cert.ReferenceIdeal.S1x128 ![1] Cert.ReferenceIdeal.Gen.bcast_S128_S1x128_1
                      (shapeCast Cert.ReferenceIdeal.S128 (extractStridedSlice Cert.ReferenceIdeal.S1x128 ![0, 0] bd Cert.ReferenceIdeal.Gen.slices_S2x128_S1x128_0_0)
                        Cert.ReferenceIdeal.Gen.shapeCasts_S1x128_S128))))
                (broadcastInDim Cert.ReferenceIdeal.S20000x128 ![] Cert.ReferenceIdeal.Gen.bcast_S_S20000x128 (constant (F := Ideal) Cert.ReferenceIdeal.S_ .f32 0x00000000#32)))
              (shapeCast Cert.ReferenceIdeal.S128x128 (extractStridedSlice Cert.ReferenceIdeal.S1x128x128 ![1, 0, 0] Wd Cert.ReferenceIdeal.Gen.slices_S2x128x128_S1x128x128_1_0_0)
                Cert.ReferenceIdeal.Gen.shapeCasts_S1x128x128_S128x128))
            (broadcastInDim Cert.ReferenceIdeal.S20000x128 ![0, 1] Cert.ReferenceIdeal.Gen.bcast_S1x128_S20000x128_0_1
              (broadcastInDim Cert.ReferenceIdeal.S1x128 ![1] Cert.ReferenceIdeal.Gen.bcast_S128_S1x128_1
                (shapeCast Cert.ReferenceIdeal.S128 (extractStridedSlice Cert.ReferenceIdeal.S1x128 ![1, 0] bd Cert.ReferenceIdeal.Gen.slices_S2x128_S1x128_1_0)
                  Cert.ReferenceIdeal.Gen.shapeCasts_S1x128_S128))))
          (broadcastInDim Cert.ReferenceIdeal.S20000x128 ![] Cert.ReferenceIdeal.Gen.bcast_S_S20000x128 (constant (F := Ideal) Cert.ReferenceIdeal.S_ .f32 0x00000000#32)))
        Wo)
      (broadcastInDim Cert.ReferenceIdeal.S20000x1 ![0, 1] Cert.ReferenceIdeal.Gen.bcast_S1x1_S20000x1_0_1
        (broadcastInDim Cert.ReferenceIdeal.S1x1 ![1] Cert.ReferenceIdeal.Gen.bcast_S1_S1x1_1 bo)))
    Cert.ReferenceIdeal.Gen.shapeCasts_S20000x1_S20000

/-- THE REFERENCE AT ONE ROW: entry r of its result is the score of row r of the gathered features. -/
theorem refScore_apply (h0 : FVec Ideal Cert.ReferenceIdeal.S20000x128 .f32) (Wd : FVec Ideal Cert.ReferenceIdeal.S2x128x128 .f32)
    (bd : FVec Ideal Cert.ReferenceIdeal.S2x128 .f32) (Wo : FVec Ideal Cert.ReferenceIdeal.S128x1 .f32)
    (bo : FVec Ideal Cert.ReferenceIdeal.S1 .f32) (r : Fin 20000) :
    refScore h0 Wd bd Wo bo (ix1 r)
      = score (fun k => h0 (ix2 r k)) (fun k q => Wd (ix3 0 k q)) (fun k q => Wd (ix3 1 k q))
          (fun q => bd (ix2 0 q)) (fun q => bd (ix2 1 q)) (fun k => Wo (ix2 k 0)) (bo (ix1 0)) := by
  unfold refScore score hid
  rw [r_flat, r_zero, r_bout, r_mat0, r_mat1, r_bias0, r_bias1]
  simp only [addf_apply, maximumf_apply, mm_rh, mm_ro]

set_option maxHeartbeats 4000000 in
/-- The reference's last stretch computes that function of the buffers it reads. -/
theorem ref_tail (V : RVal) :
    StableHlo.after Cert.ReferenceIdeal.RunP.rc15 V (Proc.devRef .tc Cert.ReferenceIdeal.main_v245)
      = refScore (V (Proc.devRef .tc Cert.ReferenceIdeal.main_v222)) (V (Proc.devRef .tc Cert.ReferenceIdeal.main_arg8)) (V (Proc.devRef .tc Cert.ReferenceIdeal.main_arg9))
          (V (Proc.devRef .tc Cert.ReferenceIdeal.main_arg10)) (V (Proc.devRef .tc Cert.ReferenceIdeal.main_arg11)) := by
  after_results
  rfl

/-! ## The host stretches around the region, and the two sides joined -/

/-- The column of scores flattened to a vector. -/
theorem k_flat {α : Type} (y : S20000x1.Idx → α) (h : S20000x1.ShapeCasts S20000) (r : Fin 20000) :
    shapeCast S20000 y h (ix1 r) = y (ix2 r 0) :=
  shapeCast_apply y h (ix1 r) (ix2 r 0) (by
    rewrite [Shape.rowMajor_val_two, Shape.rowMajor_val_one]
    show r.val * 1 + 0 = r.val
    omega)

/-- The bias stack with a unit middle axis put in: row s is row s. -/
theorem k_bstack {α : Type} (b : S2x128.Idx → α) (h : S2x128.ShapeCasts S2x1x128) (s : Fin 2) (q : Fin 128) :
    shapeCast S2x1x128 b h (ix3 s 0 q) = b (ix2 s q) :=
  shapeCast_apply b h (ix3 s 0 q) (ix2 s q) (by
    rewrite [Shape.rowMajor_val_two, Shape.rowMajor_val_three]
    show s.val * 128 + q.val = (s.val * 1 + 0) * 128 + q.val
    omega)

/-- The output bias as a one by one array. -/
theorem k_bo {α : Type} (b : S1.Idx → α) (h : S1.ShapeCasts S1x1) :
    shapeCast S1x1 b h (ix2 0 0) = b (ix1 0) :=
  shapeCast_apply b h (ix2 0 0) (ix1 0) (by
    rewrite [Shape.rowMajor_val_one, Shape.rowMajor_val_two]
    rfl)

/-- The host stretch before the region leaves the weight stack and the output column as they were and gives the region
    the bias stack and the output bias reshaped. -/
theorem W21_arg8 : W21 m ρ c (Proc.devRef .tc main_arg8) = W20 m ρ c (Proc.devRef .tc main_arg8) := by
  show StableHlo.after hostOps9 (W20 m ρ c) (Proc.devRef .tc main_arg8) = _
  after_results
theorem W21_arg10 : W21 m ρ c (Proc.devRef .tc main_arg10) = W20 m ρ c (Proc.devRef .tc main_arg10) := by
  show StableHlo.after hostOps9 (W20 m ρ c) (Proc.devRef .tc main_arg10) = _
  after_results
theorem W21_v140 : W21 m ρ c (Proc.devRef .tc main_v140)
    = shapeCast S2x1x128 (W20 m ρ c (Proc.devRef .tc main_arg9) : FVec Ideal S2x128 .f32) shapeCasts_S2x128_S2x1x128 := by
  show StableHlo.after hostOps9 (W20 m ρ c) (Proc.devRef .tc main_v140) = _
  after_results
  rfl
theorem W21_v141 : W21 m ρ c (Proc.devRef .tc main_v141)
    = shapeCast S1x1 (W20 m ρ c (Proc.devRef .tc main_arg11) : FVec Ideal S1 .f32) shapeCasts_S1_S1x1 := by
  show StableHlo.after hostOps9 (W20 m ρ c) (Proc.devRef .tc main_v141) = _
  after_results
  rfl

/-- The readout: the kernel gathers the premise rows on the host, runs two dense layers and the output projection in
    its tenth region and flattens the scores; the reference does the same by host operations. Both sides are, entry by
    entry, the score of the gathered row under the same parameters. -/
theorem step (Vr : RVal)
    (hx : W20 m ρ c (Proc.devRef .tc main_v132_0) = Vr (Proc.devRef .tc Cert.ReferenceIdeal.main_v215))
    (h2 : W20 m ρ c (Proc.devRef .tc main_arg2) = Vr (Proc.devRef .tc Cert.ReferenceIdeal.main_arg2))
    (h8 : W20 m ρ c (Proc.devRef .tc main_arg8) = Vr (Proc.devRef .tc Cert.ReferenceIdeal.main_arg8))
    (h9 : W20 m ρ c (Proc.devRef .tc main_arg9) = Vr (Proc.devRef .tc Cert.ReferenceIdeal.main_arg9))
    (h10 : W20 m ρ c (Proc.devRef .tc main_arg10) = Vr (Proc.devRef .tc Cert.ReferenceIdeal.main_arg10))
    (h11 : W20 m ρ c (Proc.devRef .tc main_arg11) = Vr (Proc.devRef .tc Cert.ReferenceIdeal.main_arg11)) :
    W23 m ρ c (Proc.devRef .tc main_v143)
      = StableHlo.after Cert.ReferenceIdeal.RunP.rc15 (StableHlo.after Cert.ReferenceIdeal.RunP.rc14 Vr) (Proc.devRef .tc Cert.ReferenceIdeal.main_v245) := by
  -- the kernel's result: the region's output array, flattened
  have e1 : W23 m ρ c (Proc.devRef .tc main_v143)
      = shapeCast S20000 (W22 m ρ c (Proc.devRef .tc main_v142) : FVec Ideal S20000x1 .f32) shapeCasts_S20000x1_S20000 := by
    show StableHlo.after hostOps10 (W22 m ρ c) (Proc.devRef .tc main_v143) = _
    after_results
    rfl
  have e2 : (W22 m ρ c (Proc.devRef .tc main_v142) : FVec Ideal S20000x1 .f32)
      = G (a0 (V21 m ρ) c) (a1 (V21 m ρ) c) (a2 (V21 m ρ) c) (a3 (V21 m ρ) c) (a4 (V21 m ρ) c) :=
    (W22_arr m ρ c 5).trans (region_out (V21 m ρ) c)
  -- the gathered features are the same array on the two sides: the same host operations on equal inputs
  have g : (W21 m ρ c (Proc.devRef .tc main_v139) : FVec Ideal S20000x128 .f32)
      = StableHlo.after Cert.ReferenceIdeal.RunP.rc14 Vr (Proc.devRef .tc Cert.ReferenceIdeal.main_v222) := by
    show StableHlo.after hostOps9 (W20 m ρ c) (Proc.devRef .tc main_v139) = _
    after_results
    rw [hx, h2]
    rfl
  -- the reference's gather stretch leaves the parameters as they were
  have r8 : StableHlo.after Cert.ReferenceIdeal.RunP.rc14 Vr (Proc.devRef .tc Cert.ReferenceIdeal.main_arg8)
      = Vr (Proc.devRef .tc Cert.ReferenceIdeal.main_arg8) := by after_results
  have r9 : StableHlo.after Cert.ReferenceIdeal.RunP.rc14 Vr (Proc.devRef .tc Cert.ReferenceIdeal.main_arg9)
      = Vr (Proc.devRef .tc Cert.ReferenceIdeal.main_arg9) := by after_results
  have r10 : StableHlo.after Cert.ReferenceIdeal.RunP.rc14 Vr (Proc.devRef .tc Cert.ReferenceIdeal.main_arg10)
      = Vr (Proc.devRef .tc Cert.ReferenceIdeal.main_arg10) := by after_results
  have r11 : StableHlo.after Cert.ReferenceIdeal.RunP.rc14 Vr (Proc.devRef .tc Cert.ReferenceIdeal.main_arg11)
      = Vr (Proc.devRef .tc Cert.ReferenceIdeal.main_arg11) := by after_results
  have A1 : a1 (V21 m ρ) c = StableHlo.after Cert.ReferenceIdeal.RunP.rc14 Vr (Proc.devRef .tc Cert.ReferenceIdeal.main_arg8) :=
    (W21_arg8 m ρ c).trans (h8.trans r8.symm)
  have A3 : a3 (V21 m ρ) c = StableHlo.after Cert.ReferenceIdeal.RunP.rc14 Vr (Proc.devRef .tc Cert.ReferenceIdeal.main_arg10) :=
    (W21_arg10 m ρ c).trans (h10.trans r10.symm)
  rw [ref_tail, e1, e2]
  funext j
  obtain ⟨r, rfl⟩ : ∃ r : Fin 20000, j = ix1 r := ⟨j 0, eq_ix1 j⟩
  rw [refScore_apply]
  refine (k_flat _ _ r).trans ?_
  show score _ _ _ _ _ _ _ = score _ _ _ _ _ _ _
  refine score_congr ?_ ?_ ?_ ?_ ?_ ?_ ?_
  · funext k; exact congrFun g (ix2 r k)
  · funext k q; exact congrFun A1 (ix3 0 k q)
  · funext k q; exact congrFun A1 (ix3 1 k q)
  · funext q
    exact (congrFun (W21_v140 m ρ c) (ix3 0 0 q)).trans ((k_bstack _ _ 0 q).trans (congrFun (h9.trans r9.symm) (ix2 0 q)))
  · funext q
    exact (congrFun (W21_v140 m ρ c) (ix3 1 0 q)).trans ((k_bstack _ _ 1 q).trans (congrFun (h9.trans r9.symm) (ix2 1 q)))
  · funext k; exact congrFun A3 (ix2 k 0)
  · exact (congrFun (W21_v141 m ρ c) (ix2 0 0)).trans ((k_bo _ _).trans (congrFun (h11.trans r11.symm) (ix1 0)))

end Cert.Bridge.Dense

end
-- ==== Proof.Carry.lean ====
import proofs.«411396_j9594956939372_1_alg».proof.Proof.Gen.KernelIdeal.Frame
import proofs.«411396_j9594956939372_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Carry

open Idealize.ShloMosaic Idealize.ShloMosaic.TcCoe Idealize.SL.Sem Idealize.ShloMosaic.StableHlo
open Cert.KernelIdeal Cert.KernelIdeal.Gen

/-- The reference program's buffer contents (a valuation of its TensorCore buffers) at the exact instance. -/
abbrev RVal := Valuation Cert.ReferenceIdeal.τ Cert.ReferenceIdeal.sig (Elt Ideal)

variable (m : (ℓ : Loc nD τ sig) → Buf (Elt Ideal) ℓ) (ρ : Dev nD → PrngReg) (c : Dev nD)

/-- The kernel program's buffer contents (a valuation of its TensorCore buffers) at the exact instance. -/
abbrev KVal := Valuation τ sig (Elt Ideal)

/-- What both programs carry unchanged from the graph normalisation to the end: the row indices, the column
    indices, the edge weights, and the arguments read later. The two programs agree on each. -/
structure Carried (Vk : KVal) (Vr : RVal) : Prop where
  row : Vk (Proc.devRef .tc main_v3) = Vr (Proc.devRef .tc Cert.ReferenceIdeal.main_v3)
  col : Vk (Proc.devRef .tc main_v7) = Vr (Proc.devRef .tc Cert.ReferenceIdeal.main_v7)
  norm : Vk (Proc.devRef .tc main_v32) = Vr (Proc.devRef .tc Cert.ReferenceIdeal.main_v32)
  a2 : Vk (Proc.devRef .tc main_arg2) = Vr (Proc.devRef .tc Cert.ReferenceIdeal.main_arg2)
  a4 : Vk (Proc.devRef .tc main_arg4) = Vr (Proc.devRef .tc Cert.ReferenceIdeal.main_arg4)
  a5 : Vk (Proc.devRef .tc main_arg5) = Vr (Proc.devRef .tc Cert.ReferenceIdeal.main_arg5)
  a6 : Vk (Proc.devRef .tc main_arg6) = Vr (Proc.devRef .tc Cert.ReferenceIdeal.main_arg6)
  a7 : Vk (Proc.devRef .tc main_arg7) = Vr (Proc.devRef .tc Cert.ReferenceIdeal.main_arg7)
  a8 : Vk (Proc.devRef .tc main_arg8) = Vr (Proc.devRef .tc Cert.ReferenceIdeal.main_arg8)
  a9 : Vk (Proc.devRef .tc main_arg9) = Vr (Proc.devRef .tc Cert.ReferenceIdeal.main_arg9)
  a10 : Vk (Proc.devRef .tc main_arg10) = Vr (Proc.devRef .tc Cert.ReferenceIdeal.main_arg10)
  a11 : Vk (Proc.devRef .tc main_arg11) = Vr (Proc.devRef .tc Cert.ReferenceIdeal.main_arg11)

/-! ## A line of operations keeps every reference none of its operations writes

The twelve carried buffers are collected in a list of references per program. One pass over a line's
operations shows that each operation's single result is outside that list; every listed buffer then holds
after the line what it held before. -/

section General

variable {τ₀ : Topo} {sig₀ : RefSig} {Val₀ : EltTy → Type}

/-- A reference outside the list `C` is, as a device buffer, different from every member of `C`: the
    singleton of its device buffer holds no member's device buffer. -/
theorem not_mem_single {C : List (Ref sig₀ .tc)} {y : Ref sig₀ .tc} (hy : y ∉ C) :
    ∀ r ∈ C, Proc.devRef (τ := τ₀) .tc r ∉ ({Proc.devRef .tc y} : Finset (DevRef τ₀ sig₀)) :=
  fun r hr hm => hy ((Proc.devRef_injective _ (Finset.mem_singleton.mp hm)) ▸ hr)

/-- If no operation of the line writes a member of `C`, every member of `C` holds after the line what it
    held before. -/
theorem keep_all (C : List (Ref sig₀ .tc)) (ops : List (HloOp τ₀ sig₀ Val₀)) (V : Valuation τ₀ sig₀ Val₀)
    (h : ops.Forall fun op => ∀ r ∈ C, Proc.devRef (τ := τ₀) .tc r ∉ op.writes) :
    ∀ r ∈ C, StableHlo.after ops V (Proc.devRef .tc r) = V (Proc.devRef .tc r) :=
  fun r hr => StableHlo.after_of_forall_not_mem ops V fun op hop =>
    (List.forall_iff_forall_mem.mp h) op hop r hr

end General

/-- The kernel program's carried references. -/
abbrev keptK : List (Ref sig .tc) :=
  [main_v3, main_v7, main_v32, main_arg2, main_arg4, main_arg5, main_arg6, main_arg7, main_arg8, main_arg9,
   main_arg10, main_arg11]

/-- The reference program's carried references. -/
abbrev keptR : List (Ref Cert.ReferenceIdeal.sig .tc) :=
  [Cert.ReferenceIdeal.main_v3, Cert.ReferenceIdeal.main_v7, Cert.ReferenceIdeal.main_v32,
   Cert.ReferenceIdeal.main_arg2, Cert.ReferenceIdeal.main_arg4, Cert.ReferenceIdeal.main_arg5,
   Cert.ReferenceIdeal.main_arg6, Cert.ReferenceIdeal.main_arg7, Cert.ReferenceIdeal.main_arg8,
   Cert.ReferenceIdeal.main_arg9, Cert.ReferenceIdeal.main_arg10, Cert.ReferenceIdeal.main_arg11]

/-- New kernel contents that agree with the old ones on the carried references are carried too. -/
theorem Carried.of_keepK {Vk Vk' : KVal} {Vr : RVal} (h : Carried Vk Vr)
    (k : ∀ r ∈ keptK, Vk' (Proc.devRef .tc r) = Vk (Proc.devRef .tc r)) : Carried Vk' Vr :=
  ⟨(k main_v3 (by decide)).trans h.row, (k main_v7 (by decide)).trans h.col, (k main_v32 (by decide)).trans h.norm,
   (k main_arg2 (by decide)).trans h.a2, (k main_arg4 (by decide)).trans h.a4, (k main_arg5 (by decide)).trans h.a5,
   (k main_arg6 (by decide)).trans h.a6, (k main_arg7 (by decide)).trans h.a7, (k main_arg8 (by decide)).trans h.a8,
   (k main_arg9 (by decide)).trans h.a9, (k main_arg10 (by decide)).trans h.a10,
   (k main_arg11 (by decide)).trans h.a11⟩

/-- New reference contents that agree with the old ones on the carried references are carried too. -/
theorem Carried.of_keepR {Vk : KVal} {Vr Vr' : RVal} (h : Carried Vk Vr)
    (k : ∀ r ∈ keptR, Vr' (Proc.devRef .tc r) = Vr (Proc.devRef .tc r)) : Carried Vk Vr' :=
  ⟨h.row.trans (k Cert.ReferenceIdeal.main_v3 (by decide)).symm,
   h.col.trans (k Cert.ReferenceIdeal.main_v7 (by decide)).symm,
   h.norm.trans (k Cert.ReferenceIdeal.main_v32 (by decide)).symm,
   h.a2.trans (k Cert.ReferenceIdeal.main_arg2 (by decide)).symm,
   h.a4.trans (k Cert.ReferenceIdeal.main_arg4 (by decide)).symm,
   h.a5.trans (k Cert.ReferenceIdeal.main_arg5 (by decide)).symm,
   h.a6.trans (k Cert.ReferenceIdeal.main_arg6 (by decide)).symm,
   h.a7.trans (k Cert.ReferenceIdeal.main_arg7 (by decide)).symm,
   h.a8.trans (k Cert.ReferenceIdeal.main_arg8 (by decide)).symm,
   h.a9.trans (k Cert.ReferenceIdeal.main_arg9 (by decide)).symm,
   h.a10.trans (k Cert.ReferenceIdeal.main_arg10 (by decide)).symm,
   h.a11.trans (k Cert.ReferenceIdeal.main_arg11 (by decide)).symm⟩

/-- One pass over a literal line: every operation's single result lies outside the carried list. -/
local macro "keeps_line" l:ident C:ident : tactic => `(tactic| (
  refine keep_all $C _ _ ?_
  simp only [$l:ident, List.Forall, StableHlo.nullary_writes, StableHlo.unary_writes, StableHlo.binary_writes,
    StableHlo.ternary_writes, StableHlo.quaternary_writes, StableHlo.reshape_writes,
    StableHlo.binaryIndexed_writes]
  repeat' apply And.intro
  all_goals exact not_mem_single (by decide)))

/-- No operation of the kernel's host stretch `hostOps1` writes a carried buffer. -/
theorem kh1 {Vk : KVal} {Vr : RVal} (h : Carried Vk Vr) : Carried (StableHlo.after hostOps1 Vk) Vr :=
  h.of_keepK (by keeps_line hostOps1 keptK)
/-- No operation of the kernel's host stretch `hostOps2` writes a carried buffer. -/
theorem kh2 {Vk : KVal} {Vr : RVal} (h : Carried Vk Vr) : Carried (StableHlo.after hostOps2 Vk) Vr :=
  h.of_keepK (by keeps_line hostOps2 keptK)
/-- No operation of the kernel's host stretch `hostOps3` writes a carried buffer. -/
theorem kh3 {Vk : KVal} {Vr : RVal} (h : Carried Vk Vr) : Carried (StableHlo.after hostOps3 Vk) Vr :=
  h.of_keepK (by keeps_line hostOps3 keptK)
/-- No operation of the kernel's host stretch `hostOps4` writes a carried buffer. -/
theorem kh4 {Vk : KVal} {Vr : RVal} (h : Carried Vk Vr) : Carried (StableHlo.after hostOps4 Vk) Vr :=
  h.of_keepK (by keeps_line hostOps4 keptK)
/-- No operation of the kernel's host stretch `hostOps5` writes a carried buffer. -/
theorem kh5 {Vk : KVal} {Vr : RVal} (h : Carried Vk Vr) : Carried (StableHlo.after hostOps5 Vk) Vr :=
  h.of_keepK (by keeps_line hostOps5 keptK)
/-- No operation of the kernel's host stretch `hostOps6` writes a carried buffer. -/
theorem kh6 {Vk : KVal} {Vr : RVal} (h : Carried Vk Vr) : Carried (StableHlo.after hostOps6 Vk) Vr :=
  h.of_keepK (by keeps_line hostOps6 keptK)
/-- No operation of the kernel's host stretch `hostOps7` writes a carried buffer. -/
theorem kh7 {Vk : KVal} {Vr : RVal} (h : Carried Vk Vr) : Carried (StableHlo.after hostOps7 Vk) Vr :=
  h.of_keepK (by keeps_line hostOps7 keptK)
/-- No operation of the kernel's host stretch `hostOps8` writes a carried buffer. -/
theorem kh8 {Vk : KVal} {Vr : RVal} (h : Carried Vk Vr) : Carried (StableHlo.after hostOps8 Vk) Vr :=
  h.of_keepK (by keeps_line hostOps8 keptK)
/-- No operation of the kernel's host stretch `hostOps9` writes a carried buffer. -/
theorem kh9 {Vk : KVal} {Vr : RVal} (h : Carried Vk Vr) : Carried (StableHlo.after hostOps9 Vk) Vr :=
  h.of_keepK (by keeps_line hostOps9 keptK)
/-- Region 0 writes none of the carried buffers (none is one of its arrays). -/
theorem kr0 {Vr : RVal} (h : Carried (W3 m ρ c) Vr) : Carried (W4 m ρ c) Vr :=
  h.of_keepK fun r hr => W4_of_ne m ρ c r (by revert r; decide)
/-- Region 1 writes none of the carried buffers (none is one of its arrays). -/
theorem kr1 {Vr : RVal} (h : Carried (W5 m ρ c) Vr) : Carried (W6 m ρ c) Vr :=
  h.of_keepK fun r hr => W6_of_ne m ρ c r (by revert r; decide)
/-- Region 2 writes none of the carried buffers (none is one of its arrays). -/
theorem kr2 {Vr : RVal} (h : Carried (W7 m ρ c) Vr) : Carried (W8 m ρ c) Vr :=
  h.of_keepK fun r hr => W8_of_ne m ρ c r (by revert r; decide)
/-- Region 3 writes none of the carried buffers (none is one of its arrays). -/
theorem kr3 {Vr : RVal} (h : Carried (W9 m ρ c) Vr) : Carried (W10 m ρ c) Vr :=
  h.of_keepK fun r hr => W10_of_ne m ρ c r (by revert r; decide)
/-- Region 4 writes none of the carried buffers (none is one of its arrays). -/
theorem kr4 {Vr : RVal} (h : Carried (W11 m ρ c) Vr) : Carried (W12 m ρ c) Vr :=
  h.of_keepK fun r hr => W12_of_ne m ρ c r (by revert r; decide)
/-- Region 5 writes none of the carried buffers (none is one of its arrays). -/
theorem kr5 {Vr : RVal} (h : Carried (W13 m ρ c) Vr) : Carried (W14 m ρ c) Vr :=
  h.of_keepK fun r hr => W14_of_ne m ρ c r (by revert r; decide)
/-- Region 6 writes none of the carried buffers (none is one of its arrays). -/
theorem kr6 {Vr : RVal} (h : Carried (W15 m ρ c) Vr) : Carried (W16 m ρ c) Vr :=
  h.of_keepK fun r hr => W16_of_ne m ρ c r (by revert r; decide)
/-- Region 7 writes none of the carried buffers (none is one of its arrays). -/
theorem kr7 {Vr : RVal} (h : Carried (W17 m ρ c) Vr) : Carried (W18 m ρ c) Vr :=
  h.of_keepK fun r hr => W18_of_ne m ρ c r (by revert r; decide)
/-- Region 8 writes none of the carried buffers (none is one of its arrays). -/
theorem kr8 {Vr : RVal} (h : Carried (W19 m ρ c) Vr) : Carried (W20 m ρ c) Vr :=
  h.of_keepK fun r hr => W20_of_ne m ρ c r (by revert r; decide)
/-- No operation of the reference's stretch `rc1` writes a carried buffer. -/
theorem r1 {Vk : KVal} {Vr : RVal} (h : Carried Vk Vr) : Carried Vk (StableHlo.after Cert.ReferenceIdeal.RunP.rc1 Vr) :=
  h.of_keepR (by keeps_line Cert.ReferenceIdeal.RunP.rc1 keptR)
/-- No operation of the reference's stretch `rc2` writes a carried buffer. -/
theorem r2 {Vk : KVal} {Vr : RVal} (h : Carried Vk Vr) : Carried Vk (StableHlo.after Cert.ReferenceIdeal.RunP.rc2 Vr) :=
  h.of_keepR (by keeps_line Cert.ReferenceIdeal.RunP.rc2 keptR)
/-- No operation of the reference's stretch `rc3` writes a carried buffer. -/
theorem r3 {Vk : KVal} {Vr : RVal} (h : Carried Vk Vr) : Carried Vk (StableHlo.after Cert.ReferenceIdeal.RunP.rc3 Vr) :=
  h.of_keepR (by keeps_line Cert.ReferenceIdeal.RunP.rc3 keptR)
/-- No operation of the reference's stretch `rc4` writes a carried buffer. -/
theorem r4 {Vk : KVal} {Vr : RVal} (h : Carried Vk Vr) : Carried Vk (StableHlo.after Cert.ReferenceIdeal.RunP.rc4 Vr) :=
  h.of_keepR (by keeps_line Cert.ReferenceIdeal.RunP.rc4 keptR)
/-- No operation of the reference's stretch `rc5` writes a carried buffer. -/
theorem r5 {Vk : KVal} {Vr : RVal} (h : Carried Vk Vr) : Carried Vk (StableHlo.after Cert.ReferenceIdeal.RunP.rc5 Vr) :=
  h.of_keepR (by keeps_line Cert.ReferenceIdeal.RunP.rc5 keptR)
/-- No operation of the reference's stretch `rc6` writes a carried buffer. -/
theorem r6 {Vk : KVal} {Vr : RVal} (h : Carried Vk Vr) : Carried Vk (StableHlo.after Cert.ReferenceIdeal.RunP.rc6 Vr) :=
  h.of_keepR (by keeps_line Cert.ReferenceIdeal.RunP.rc6 keptR)
/-- No operation of the reference's stretch `rc7` writes a carried buffer. -/
theorem r7 {Vk : KVal} {Vr : RVal} (h : Carried Vk Vr) : Carried Vk (StableHlo.after Cert.ReferenceIdeal.RunP.rc7 Vr) :=
  h.of_keepR (by keeps_line Cert.ReferenceIdeal.RunP.rc7 keptR)
/-- No operation of the reference's stretch `rc8` writes a carried buffer. -/
theorem r8 {Vk : KVal} {Vr : RVal} (h : Carried Vk Vr) : Carried Vk (StableHlo.after Cert.ReferenceIdeal.RunP.rc8 Vr) :=
  h.of_keepR (by keeps_line Cert.ReferenceIdeal.RunP.rc8 keptR)
/-- No operation of the reference's stretch `rc9` writes a carried buffer. -/
theorem r9 {Vk : KVal} {Vr : RVal} (h : Carried Vk Vr) : Carried Vk (StableHlo.after Cert.ReferenceIdeal.RunP.rc9 Vr) :=
  h.of_keepR (by keeps_line Cert.ReferenceIdeal.RunP.rc9 keptR)
/-- No operation of the reference's stretch `rc10` writes a carried buffer. -/
theorem r10 {Vk : KVal} {Vr : RVal} (h : Carried Vk Vr) : Carried Vk (StableHlo.after Cert.ReferenceIdeal.RunP.rc10 Vr) :=
  h.of_keepR (by keeps_line Cert.ReferenceIdeal.RunP.rc10 keptR)
/-- No operation of the reference's stretch `rc11` writes a carried buffer. -/
theorem r11 {Vk : KVal} {Vr : RVal} (h : Carried Vk Vr) : Carried Vk (StableHlo.after Cert.ReferenceIdeal.RunP.rc11 Vr) :=
  h.of_keepR (by keeps_line Cert.ReferenceIdeal.RunP.rc11 keptR)
/-- No operation of the reference's stretch `rc12` writes a carried buffer. -/
theorem r12 {Vk : KVal} {Vr : RVal} (h : Carried Vk Vr) : Carried Vk (StableHlo.after Cert.ReferenceIdeal.RunP.rc12 Vr) :=
  h.of_keepR (by keeps_line Cert.ReferenceIdeal.RunP.rc12 keptR)
/-- No operation of the reference's stretch `rc13` writes a carried buffer. -/
theorem r13 {Vk : KVal} {Vr : RVal} (h : Carried Vk Vr) : Carried Vk (StableHlo.after Cert.ReferenceIdeal.RunP.rc13 Vr) :=
  h.of_keepR (by keeps_line Cert.ReferenceIdeal.RunP.rc13 keptR)
/-- No operation of the reference's stretch `rc14` writes a carried buffer. -/
theorem r14 {Vk : KVal} {Vr : RVal} (h : Carried Vk Vr) : Carried Vk (StableHlo.after Cert.ReferenceIdeal.RunP.rc14 Vr) :=
  h.of_keepR (by keeps_line Cert.ReferenceIdeal.RunP.rc14 keptR)
/-- No operation of the reference's stretch `rc15` writes a carried buffer. -/
theorem r15 {Vk : KVal} {Vr : RVal} (h : Carried Vk Vr) : Carried Vk (StableHlo.after Cert.ReferenceIdeal.RunP.rc15 Vr) :=
  h.of_keepR (by keeps_line Cert.ReferenceIdeal.RunP.rc15 keptR)

end Cert.Bridge.Carry

end
-- ==== Proof.Bridge.lean ====
import proofs.«411396_j9594956939372_1_alg».proof.Proof.Pre
import proofs.«411396_j9594956939372_1_alg».proof.Proof.Emb
import proofs.«411396_j9594956939372_1_alg».proof.Proof.Mm0
import proofs.«411396_j9594956939372_1_alg».proof.Proof.Msg0
import proofs.«411396_j9594956939372_1_alg».proof.Proof.Mm1
import proofs.«411396_j9594956939372_1_alg».proof.Proof.Msg1
import proofs.«411396_j9594956939372_1_alg».proof.Proof.Mm2
import proofs.«411396_j9594956939372_1_alg».proof.Proof.Msg2
import proofs.«411396_j9594956939372_1_alg».proof.Proof.Mm3
import proofs.«411396_j9594956939372_1_alg».proof.Proof.Msg3
import proofs.«411396_j9594956939372_1_alg».proof.Proof.Ln0
import proofs.«411396_j9594956939372_1_alg».proof.Proof.Ln1
import proofs.«411396_j9594956939372_1_alg».proof.Proof.Ln2
import proofs.«411396_j9594956939372_1_alg».proof.Proof.Fin
import proofs.«411396_j9594956939372_1_alg».proof.Proof.Dense
import proofs.«411396_j9594956939372_1_alg».proof.Proof.Carry

/-!
  The two programs side by side. The kernel's buffer contents are followed through its twenty-three segment
  boundaries and the reference's through its sixteen stretches; at the matching points the node features agree:
  after the embedding, after each layer's projection, message pass and combination, and after the readout. What
  both programs compute once and read in every layer (row and column indices, edge weights) and the arguments are
  carried along unchanged.
-/

set_option maxRecDepth 16384

noncomputable section

namespace Cert.Bridge.Main

open Idealize.ShloMosaic Idealize.ShloMosaic.TcCoe Idealize.SL.Sem Idealize.ShloMosaic.StableHlo
open Cert.KernelIdeal Cert.KernelIdeal.Gen Cert.Bridge.Carry Cert.ReferenceIdeal.RunP

variable (m : (ℓ : Loc nD τ sig) → Buf (Elt Ideal) ℓ) (ρ : Dev nD → PrngReg) (c : Dev nD) (V : RVal)

/-! ## The node features pass through the segments that only read them -/

theorem kx0_a : W5 m ρ c (Proc.devRef .tc main_v34) = W4 m ρ c (Proc.devRef .tc main_v34) := by
  show StableHlo.after hostOps1 (W4 m ρ c) (Proc.devRef .tc main_v34) = _
  dsimp only [hostOps1]
  after_results
theorem kx0_b : W6 m ρ c (Proc.devRef .tc main_v34) = W5 m ρ c (Proc.devRef .tc main_v34) :=
  (W6_arr m ρ c 0).trans (((dat1 (V5 m ρ) c).arrAt_in 0 rfl _).trans (A_eq1 (V5 m ρ) c 0))
theorem kx0_c : W7 m ρ c (Proc.devRef .tc main_v34) = W6 m ρ c (Proc.devRef .tc main_v34) := by
  show StableHlo.after hostOps2 (W6 m ρ c) (Proc.devRef .tc main_v34) = _
  dsimp only [hostOps2]
  after_results
theorem kx0 : W7 m ρ c (Proc.devRef .tc main_v34) = W4 m ρ c (Proc.devRef .tc main_v34) := (kx0_c m ρ c).trans ((kx0_b m ρ c).trans (kx0_a m ρ c))
theorem rx0_a_g (Vr : RVal) : StableHlo.after rc2 Vr (Proc.devRef .tc Cert.ReferenceIdeal.main_v39) = Vr (Proc.devRef .tc Cert.ReferenceIdeal.main_v39) := by
  dsimp only [rc2]
  after_results
theorem rx0_a : Rv2 V (Proc.devRef .tc Cert.ReferenceIdeal.main_v39) = Rv1 V (Proc.devRef .tc Cert.ReferenceIdeal.main_v39) := rx0_a_g (Rv1 V)
theorem rx0_b_g (Vr : RVal) : StableHlo.after rc3 Vr (Proc.devRef .tc Cert.ReferenceIdeal.main_v39) = Vr (Proc.devRef .tc Cert.ReferenceIdeal.main_v39) := by
  dsimp only [rc3]
  after_results
theorem rx0_b : Rv3 V (Proc.devRef .tc Cert.ReferenceIdeal.main_v39) = Rv2 V (Proc.devRef .tc Cert.ReferenceIdeal.main_v39) := rx0_b_g (Rv2 V)
theorem rx0 : Rv3 V (Proc.devRef .tc Cert.ReferenceIdeal.main_v39) = Rv1 V (Proc.devRef .tc Cert.ReferenceIdeal.main_v39) := (rx0_b V).trans (rx0_a V)

theorem kx1_a : W9 m ρ c (Proc.devRef .tc main_v60_0) = W8 m ρ c (Proc.devRef .tc main_v60_0) := by
  show StableHlo.after hostOps3 (W8 m ρ c) (Proc.devRef .tc main_v60_0) = _
  dsimp only [hostOps3]
  after_results
theorem kx1_b : W10 m ρ c (Proc.devRef .tc main_v60_0) = W9 m ρ c (Proc.devRef .tc main_v60_0) :=
  (W10_arr m ρ c 0).trans (((dat3 (V9 m ρ) c).arrAt_in 0 rfl _).trans (A_eq3 (V9 m ρ) c 0))
theorem kx1_c : W11 m ρ c (Proc.devRef .tc main_v60_0) = W10 m ρ c (Proc.devRef .tc main_v60_0) := by
  show StableHlo.after hostOps4 (W10 m ρ c) (Proc.devRef .tc main_v60_0) = _
  dsimp only [hostOps4]
  after_results
theorem kx1 : W11 m ρ c (Proc.devRef .tc main_v60_0) = W8 m ρ c (Proc.devRef .tc main_v60_0) := (kx1_c m ρ c).trans ((kx1_b m ρ c).trans (kx1_a m ρ c))
theorem rx1_a_g (Vr : RVal) : StableHlo.after rc5 Vr (Proc.devRef .tc Cert.ReferenceIdeal.main_v90) = Vr (Proc.devRef .tc Cert.ReferenceIdeal.main_v90) := by
  dsimp only [rc5]
  after_results
theorem rx1_a : Rv5 V (Proc.devRef .tc Cert.ReferenceIdeal.main_v90) = Rv4 V (Proc.devRef .tc Cert.ReferenceIdeal.main_v90) := rx1_a_g (Rv4 V)
theorem rx1_b_g (Vr : RVal) : StableHlo.after rc6 Vr (Proc.devRef .tc Cert.ReferenceIdeal.main_v90) = Vr (Proc.devRef .tc Cert.ReferenceIdeal.main_v90) := by
  dsimp only [rc6]
  after_results
theorem rx1_b : Rv6 V (Proc.devRef .tc Cert.ReferenceIdeal.main_v90) = Rv5 V (Proc.devRef .tc Cert.ReferenceIdeal.main_v90) := rx1_b_g (Rv5 V)
theorem rx1 : Rv6 V (Proc.devRef .tc Cert.ReferenceIdeal.main_v90) = Rv4 V (Proc.devRef .tc Cert.ReferenceIdeal.main_v90) := (rx1_b V).trans (rx1_a V)

theorem kx2_a : W13 m ρ c (Proc.devRef .tc main_v86_0) = W12 m ρ c (Proc.devRef .tc main_v86_0) := by
  show StableHlo.after hostOps5 (W12 m ρ c) (Proc.devRef .tc main_v86_0) = _
  dsimp only [hostOps5]
  after_results
theorem kx2_b : W14 m ρ c (Proc.devRef .tc main_v86_0) = W13 m ρ c (Proc.devRef .tc main_v86_0) :=
  (W14_arr m ρ c 0).trans (((dat5 (V13 m ρ) c).arrAt_in 0 rfl _).trans (A_eq5 (V13 m ρ) c 0))
theorem kx2_c : W15 m ρ c (Proc.devRef .tc main_v86_0) = W14 m ρ c (Proc.devRef .tc main_v86_0) := by
  show StableHlo.after hostOps6 (W14 m ρ c) (Proc.devRef .tc main_v86_0) = _
  dsimp only [hostOps6]
  after_results
theorem kx2 : W15 m ρ c (Proc.devRef .tc main_v86_0) = W12 m ρ c (Proc.devRef .tc main_v86_0) := (kx2_c m ρ c).trans ((kx2_b m ρ c).trans (kx2_a m ρ c))
theorem rx2_a_g (Vr : RVal) : StableHlo.after rc8 Vr (Proc.devRef .tc Cert.ReferenceIdeal.main_v141) = Vr (Proc.devRef .tc Cert.ReferenceIdeal.main_v141) := by
  dsimp only [rc8]
  after_results
theorem rx2_a : Rv8 V (Proc.devRef .tc Cert.ReferenceIdeal.main_v141) = Rv7 V (Proc.devRef .tc Cert.ReferenceIdeal.main_v141) := rx2_a_g (Rv7 V)
theorem rx2_b_g (Vr : RVal) : StableHlo.after rc9 Vr (Proc.devRef .tc Cert.ReferenceIdeal.main_v141) = Vr (Proc.devRef .tc Cert.ReferenceIdeal.main_v141) := by
  dsimp only [rc9]
  after_results
theorem rx2_b : Rv9 V (Proc.devRef .tc Cert.ReferenceIdeal.main_v141) = Rv8 V (Proc.devRef .tc Cert.ReferenceIdeal.main_v141) := rx2_b_g (Rv8 V)
theorem rx2 : Rv9 V (Proc.devRef .tc Cert.ReferenceIdeal.main_v141) = Rv7 V (Proc.devRef .tc Cert.ReferenceIdeal.main_v141) := (rx2_b V).trans (rx2_a V)

theorem kx3_a : W17 m ρ c (Proc.devRef .tc main_v112_0) = W16 m ρ c (Proc.devRef .tc main_v112_0) := by
  show StableHlo.after hostOps7 (W16 m ρ c) (Proc.devRef .tc main_v112_0) = _
  dsimp only [hostOps7]
  after_results
theorem kx3_b : W18 m ρ c (Proc.devRef .tc main_v112_0) = W17 m ρ c (Proc.devRef .tc main_v112_0) :=
  (W18_arr m ρ c 0).trans (((dat7 (V17 m ρ) c).arrAt_in 0 rfl _).trans (A_eq7 (V17 m ρ) c 0))
theorem kx3_c : W19 m ρ c (Proc.devRef .tc main_v112_0) = W18 m ρ c (Proc.devRef .tc main_v112_0) := by
  show StableHlo.after hostOps8 (W18 m ρ c) (Proc.devRef .tc main_v112_0) = _
  dsimp only [hostOps8]
  after_results
theorem kx3 : W19 m ρ c (Proc.devRef .tc main_v112_0) = W16 m ρ c (Proc.devRef .tc main_v112_0) := (kx3_c m ρ c).trans ((kx3_b m ρ c).trans (kx3_a m ρ c))
theorem rx3_a_g (Vr : RVal) : StableHlo.after rc11 Vr (Proc.devRef .tc Cert.ReferenceIdeal.main_v192) = Vr (Proc.devRef .tc Cert.ReferenceIdeal.main_v192) := by
  dsimp only [rc11]
  after_results
theorem rx3_a : Rv11 V (Proc.devRef .tc Cert.ReferenceIdeal.main_v192) = Rv10 V (Proc.devRef .tc Cert.ReferenceIdeal.main_v192) := rx3_a_g (Rv10 V)
theorem rx3_b_g (Vr : RVal) : StableHlo.after rc12 Vr (Proc.devRef .tc Cert.ReferenceIdeal.main_v192) = Vr (Proc.devRef .tc Cert.ReferenceIdeal.main_v192) := by
  dsimp only [rc12]
  after_results
theorem rx3_b : Rv12 V (Proc.devRef .tc Cert.ReferenceIdeal.main_v192) = Rv11 V (Proc.devRef .tc Cert.ReferenceIdeal.main_v192) := rx3_b_g (Rv11 V)
theorem rx3 : Rv12 V (Proc.devRef .tc Cert.ReferenceIdeal.main_v192) = Rv10 V (Proc.devRef .tc Cert.ReferenceIdeal.main_v192) := (rx3_b V).trans (rx3_a V)

/-! ## One layer: projection, message pass, combination -/

/-- Layer 0: from features that agree on entry (and the carried buffers), the layer's two outputs agree. -/
theorem layer0 (hx : W4 m ρ c (Proc.devRef .tc main_v34) = Rv1 V (Proc.devRef .tc Cert.ReferenceIdeal.main_v39)) (hc : Carried (W4 m ρ c) (Rv1 V)) :
    W8 m ρ c (Proc.devRef .tc main_v60_0) = Rv4 V (Proc.devRef .tc Cert.ReferenceIdeal.main_v90)
    ∧ W8 m ρ c (Proc.devRef .tc main_v60_1) = Rv4 V (Proc.devRef .tc Cert.ReferenceIdeal.main_v61)
    ∧ Carried (W8 m ρ c) (Rv4 V) := by
  have hH : W6 m ρ c (Proc.devRef .tc main_v37) = Rv2 V (Proc.devRef .tc Cert.ReferenceIdeal.main_v42) := Cert.Bridge.Mm0.step m ρ c (Rv1 V) hx hc.a4
  have c1 : Carried (W5 m ρ c) (Rv1 V) := kh1 hc
  have c2 : Carried (W6 m ρ c) (Rv1 V) := kr1 m ρ c c1
  have c3 : Carried (W6 m ρ c) (Rv2 V) := r2 c2
  have hconv : W7 m ρ c (Proc.devRef .tc main_v50) = Rv3 V (Proc.devRef .tc Cert.ReferenceIdeal.main_v55) :=
    Cert.Bridge.Msg0.msg (W6 m ρ c) (Rv2 V) hH c3.row c3.col c3.norm
  have c4 : Carried (W6 m ρ c) (Rv3 V) := r3 c3
  have hx' : W7 m ρ c (Proc.devRef .tc main_v34) = Rv3 V (Proc.devRef .tc Cert.ReferenceIdeal.main_v39) := (kx0 m ρ c).trans (hx.trans (rx0 V).symm)
  obtain ⟨h1, h2⟩ := Cert.Bridge.Ln0.step m ρ c (Rv3 V) hx' hconv c4.a5 c4.a6 c4.a7
  have c5 : Carried (W7 m ρ c) (Rv3 V) := kh2 c4
  have c6 : Carried (W8 m ρ c) (Rv3 V) := kr2 m ρ c c5
  exact ⟨h1, h2, r4 c6⟩

/-- Layer 1: from features that agree on entry (and the carried buffers), the layer's two outputs agree. -/
theorem layer1 (hx : W8 m ρ c (Proc.devRef .tc main_v60_0) = Rv4 V (Proc.devRef .tc Cert.ReferenceIdeal.main_v90)) (hc : Carried (W8 m ρ c) (Rv4 V)) :
    W12 m ρ c (Proc.devRef .tc main_v86_0) = Rv7 V (Proc.devRef .tc Cert.ReferenceIdeal.main_v141)
    ∧ W12 m ρ c (Proc.devRef .tc main_v86_1) = Rv7 V (Proc.devRef .tc Cert.ReferenceIdeal.main_v112)
    ∧ Carried (W12 m ρ c) (Rv7 V) := by
  have hH : W10 m ρ c (Proc.devRef .tc main_v63) = Rv5 V (Proc.devRef .tc Cert.ReferenceIdeal.main_v93) := Cert.Bridge.Mm1.step m ρ c (Rv4 V) hx hc.a4
  have c1 : Carried (W9 m ρ c) (Rv4 V) := kh3 hc
  have c2 : Carried (W10 m ρ c) (Rv4 V) := kr3 m ρ c c1
  have c3 : Carried (W10 m ρ c) (Rv5 V) := r5 c2
  have hconv : W11 m ρ c (Proc.devRef .tc main_v76) = Rv6 V (Proc.devRef .tc Cert.ReferenceIdeal.main_v106) :=
    Cert.Bridge.Msg1.msg (W10 m ρ c) (Rv5 V) hH c3.row c3.col c3.norm
  have c4 : Carried (W10 m ρ c) (Rv6 V) := r6 c3
  have hx' : W11 m ρ c (Proc.devRef .tc main_v60_0) = Rv6 V (Proc.devRef .tc Cert.ReferenceIdeal.main_v90) := (kx1 m ρ c).trans (hx.trans (rx1 V).symm)
  obtain ⟨h1, h2⟩ := Cert.Bridge.Ln1.step m ρ c (Rv6 V) hx' hconv c4.a5 c4.a6 c4.a7
  have c5 : Carried (W11 m ρ c) (Rv6 V) := kh4 c4
  have c6 : Carried (W12 m ρ c) (Rv6 V) := kr4 m ρ c c5
  exact ⟨h1, h2, r7 c6⟩

/-- Layer 2: from features that agree on entry (and the carried buffers), the layer's two outputs agree. -/
theorem layer2 (hx : W12 m ρ c (Proc.devRef .tc main_v86_0) = Rv7 V (Proc.devRef .tc Cert.ReferenceIdeal.main_v141)) (hc : Carried (W12 m ρ c) (Rv7 V)) :
    W16 m ρ c (Proc.devRef .tc main_v112_0) = Rv10 V (Proc.devRef .tc Cert.ReferenceIdeal.main_v192)
    ∧ W16 m ρ c (Proc.devRef .tc main_v112_1) = Rv10 V (Proc.devRef .tc Cert.ReferenceIdeal.main_v163)
    ∧ Carried (W16 m ρ c) (Rv10 V) := by
  have hH : W14 m ρ c (Proc.devRef .tc main_v89) = Rv8 V (Proc.devRef .tc Cert.ReferenceIdeal.main_v144) := Cert.Bridge.Mm2.step m ρ c (Rv7 V) hx hc.a4
  have c1 : Carried (W13 m ρ c) (Rv7 V) := kh5 hc
  have c2 : Carried (W14 m ρ c) (Rv7 V) := kr5 m ρ c c1
  have c3 : Carried (W14 m ρ c) (Rv8 V) := r8 c2
  have hconv : W15 m ρ c (Proc.devRef .tc main_v102) = Rv9 V (Proc.devRef .tc Cert.ReferenceIdeal.main_v157) :=
    Cert.Bridge.Msg2.msg (W14 m ρ c) (Rv8 V) hH c3.row c3.col c3.norm
  have c4 : Carried (W14 m ρ c) (Rv9 V) := r9 c3
  have hx' : W15 m ρ c (Proc.devRef .tc main_v86_0) = Rv9 V (Proc.devRef .tc Cert.ReferenceIdeal.main_v141) := (kx2 m ρ c).trans (hx.trans (rx2 V).symm)
  obtain ⟨h1, h2⟩ := Cert.Bridge.Ln2.step m ρ c (Rv9 V) hx' hconv c4.a5 c4.a6 c4.a7
  have c5 : Carried (W15 m ρ c) (Rv9 V) := kh6 c4
  have c6 : Carried (W16 m ρ c) (Rv9 V) := kr6 m ρ c c5
  exact ⟨h1, h2, r10 c6⟩

/-- The last layer: projection, message pass, and the combination without a layer norm. -/
theorem layer3 (hx : W16 m ρ c (Proc.devRef .tc main_v112_0) = Rv10 V (Proc.devRef .tc Cert.ReferenceIdeal.main_v192)) (hc : Carried (W16 m ρ c) (Rv10 V)) :
    W20 m ρ c (Proc.devRef .tc main_v132_1) = Rv13 V (Proc.devRef .tc Cert.ReferenceIdeal.main_v214)
    ∧ W20 m ρ c (Proc.devRef .tc main_v132_0) = Rv13 V (Proc.devRef .tc Cert.ReferenceIdeal.main_v215)
    ∧ Carried (W20 m ρ c) (Rv13 V) := by
  have hH : W18 m ρ c (Proc.devRef .tc main_v115) = Rv11 V (Proc.devRef .tc Cert.ReferenceIdeal.main_v195) := Cert.Bridge.Mm3.step m ρ c (Rv10 V) hx hc.a4
  have c1 : Carried (W17 m ρ c) (Rv10 V) := kh7 hc
  have c2 : Carried (W18 m ρ c) (Rv10 V) := kr7 m ρ c c1
  have c3 : Carried (W18 m ρ c) (Rv11 V) := r11 c2
  have hconv : W19 m ρ c (Proc.devRef .tc main_v128) = Rv12 V (Proc.devRef .tc Cert.ReferenceIdeal.main_v208) :=
    Cert.Bridge.Msg3.msg (W18 m ρ c) (Rv11 V) hH c3.row c3.col c3.norm
  have c4 : Carried (W18 m ρ c) (Rv12 V) := r12 c3
  have hx' : W19 m ρ c (Proc.devRef .tc main_v112_0) = Rv12 V (Proc.devRef .tc Cert.ReferenceIdeal.main_v192) := (kx3 m ρ c).trans (hx.trans (rx3 V).symm)
  obtain ⟨h1, h2⟩ := Cert.Bridge.Fin.step m ρ c (Rv12 V) hx' hconv c4.a5
  have c5 : Carried (W19 m ρ c) (Rv12 V) := kh8 c4
  have c6 : Carried (W20 m ρ c) (Rv12 V) := kr8 m ρ c c5
  exact ⟨h1, h2, r13 c6⟩

/-! ## The head: graph normalisation and embedding -/

theorem karg2 : W3 m ρ c (Proc.devRef .tc main_arg2) = W0 m ρ c (Proc.devRef .tc main_arg2) := by
  show StableHlo.after hostOps0_2 (StableHlo.after hostOps0_1 (StableHlo.after hostOps0 (W0 m ρ c))) (Proc.devRef .tc main_arg2) = _
  dsimp only [hostOps0, hostOps0_1, hostOps0_2]
  after_results
theorem karg3 : W3 m ρ c (Proc.devRef .tc main_arg3) = W0 m ρ c (Proc.devRef .tc main_arg3) := by
  show StableHlo.after hostOps0_2 (StableHlo.after hostOps0_1 (StableHlo.after hostOps0 (W0 m ρ c))) (Proc.devRef .tc main_arg3) = _
  dsimp only [hostOps0, hostOps0_1, hostOps0_2]
  after_results
theorem karg4 : W3 m ρ c (Proc.devRef .tc main_arg4) = W0 m ρ c (Proc.devRef .tc main_arg4) := by
  show StableHlo.after hostOps0_2 (StableHlo.after hostOps0_1 (StableHlo.after hostOps0 (W0 m ρ c))) (Proc.devRef .tc main_arg4) = _
  dsimp only [hostOps0, hostOps0_1, hostOps0_2]
  after_results
theorem karg5 : W3 m ρ c (Proc.devRef .tc main_arg5) = W0 m ρ c (Proc.devRef .tc main_arg5) := by
  show StableHlo.after hostOps0_2 (StableHlo.after hostOps0_1 (StableHlo.after hostOps0 (W0 m ρ c))) (Proc.devRef .tc main_arg5) = _
  dsimp only [hostOps0, hostOps0_1, hostOps0_2]
  after_results
theorem karg6 : W3 m ρ c (Proc.devRef .tc main_arg6) = W0 m ρ c (Proc.devRef .tc main_arg6) := by
  show StableHlo.after hostOps0_2 (StableHlo.after hostOps0_1 (StableHlo.after hostOps0 (W0 m ρ c))) (Proc.devRef .tc main_arg6) = _
  dsimp only [hostOps0, hostOps0_1, hostOps0_2]
  after_results
theorem karg7 : W3 m ρ c (Proc.devRef .tc main_arg7) = W0 m ρ c (Proc.devRef .tc main_arg7) := by
  show StableHlo.after hostOps0_2 (StableHlo.after hostOps0_1 (StableHlo.after hostOps0 (W0 m ρ c))) (Proc.devRef .tc main_arg7) = _
  dsimp only [hostOps0, hostOps0_1, hostOps0_2]
  after_results
theorem karg8 : W3 m ρ c (Proc.devRef .tc main_arg8) = W0 m ρ c (Proc.devRef .tc main_arg8) := by
  show StableHlo.after hostOps0_2 (StableHlo.after hostOps0_1 (StableHlo.after hostOps0 (W0 m ρ c))) (Proc.devRef .tc main_arg8) = _
  dsimp only [hostOps0, hostOps0_1, hostOps0_2]
  after_results
theorem karg9 : W3 m ρ c (Proc.devRef .tc main_arg9) = W0 m ρ c (Proc.devRef .tc main_arg9) := by
  show StableHlo.after hostOps0_2 (StableHlo.after hostOps0_1 (StableHlo.after hostOps0 (W0 m ρ c))) (Proc.devRef .tc main_arg9) = _
  dsimp only [hostOps0, hostOps0_1, hostOps0_2]
  after_results
theorem karg10 : W3 m ρ c (Proc.devRef .tc main_arg10) = W0 m ρ c (Proc.devRef .tc main_arg10) := by
  show StableHlo.after hostOps0_2 (StableHlo.after hostOps0_1 (StableHlo.after hostOps0 (W0 m ρ c))) (Proc.devRef .tc main_arg10) = _
  dsimp only [hostOps0, hostOps0_1, hostOps0_2]
  after_results
theorem karg11 : W3 m ρ c (Proc.devRef .tc main_arg11) = W0 m ρ c (Proc.devRef .tc main_arg11) := by
  show StableHlo.after hostOps0_2 (StableHlo.after hostOps0_1 (StableHlo.after hostOps0 (W0 m ρ c))) (Proc.devRef .tc main_arg11) = _
  dsimp only [hostOps0, hostOps0_1, hostOps0_2]
  after_results
theorem rarg0 : Rv0 V (Proc.devRef .tc Cert.ReferenceIdeal.main_arg0) = V (Proc.devRef .tc Cert.ReferenceIdeal.main_arg0) := by
  show StableHlo.after rc0 V (Proc.devRef .tc Cert.ReferenceIdeal.main_arg0) = _
  dsimp only [rc0]
  after_results
theorem rarg2 : Rv0 V (Proc.devRef .tc Cert.ReferenceIdeal.main_arg2) = V (Proc.devRef .tc Cert.ReferenceIdeal.main_arg2) := by
  show StableHlo.after rc0 V (Proc.devRef .tc Cert.ReferenceIdeal.main_arg2) = _
  dsimp only [rc0]
  after_results
theorem rarg3 : Rv0 V (Proc.devRef .tc Cert.ReferenceIdeal.main_arg3) = V (Proc.devRef .tc Cert.ReferenceIdeal.main_arg3) := by
  show StableHlo.after rc0 V (Proc.devRef .tc Cert.ReferenceIdeal.main_arg3) = _
  dsimp only [rc0]
  after_results
theorem rarg4 : Rv0 V (Proc.devRef .tc Cert.ReferenceIdeal.main_arg4) = V (Proc.devRef .tc Cert.ReferenceIdeal.main_arg4) := by
  show StableHlo.after rc0 V (Proc.devRef .tc Cert.ReferenceIdeal.main_arg4) = _
  dsimp only [rc0]
  after_results
theorem rarg5 : Rv0 V (Proc.devRef .tc Cert.ReferenceIdeal.main_arg5) = V (Proc.devRef .tc Cert.ReferenceIdeal.main_arg5) := by
  show StableHlo.after rc0 V (Proc.devRef .tc Cert.ReferenceIdeal.main_arg5) = _
  dsimp only [rc0]
  after_results
theorem rarg6 : Rv0 V (Proc.devRef .tc Cert.ReferenceIdeal.main_arg6) = V (Proc.devRef .tc Cert.ReferenceIdeal.main_arg6) := by
  show StableHlo.after rc0 V (Proc.devRef .tc Cert.ReferenceIdeal.main_arg6) = _
  dsimp only [rc0]
  after_results
theorem rarg7 : Rv0 V (Proc.devRef .tc Cert.ReferenceIdeal.main_arg7) = V (Proc.devRef .tc Cert.ReferenceIdeal.main_arg7) := by
  show StableHlo.after rc0 V (Proc.devRef .tc Cert.ReferenceIdeal.main_arg7) = _
  dsimp only [rc0]
  after_results
theorem rarg8 : Rv0 V (Proc.devRef .tc Cert.ReferenceIdeal.main_arg8) = V (Proc.devRef .tc Cert.ReferenceIdeal.main_arg8) := by
  show StableHlo.after rc0 V (Proc.devRef .tc Cert.ReferenceIdeal.main_arg8) = _
  dsimp only [rc0]
  after_results
theorem rarg9 : Rv0 V (Proc.devRef .tc Cert.ReferenceIdeal.main_arg9) = V (Proc.devRef .tc Cert.ReferenceIdeal.main_arg9) := by
  show StableHlo.after rc0 V (Proc.devRef .tc Cert.ReferenceIdeal.main_arg9) = _
  dsimp only [rc0]
  after_results
theorem rarg10 : Rv0 V (Proc.devRef .tc Cert.ReferenceIdeal.main_arg10) = V (Proc.devRef .tc Cert.ReferenceIdeal.main_arg10) := by
  show StableHlo.after rc0 V (Proc.devRef .tc Cert.ReferenceIdeal.main_arg10) = _
  dsimp only [rc0]
  after_results
theorem rarg11 : Rv0 V (Proc.devRef .tc Cert.ReferenceIdeal.main_arg11) = V (Proc.devRef .tc Cert.ReferenceIdeal.main_arg11) := by
  show StableHlo.after rc0 V (Proc.devRef .tc Cert.ReferenceIdeal.main_arg11) = _
  dsimp only [rc0]
  after_results

/-- From launch contents that agree on the arguments, with node types in range: after the embedding the node
    features agree, and so do the carried buffers. -/
theorem head (h0 : W0 m ρ c (Proc.devRef .tc main_arg0) = V (Proc.devRef .tc Cert.ReferenceIdeal.main_arg0))
    (h1 : W0 m ρ c (Proc.devRef .tc main_arg1) = V (Proc.devRef .tc Cert.ReferenceIdeal.main_arg1))
    (h2 : W0 m ρ c (Proc.devRef .tc main_arg2) = V (Proc.devRef .tc Cert.ReferenceIdeal.main_arg2))
    (h3 : W0 m ρ c (Proc.devRef .tc main_arg3) = V (Proc.devRef .tc Cert.ReferenceIdeal.main_arg3))
    (h4 : W0 m ρ c (Proc.devRef .tc main_arg4) = V (Proc.devRef .tc Cert.ReferenceIdeal.main_arg4))
    (h5 : W0 m ρ c (Proc.devRef .tc main_arg5) = V (Proc.devRef .tc Cert.ReferenceIdeal.main_arg5))
    (h6 : W0 m ρ c (Proc.devRef .tc main_arg6) = V (Proc.devRef .tc Cert.ReferenceIdeal.main_arg6))
    (h7 : W0 m ρ c (Proc.devRef .tc main_arg7) = V (Proc.devRef .tc Cert.ReferenceIdeal.main_arg7))
    (h8 : W0 m ρ c (Proc.devRef .tc main_arg8) = V (Proc.devRef .tc Cert.ReferenceIdeal.main_arg8))
    (h9 : W0 m ρ c (Proc.devRef .tc main_arg9) = V (Proc.devRef .tc Cert.ReferenceIdeal.main_arg9))
    (h10 : W0 m ρ c (Proc.devRef .tc main_arg10) = V (Proc.devRef .tc Cert.ReferenceIdeal.main_arg10))
    (h11 : W0 m ρ c (Proc.devRef .tc main_arg11) = V (Proc.devRef .tc Cert.ReferenceIdeal.main_arg11))
    (hr : ∀ i : S100000.Idx, (0 : Int) ≤ (V (Proc.devRef .tc Cert.ReferenceIdeal.main_arg0) i).toInt ∧ (V (Proc.devRef .tc Cert.ReferenceIdeal.main_arg0) i).toInt < 32) :
    W4 m ρ c (Proc.devRef .tc main_v34) = Rv1 V (Proc.devRef .tc Cert.ReferenceIdeal.main_v39) ∧ Carried (W4 m ρ c) (Rv1 V) := by
  obtain ⟨p3, p7, p32, p33⟩ := Cert.Bridge.Pre.pre (W0 m ρ c) V h0 h1
  have h33 : W3 m ρ c (Proc.devRef .tc main_v33) = shapeCast S100000x1 (Rv0 V (Proc.devRef .tc Cert.ReferenceIdeal.main_arg0)) shapeCasts_S100000_S100000x1 := by
    rw [rarg0 V]; exact p33
  have hr' : ∀ i : S100000.Idx, (0 : Int) ≤ (Rv0 V (Proc.devRef .tc Cert.ReferenceIdeal.main_arg0) i).toInt ∧ (Rv0 V (Proc.devRef .tc Cert.ReferenceIdeal.main_arg0) i).toInt < 32 := by
    intro i; rw [rarg0 V]; exact hr i
  have hemb : W4 m ρ c (Proc.devRef .tc main_v34) = Rv1 V (Proc.devRef .tc Cert.ReferenceIdeal.main_v39) :=
    Cert.Bridge.Emb.step m ρ c (Rv0 V) h33 ((karg3 m ρ c).trans (h3.trans (rarg3 V).symm)) hr'
  have c3 : Carried (W3 m ρ c) (Rv0 V) :=
    ⟨p3, p7, p32, (karg2 m ρ c).trans (h2.trans (rarg2 V).symm),
      (karg4 m ρ c).trans (h4.trans (rarg4 V).symm),
      (karg5 m ρ c).trans (h5.trans (rarg5 V).symm),
      (karg6 m ρ c).trans (h6.trans (rarg6 V).symm),
      (karg7 m ρ c).trans (h7.trans (rarg7 V).symm),
      (karg8 m ρ c).trans (h8.trans (rarg8 V).symm),
      (karg9 m ρ c).trans (h9.trans (rarg9 V).symm),
      (karg10 m ρ c).trans (h10.trans (rarg10 V).symm),
      (karg11 m ρ c).trans (h11.trans (rarg11 V).symm)⟩
  exact ⟨hemb, r1 (kr0 m ρ c c3)⟩

/-! ## The tail: readout, and the last layer's sum carried to the end -/

theorem ke_a : W21 m ρ c (Proc.devRef .tc main_v132_1) = W20 m ρ c (Proc.devRef .tc main_v132_1) := by
  show StableHlo.after hostOps9 (W20 m ρ c) (Proc.devRef .tc main_v132_1) = _
  dsimp only [hostOps9]
  after_results
theorem ke_b : W22 m ρ c (Proc.devRef .tc main_v132_1) = W21 m ρ c (Proc.devRef .tc main_v132_1) := W22_of_ne m ρ c main_v132_1 (by decide)
theorem ke_c : W23 m ρ c (Proc.devRef .tc main_v132_1) = W22 m ρ c (Proc.devRef .tc main_v132_1) := by
  show StableHlo.after hostOps10 (W22 m ρ c) (Proc.devRef .tc main_v132_1) = _
  dsimp only [hostOps10]
  after_results
theorem re_a_g (Vr : RVal) : StableHlo.after rc14 Vr (Proc.devRef .tc Cert.ReferenceIdeal.main_v214) = Vr (Proc.devRef .tc Cert.ReferenceIdeal.main_v214) := by
  dsimp only [rc14]
  after_results
theorem re_a : Rv14 V (Proc.devRef .tc Cert.ReferenceIdeal.main_v214) = Rv13 V (Proc.devRef .tc Cert.ReferenceIdeal.main_v214) := re_a_g (Rv13 V)
theorem re_b_g (Vr : RVal) : StableHlo.after rc15 Vr (Proc.devRef .tc Cert.ReferenceIdeal.main_v214) = Vr (Proc.devRef .tc Cert.ReferenceIdeal.main_v214) := by
  dsimp only [rc15]
  after_results
theorem re_b : Rv15 V (Proc.devRef .tc Cert.ReferenceIdeal.main_v214) = Rv14 V (Proc.devRef .tc Cert.ReferenceIdeal.main_v214) := re_b_g (Rv14 V)

theorem tail (he : W20 m ρ c (Proc.devRef .tc main_v132_1) = Rv13 V (Proc.devRef .tc Cert.ReferenceIdeal.main_v214)) (hx : W20 m ρ c (Proc.devRef .tc main_v132_0) = Rv13 V (Proc.devRef .tc Cert.ReferenceIdeal.main_v215))
    (hc : Carried (W20 m ρ c) (Rv13 V)) :
    W23 m ρ c (Proc.devRef .tc main_v132_1) = Rv15 V (Proc.devRef .tc Cert.ReferenceIdeal.main_v214) ∧ W23 m ρ c (Proc.devRef .tc main_v143) = Rv15 V (Proc.devRef .tc Cert.ReferenceIdeal.main_v245) :=
  ⟨(ke_c m ρ c).trans ((ke_b m ρ c).trans ((ke_a m ρ c).trans (he.trans ((re_b V).trans (re_a V)).symm))),
   Cert.Bridge.Dense.step m ρ c (Rv13 V) hx hc.a2 hc.a8 hc.a9 hc.a10 hc.a11⟩

/-! ## Both results -/

/-- From launch contents that agree on the arguments, with every node type in [0, 32): the kernel's two result
    buffers end at what the reference's operations leave in its two result buffers. -/
theorem results (h0 : W0 m ρ c (Proc.devRef .tc main_arg0) = V (Proc.devRef .tc Cert.ReferenceIdeal.main_arg0))
    (h1 : W0 m ρ c (Proc.devRef .tc main_arg1) = V (Proc.devRef .tc Cert.ReferenceIdeal.main_arg1))
    (h2 : W0 m ρ c (Proc.devRef .tc main_arg2) = V (Proc.devRef .tc Cert.ReferenceIdeal.main_arg2))
    (h3 : W0 m ρ c (Proc.devRef .tc main_arg3) = V (Proc.devRef .tc Cert.ReferenceIdeal.main_arg3))
    (h4 : W0 m ρ c (Proc.devRef .tc main_arg4) = V (Proc.devRef .tc Cert.ReferenceIdeal.main_arg4))
    (h5 : W0 m ρ c (Proc.devRef .tc main_arg5) = V (Proc.devRef .tc Cert.ReferenceIdeal.main_arg5))
    (h6 : W0 m ρ c (Proc.devRef .tc main_arg6) = V (Proc.devRef .tc Cert.ReferenceIdeal.main_arg6))
    (h7 : W0 m ρ c (Proc.devRef .tc main_arg7) = V (Proc.devRef .tc Cert.ReferenceIdeal.main_arg7))
    (h8 : W0 m ρ c (Proc.devRef .tc main_arg8) = V (Proc.devRef .tc Cert.ReferenceIdeal.main_arg8))
    (h9 : W0 m ρ c (Proc.devRef .tc main_arg9) = V (Proc.devRef .tc Cert.ReferenceIdeal.main_arg9))
    (h10 : W0 m ρ c (Proc.devRef .tc main_arg10) = V (Proc.devRef .tc Cert.ReferenceIdeal.main_arg10))
    (h11 : W0 m ρ c (Proc.devRef .tc main_arg11) = V (Proc.devRef .tc Cert.ReferenceIdeal.main_arg11))
    (hr : ∀ i : S100000.Idx, (0 : Int) ≤ (V (Proc.devRef .tc Cert.ReferenceIdeal.main_arg0) i).toInt ∧ (V (Proc.devRef .tc Cert.ReferenceIdeal.main_arg0) i).toInt < 32) :
    W23 m ρ c (Proc.devRef .tc main_v132_1) = StableHlo.after ops V (Proc.devRef .tc Cert.ReferenceIdeal.main_v214)
    ∧ W23 m ρ c (Proc.devRef .tc main_v143) = StableHlo.after ops V (Proc.devRef .tc Cert.ReferenceIdeal.main_v245) := by
  rw [after_ops]
  obtain ⟨x0, c0⟩ := head m ρ c V h0 h1 h2 h3 h4 h5 h6 h7 h8 h9 h10 h11 hr
  obtain ⟨x1, _, c1⟩ := layer0 m ρ c V x0 c0
  obtain ⟨x2, _, c2⟩ := layer1 m ρ c V x1 c1
  obtain ⟨x3, _, c3⟩ := layer2 m ρ c V x2 c2
  obtain ⟨e, x4, c4⟩ := layer3 m ρ c V x3 c3
  exact tail m ρ c V e x4 c4

end Cert.Bridge.Main

end
-- ==== Proof.lean ====
/-
  A four-layer graph convolution network, its dense parts as ten tiled kernels, against its plain reference.

  Both programs normalise the graph by the same host operations (self loops appended, degrees by a scatter-add,
  inverse square roots, edge weights as a product of two gathers) and pass messages by the same host gather,
  product and scatter-add. The kernels replace the rest: the embedding lookup is a one-hot product with the 32-row
  table (the table's row where the node type lies in [0, 32): the added evident-domain conjunct); each layer's
  projection x·W_i is a matrix product tiled over blocks of 4000 rows, a sum over 128 terms either way; the
  combination new = x + (conv + bias), and the layer norm of max(new, 0) scaled and shifted, is pointwise up to
  row statistics, and a block holds whole rows; the readout is three such products over blocks of 2000 rows.
  At the exact instance a change of float format is the identity, so every kernel region leaves in its arrays what
  the reference's host operations compute, layer by layer (Proof/Bridge.lean); the first result is the last
  layer's sum, the second the flattened scores. No law of the extended reals beyond the ones that read a product
  as a sum is needed, and finiteness of the inputs is never used.
-/
import proofs.«411396_j9594956939372_1_alg».proof.Defs
import proofs.«411396_j9594956939372_1_alg».proof.Proof.Gen.Kernel
import proofs.«411396_j9594956939372_1_alg».proof.Proof.Gen.Kernel.Skeleton
import proofs.«411396_j9594956939372_1_alg».proof.Proof.Gen.Kernel.Launch
import proofs.«411396_j9594956939372_1_alg».proof.Proof.Gen.Kernel.Points
import proofs.«411396_j9594956939372_1_alg».proof.Proof.Gen.Kernel.Frame
import proofs.«411396_j9594956939372_1_alg».proof.Proof.Gen.KernelIdeal
import proofs.«411396_j9594956939372_1_alg».proof.Proof.Gen.KernelIdeal.Skeleton
import proofs.«411396_j9594956939372_1_alg».proof.Proof.Gen.KernelIdeal.Launch
import proofs.«411396_j9594956939372_1_alg».proof.Proof.Gen.KernelIdeal.Points
import proofs.«411396_j9594956939372_1_alg».proof.Proof.Gen.KernelIdeal.Frame
import proofs.«411396_j9594956939372_1_alg».proof.Proof.Gen.ReferenceIdeal
import proofs.«411396_j9594956939372_1_alg».proof.Proof.Gen.Pre_finite_inputs
import proofs.«411396_j9594956939372_1_alg».proof.Proof.RunValues
import proofs.«411396_j9594956939372_1_alg».proof.Proof.RefRun
import proofs.«411396_j9594956939372_1_alg».proof.Proof.RefFrame
import proofs.«411396_j9594956939372_1_alg».proof.Proof.PreRange
import proofs.«411396_j9594956939372_1_alg».proof.Proof.Bridge
import Idealize.ShloMosaic.Adequacy
import Idealize.ShloMosaic.Init

set_option maxRecDepth 16384

noncomputable section

namespace Cert.Proof

open Idealize.ShloMosaic Idealize.SL.Sem

/-- The reference runs, and none of its operations writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun r h c => ⟨(h c Cert.ReferenceIdeal.main_arg0).trans (Cert.Bridge.RefFrame.arg0 m c),
      (h c Cert.ReferenceIdeal.main_arg1).trans (Cert.Bridge.RefFrame.arg1 m c),
      (h c Cert.ReferenceIdeal.main_arg2).trans (Cert.Bridge.RefFrame.arg2 m c),
      (h c Cert.ReferenceIdeal.main_arg3).trans (Cert.Bridge.RefFrame.arg3 m c),
      (h c Cert.ReferenceIdeal.main_arg4).trans (Cert.Bridge.RefFrame.arg4 m c),
      (h c Cert.ReferenceIdeal.main_arg5).trans (Cert.Bridge.RefFrame.arg5 m c),
      (h c Cert.ReferenceIdeal.main_arg6).trans (Cert.Bridge.RefFrame.arg6 m c),
      (h c Cert.ReferenceIdeal.main_arg7).trans (Cert.Bridge.RefFrame.arg7 m c),
      (h c Cert.ReferenceIdeal.main_arg8).trans (Cert.Bridge.RefFrame.arg8 m c),
      (h c Cert.ReferenceIdeal.main_arg9).trans (Cert.Bridge.RefFrame.arg9 m c),
      (h c Cert.ReferenceIdeal.main_arg10).trans (Cert.Bridge.RefFrame.arg10 m c),
      (h c Cert.ReferenceIdeal.main_arg11).trans (Cert.Bridge.RefFrame.arg11 m c)⟩)
    (Cert.ReferenceIdeal.RunP.run_fold (F := Ideal) m ρ)

/-- The two idealized programs, from memories that agree on the arguments and satisfy the precondition, end with
    equal results: the kernel's at its last boundary's contents, the reference's at the fold of its operations,
    and the two are equal (Proof/Bridge.lean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W23 m ρ c (Proc.devRef .tc Cert.KernelIdeal.main_v132_1),
    fun c => Cert.KernelIdeal.Gen.W23 m ρ c (Proc.devRef .tc Cert.KernelIdeal.main_v143),
    Cert.KernelIdeal.GenV.run_values m ρ, ?_⟩
  refine (θ_run Cert.ReferenceIdeal.defs _ _).mono (fun r h c => ?_) (Cert.ReferenceIdeal.RunP.run_fold (F := Ideal) m' ρ')
  have hr : ∀ i : Cert.ReferenceIdeal.S100000.Idx,
      (0 : Int) ≤ (StableHlo.launchContents m' c (Proc.devRef .tc Cert.ReferenceIdeal.main_arg0) i).toInt
      ∧ (StableHlo.launchContents m' c (Proc.devRef .tc Cert.ReferenceIdeal.main_arg0) i).toInt < 32 := by
    intro i
    have h0 := (hagree c).1
    have := Cert.Bridge.PreRange.range (hF := Cert.Pre_finite_inputs.Gen.facts) _ _ _ _ _ _ _ _ _ _ _ _ (hpre c) i
    rw [← h0] at this
    exact this
  have hres := Cert.Bridge.Main.results m ρ c (StableHlo.launchContents m' c)
    (hagree c).1.symm
    (hagree c).2.1.symm
    (hagree c).2.2.1.symm
    (hagree c).2.2.2.1.symm
    (hagree c).2.2.2.2.1.symm
    (hagree c).2.2.2.2.2.1.symm
    (hagree c).2.2.2.2.2.2.1.symm
    (hagree c).2.2.2.2.2.2.2.1.symm
    (hagree c).2.2.2.2.2.2.2.2.1.symm
    (hagree c).2.2.2.2.2.2.2.2.2.1.symm
    (hagree c).2.2.2.2.2.2.2.2.2.2.1.symm
    (hagree c).2.2.2.2.2.2.2.2.2.2.2.symm
    hr
  exact ⟨(h c Cert.ReferenceIdeal.main_v214).trans hres.1.symm, (h c Cert.ReferenceIdeal.main_v245).trans hres.2.symm,
    (h c Cert.ReferenceIdeal.main_arg0).trans (Cert.Bridge.RefFrame.arg0 m' c),
    (h c Cert.ReferenceIdeal.main_arg1).trans (Cert.Bridge.RefFrame.arg1 m' c),
    (h c Cert.ReferenceIdeal.main_arg2).trans (Cert.Bridge.RefFrame.arg2 m' c),
    (h c Cert.ReferenceIdeal.main_arg3).trans (Cert.Bridge.RefFrame.arg3 m' c),
    (h c Cert.ReferenceIdeal.main_arg4).trans (Cert.Bridge.RefFrame.arg4 m' c),
    (h c Cert.ReferenceIdeal.main_arg5).trans (Cert.Bridge.RefFrame.arg5 m' c),
    (h c Cert.ReferenceIdeal.main_arg6).trans (Cert.Bridge.RefFrame.arg6 m' c),
    (h c Cert.ReferenceIdeal.main_arg7).trans (Cert.Bridge.RefFrame.arg7 m' c),
    (h c Cert.ReferenceIdeal.main_arg8).trans (Cert.Bridge.RefFrame.arg8 m' c),
    (h c Cert.ReferenceIdeal.main_arg9).trans (Cert.Bridge.RefFrame.arg9 m' c),
    (h c Cert.ReferenceIdeal.main_arg10).trans (Cert.Bridge.RefFrame.arg10 m' c),
    (h c Cert.ReferenceIdeal.main_arg11).trans (Cert.Bridge.RefFrame.arg11 m' c)⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
